-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1 : Shape := ⟨2, ![1, 1]⟩
abbrev S1x1x1024 : Shape := ⟨3, ![1, 1, 1024]⟩
abbrev S100x1024 : Shape := ⟨2, ![100, 1024]⟩
abbrev S50257x1024 : Shape := ⟨2, ![50257, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S100x1024 : S_.BroadcastsInDim S100x1024 (![] : Fin 0 → Fin S100x1024.rank)
  reducesTo_S100x1024_S_d0_1 : S100x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S100x2048 : S_.BroadcastsInDim S100x2048 (![] : Fin 0 → Fin S100x2048.rank)
  reducesTo_S100x2048_S_d0_1 : S100x2048.ReducesTo [0, 1] S_
  bcast_S_S100 : S_.BroadcastsInDim S100 (![] : Fin 0 → Fin S100.rank)
  reducesTo_S100_S_d0 : S100.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_arg0 : IVec S1x1 32) (main_v67 : IVec S_ 1) : IVec S_ 1 :=
  let main_c_26 : IVec S_ 32 := constantI S_ 32 50257#32
  let main_v68 : IVec S1x1 32 := broadcastInDim S1x1 ![] bcast_S_S1x1 main_c_26
  let main_v69 : IVec S1x1 1 := cmpi .slt main_arg0 main_v68
  let main_c_27 : IVec S_ 1 := constantI S_ 1 1#1
  let main_v70 : IVec S_ 1 := (fun x v => Host.reduce IntOp.andi x v reducesTo_S1x1_S_d0_1 h_S_) main_v69 main_c_27
  let main_v71 : IVec S_ 1 := andi main_v67 main_v70
  main_v71

def fn_part3 {F : FTy → Type} [FloatOps F] (main_arg0 : IVec S1x1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1x1 32 := broadcastInDim S1x1 ![] bcast_S_S1x1 main_c_24
  let main_v65 : IVec S1x1 1 := cmpi .sge main_arg0 main_v64
  let main_c_25 : IVec S_ 1 := constantI S_ 1 1#1
  let main_v66 : IVec S_ 1 := (fun x v => Host.reduce IntOp.andi x v reducesTo_S1x1_S_d0_1 h_S_) main_v65 main_c_25
  let main_v67 : IVec S_ 1 := andi main_v63 main_v66
  fn_part4 (F := F) main_arg0 main_v67

def fn_part2 {F : FTy → Type} [FloatOps F] (main_arg0 : IVec S1x1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1x1 32) (main_arg5 : FVec F S100 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S100x2048 1) : IVec S_ 1 :=
  let main_c_5 : IVec S_ 1 := constantI S_ 1 1#1
  let main_v17 : IVec S_ 1 := (fun x v => Host.reduce IntOp.andi x v reducesTo_S100x2048_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1x1 32) (main_arg1 : FVec F S1x1x1024 .f32) (main_arg2 : FVec F S100x1024 .f32) (main_arg3 : FVec F S50257x1024 .f32) (main_arg4 : FVec F S100x2048 .f32) (main_arg5 : FVec F S100 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S100x1024 .f32 := Host.absf main_arg2
  let main_cst_0 : FVec F S_ .f32 := constant S_ .f32 0x7F800000#32
  let main_v5 : FVec F S100x1024 .f32 := broadcastInDim S100x1024 ![] bcast_S_S100x1024 main_cst_0
  let main_v6 : IVec S100x1024 1 := cmpf .olt main_v4 main_v5
  let main_c_1 : IVec S_ 1 := constantI S_ 1 1#1
  let main_v7 : IVec S_ 1 := (fun x v => Host.reduce IntOp.andi x v reducesTo_S100x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S100x2048 .f32 := Host.absf main_arg4
  let main_cst_4 : FVec F S_ .f32 := constant S_ .f32 0x7F800000#32
  let main_v15 : FVec F S100x2048 .f32 := broadcastInDim S100x2048 ![] bcast_S_S100x2048 main_cst_4
  let main_v16 : IVec S100x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1x1 : Shape := ⟨2, ![1, 1]⟩
abbrev S1x1x1024 : Shape := ⟨3, ![1, 1, 1024]⟩
abbrev S100x1024 : Shape := ⟨2, ![100, 1024]⟩
abbrev S50257x1024 : Shape := ⟨2, ![50257, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1 : Shape := ⟨1, ![1]⟩
abbrev S1x1024 : Shape := ⟨2, ![1, 1024]⟩
abbrev S1x100 : Shape := ⟨2, ![1, 100]⟩
abbrev S1x3072 : Shape := ⟨2, ![1, 3072]⟩
abbrev S1x50257 : Shape := ⟨2, ![1, 50257]⟩
abbrev S1x2048 : Shape := ⟨2, ![1, 2048]⟩
abbrev S1024x1024 : Shape := ⟨2, ![1024, 1024]⟩
abbrev S3200x1024 : Shape := ⟨2, ![3200, 1024]⟩
abbrev S1x3200 : Shape := ⟨2, ![1, 3200]⟩

abbrev nBuf : Space → Nat
  | .hbm => 95
  | .vmem => 30
  | .smem => 0
  | _ => 0

abbrev bufTy : (tb : Table) → Fin (tcTables nBuf tb) → BufTy
  | .hbm, ⟨0, _⟩ => ⟨S1x1, .i32⟩
  | .hbm, ⟨1, _⟩ => ⟨S1x1x1024, .f32⟩
  | .hbm, ⟨2, _⟩ => ⟨S100x1024, .f32⟩
  | .hbm, ⟨3, _⟩ => ⟨S50257x1024, .f32⟩
  | .hbm, ⟨4, _⟩ => ⟨S100x2048, .f32⟩
  | .hbm, ⟨5, _⟩ => ⟨S100, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S1, .i1⟩
  | .hbm, ⟨25, _⟩ => ⟨S1, .i1⟩
  | .hbm, ⟨26, _⟩ => ⟨S1, .i1⟩
  | .hbm, ⟨27, _⟩ => ⟨S_, .i1⟩
  | .hbm, ⟨28, _⟩ => ⟨S_, .i1⟩
  | .hbm, ⟨29, _⟩ => ⟨S1024, .f32⟩
  | .hbm, ⟨30, _⟩ => ⟨S1024, .i1⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S1x100, .f32⟩
  | .hbm, ⟨37, _⟩ => ⟨S1x1024, .f32⟩
  | .hbm, ⟨38, _⟩ => ⟨S1x3072, .f32⟩
  | .hbm, ⟨39, _⟩ => ⟨S1x3072, .f32⟩
  | .hbm, ⟨40, _⟩ => ⟨S1x50257, .f32⟩
  | .hbm, ⟨41, _⟩ => ⟨S1x1024, .f32⟩
  | .hbm, ⟨42, _⟩ => ⟨S1x100, .f32⟩
  | .hbm, ⟨43, _⟩ => ⟨S1x3072, .f32⟩
  | .hbm, ⟨44, _⟩ => ⟨S1x3072, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x50257, .f32⟩
  | .hbm, ⟨79, _⟩ => ⟨S_, .f32⟩
  | .hbm, ⟨80, _⟩ => ⟨S1, .f32⟩
  | .hbm, ⟨81, _⟩ => ⟨S_, .f32⟩
  | .hbm, ⟨82, _⟩ => ⟨S1, .f32⟩
  | .hbm, ⟨83, _⟩ => ⟨S1, .f32⟩
  | .hbm, ⟨84, _⟩ => ⟨S1x1, .f32⟩
  | .hbm, ⟨85, _⟩ => ⟨S1x50257, .f32⟩
  | .hbm, ⟨86, _⟩ => ⟨S1x50257, .f32⟩
  | .hbm, ⟨87, _⟩ => ⟨S1x50257, .f32⟩
  | .hbm, ⟨88, _⟩ => ⟨S_, .f32⟩
  | .hbm, ⟨89, _⟩ => ⟨S1, .f32⟩
  | .hbm, ⟨90, _⟩ => ⟨S1x1, .f32⟩
  | .hbm, ⟨91, _⟩ => ⟨S1x1, .f32⟩
  | .hbm, ⟨92, _⟩ => ⟨S1x50257, .f32⟩
  | .hbm, ⟨93, _⟩ => ⟨S1x50257, .f32⟩
  | .hbm, ⟨94, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S100x1024, .f32⟩
  | .local _ .vmem, ⟨3, _⟩ => ⟨S100x2048, .f32⟩
  | .local _ .vmem, ⟨4, _⟩ => ⟨S1x100, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x100, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S3200x1024, .f32⟩
  | .local _ .vmem, ⟨25, _⟩ => ⟨S3200x1024, .f32⟩
  | .local _ .vmem, ⟨26, _⟩ => ⟨S1x3200, .f32⟩
  | .local _ .vmem, ⟨27, _⟩ => ⟨S1x3200, .f32⟩
  | .local _ .vmem, ⟨28, _⟩ => ⟨S1x3200, .f32⟩
  | .local _ .vmem, ⟨29, _⟩ => ⟨S1x3200, .f32⟩
  | _, _ => ⟨S1x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_c_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_c_1 : Ref sig .tc := ⟨.hbm, 21, rfl⟩
abbrev main_call0_c_2 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_c_3 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_cst : Ref sig .tc := ⟨.hbm, 31, rfl⟩
abbrev main_call0_v11 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9_0 : Ref sig .tc := ⟨.hbm, 41, rfl⟩
abbrev main_v9_1 : Ref sig .tc := ⟨.hbm, 42, rfl⟩
abbrev main_v10_0 : Ref sig .tc := ⟨.hbm, 43, rfl⟩
abbrev main_v10_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst : Ref sig .tc := ⟨.hbm, 54, rfl⟩
abbrev main_v20 : Ref sig .tc := ⟨.hbm, 55, rfl⟩
abbrev main_v21 : Ref sig .tc := ⟨.hbm, 56, rfl⟩
abbrev main_cst_0 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_1 : Ref sig .tc := ⟨.hbm, 63, rfl⟩
abbrev main_v27 : Ref sig .tc := ⟨.hbm, 64, rfl⟩
abbrev main_v28 : Ref sig .tc := ⟨.hbm, 65, rfl⟩
abbrev main_cst_2 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_3 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call1_cst : Ref sig .tc := ⟨.hbm, 79, rfl⟩
abbrev main_call1_v0 : Ref sig .tc := ⟨.hbm, 80, rfl⟩
abbrev main_call1_cst_0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_cst_1 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_v40 : Ref sig .tc := ⟨.hbm, 93, rfl⟩
abbrev main_v41 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3200x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x1_S_ : S1x1.ShapeCasts S_
  bcast_S_S1 : S_.BroadcastsInDim S1 (![] : Fin 0 → Fin S1.rank)
  reducesTo_S1_S_d0 : S1.ReducesTo [0] S_
  h_S_ : 0 < S_.numel
  bcast_S_S1024 : S_.BroadcastsInDim S1024 (![] : Fin 0 → Fin S1024.rank)
  shapeCasts_S1024_S1x1024 : S1024.ShapeCasts S1x1024
  shapeCasts_S1x1x1024_S1x1024 : S1x1x1024.ShapeCasts S1x1024
  shapeCasts_S100_S1x100 : S100.ShapeCasts S1x100
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  bitsLt_bf16_f32 : FTy.bits .bf16 < FTy.bits .f32
  inb_S100x2048_S100x2048_0_0 : ∀ a, (![0, 0] : Fin 2 → Nat) a + S100x2048.size a ≤ S100x2048.size a
  h_S100x2048 : 0 < S100x2048.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  reduces_S1x100_S1 : S1x100.Reduces [1] S1
  shapeCasts_S1_S1x1 : S1.ShapeCasts S1x1
  broadcasts_S1x1_S1x100 : S1x1.Broadcasts S1x100
  inb_S100x1024_S100x1024_0_0 : ∀ a, (![0, 0] : Fin 2 → Nat) a + S100x1024.size a ≤ S100x1024.size a
  h_S100x1024 : 0 < S100x1024.numel
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  reducesTo_S1x50257_S1_d1 : S1x50257.ReducesTo [1] S1
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  shapeCasts_S1x1024_S1x1x1024 : S1x1024.ShapeCasts S1x1x1024
  gather_S50257x1024_S1_S1024_0_0_n_n_0_0_11024_wf : GatherDims.WF S50257x1024 S1 S1024 [0] [0] [] [0] [] 0 ![1, 1024]
  dot_S1x2048_S100x2048_S1x100_1_1_0_0_n_n_wf : DotDims.WF S1x2048 S100x2048 S1x100 [1] [1] [0] [0] [] []
  dot_S1x100_S100x1024_S1x1024_1_0_0_1_n_n_wf : DotDims.WF S1x100 S100x1024 S1x1024 [1] [0] [0] [1] [] []
  dot_S1x2048_S1024x2048_S1x1024_1_1_0_0_n_n_wf : DotDims.WF S1x2048 S1024x2048 S1x1024 [1] [1] [0] [0] [] []
  dot_S1x1024_S1024x1024_S1x1024_1_1_0_0_n_n_wf : DotDims.WF S1x1024 S1024x1024 S1x1024 [1] [1] [0] [0] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x1024.size a ≤ S100x1024.size a
  hwx0_2 : ∀ i : grid0.Coords, EltTy.bits .f32 = 32 ∨ (Rect.block (s := S100x1024) S100x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x2048.size a ≤ S100x2048.size a
  hwx0_3 : ∀ i : grid0.Coords, EltTy.bits .f32 = 32 ∨ (Rect.block (s := S100x2048) S100x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x100.size a ≤ S1x100.size a
  hwx0_8 : ∀ i : grid0.Coords, EltTy.bits .f32 = 32 ∨ (Rect.block (s := S1x100) S1x100.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S3072x1024.size a
  hwx1_2 : ∀ i : grid1.Coords, EltTy.bits .f32 = 32 ∨ (Rect.block (s := S3072x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S3072x1024.size a
  hwx1_3 : ∀ i : grid1.Coords, EltTy.bits .f32 = 32 ∨ (Rect.block (s := S3072x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x3072.size a
  hwx1_4 : ∀ i : grid1.Coords, EltTy.bits .f32 = 32 ∨ (Rect.block (s := S1x3072) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x3072.size a
  hwx1_5 : ∀ i : grid1.Coords, EltTy.bits .f32 = 32 ∨ (Rect.block (s := S1x3072) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x3072.size a
  hwx1_6 : ∀ i : grid1.Coords, EltTy.bits .f32 = 32 ∨ (Rect.block (s := S1x3072) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x3072.size a
  hwx1_7 : ∀ i : grid1.Coords, EltTy.bits .f32 = 32 ∨ (Rect.block (s := S1x3072) S1x1024.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3200x1024.size a < S50257x1024.size a
  hwx2_1 : ∀ i : grid2.Coords, EltTy.bits .f32 = 32 ∨ (Rect.unit (s := S50257x1024) (fun a => cc2_transform_1 i a * S3200x1024.size a) (fun a => (Pipeline.Clip.of (cc2_transform_1 i a) (S3200x1024.size a) (S50257x1024.size a)).extent (S3200x1024.size a)) fun a => Pipeline.Clip.inb (Pipeline.Clip.ok_of (hstart2_1 i a))).WholeWords (EltTy.packing .f32)
  hwxs2_1 : ∀ i : grid2.Coords, EltTy.bits .f32 = 32 ∨ (Rect.unit (s := S3200x1024) (fun _ => 0) (fun a => (Pipeline.Clip.of (cc2_transform_1 i a) (S3200x1024.size a) (S50257x1024.size a)).extent (S3200x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x3200.size a < S1x50257.size a
  hwx2_2 : ∀ i : grid2.Coords, EltTy.bits .f32 = 32 ∨ (Rect.unit (s := S1x50257) (fun a => cc2_transform_2 i a * S1x3200.size a) (fun a => (Pipeline.Clip.of (cc2_transform_2 i a) (S1x3200.size a) (S1x50257.size a)).extent (S1x3200.size a)) fun a => Pipeline.Clip.inb (Pipeline.Clip.ok_of (hstart2_2 i a))).WholeWords (EltTy.packing .f32)
  hwxs2_2 : ∀ i : grid2.Coords, EltTy.bits .f32 = 32 ∨ (Rect.unit (s := S1x3200) (fun _ => 0) (fun a => (Pipeline.Clip.of (cc2_transform_2 i a) (S1x3200.size a) (S1x50257.size a)).extent (S1x3200.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x3200.size a < S1x50257.size a
  hwx2_3 : ∀ i : grid2.Coords, EltTy.bits .f32 = 32 ∨ (Rect.unit (s := S1x50257) (fun a => cc2_transform_3 i a * S1x3200.size a) (fun a => (Pipeline.Clip.of (cc2_transform_3 i a) (S1x3200.size a) (S1x50257.size a)).extent (S1x3200.size a)) fun a => Pipeline.Clip.inb (Pipeline.Clip.ok_of (hstart2_3 i a))).WholeWords (EltTy.packing .f32)
  hwxs2_3 : ∀ i : grid2.Coords, EltTy.bits .f32 = 32 ∨ (Rect.unit (s := S1x3200) (fun _ => 0) (fun a => (Pipeline.Clip.of (cc2_transform_3 i a) (S1x3200.size a) (S1x50257.size a)).extent (S1x3200.size a)) fun a => (Nat.zero_add _).trans_le (Pipeline.Clip.extent_le (Pipeline.Clip.ok_of (hstart2_3 i a)))).WholeWords (EltTy.packing .f32)

variable [Facts₀]

def gather_S50257x1024_S1_S1024_0_0_n_n_0_0_11024 : GatherDims S50257x1024 S1 S1024 where
  offsetDims := [0]
  collapsedSliceDims := [0]
  operandBatchingDims := []
  startIndicesBatchingDims := []
  startIndexMap := [0]
  indexVectorDim := 0
  sliceSizes := ![1, 1024]
  wf := gather_S50257x1024_S1_S1024_0_0_n_n_0_0_11024_wf
def dot_S1x2048_S100x2048_S1x100_1_1_0_0_n_n : DotDims S1x2048 S100x2048 S1x100 where
  lhsContracting := [1]
  rhsContracting := [1]
  lhsNonContracting := [0]
  rhsNonContracting := [0]
  lhsBatch := []
  rhsBatch := []
  wf := dot_S1x2048_S100x2048_S1x100_1_1_0_0_n_n_wf
def dot_S1x100_S100x1024_S1x1024_1_0_0_1_n_n : DotDims S1x100 S100x1024 S1x1024 where
  lhsContracting := [1]
  rhsContracting := [0]
  lhsNonContracting := [0]
  rhsNonContracting := [1]
  lhsBatch := []
  rhsBatch := []
  wf := dot_S1x100_S100x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v2) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x100.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_0) S1x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_1) S1x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v38) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S3200x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v8) S1x3200.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v39) S1x3200.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x1 : Shape := ⟨2, ![1, 1]⟩
abbrev S1x1x1024 : Shape := ⟨3, ![1, 1, 1024]⟩
abbrev S100x1024 : Shape := ⟨2, ![100, 1024]⟩
abbrev S50257x1024 : Shape := ⟨2, ![50257, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S2048x100 : Shape := ⟨2, ![2048, 100]⟩
abbrev S1x100 : Shape := ⟨2, ![1, 100]⟩
abbrev S1 : Shape := ⟨1, ![1]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 124
  | .vmem => 0
  | .smem => 0
  | _ => 0

abbrev bufTy : (tb : Table) → Fin (tcTables nBuf tb) → BufTy
  | .hbm, ⟨0, _⟩ => ⟨S1x1, .i32⟩
  | .hbm, ⟨1, _⟩ => ⟨S1x1x1024, .f32⟩
  | .hbm, ⟨2, _⟩ => ⟨S100x1024, .f32⟩
  | .hbm, ⟨3, _⟩ => ⟨S50257x1024, .f32⟩
  | .hbm, ⟨4, _⟩ => ⟨S100x2048, .f32⟩
  | .hbm, ⟨5, _⟩ => ⟨S100, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S1x1024, .f32⟩
  | .hbm, ⟨32, _⟩ => ⟨S1x1024, .f32⟩
  | .hbm, ⟨33, _⟩ => ⟨S1x2048, .f32⟩
  | .hbm, ⟨34, _⟩ => ⟨S2048x100, .f32⟩
  | .hbm, ⟨35, _⟩ => ⟨S1x100, .f32⟩
  | .hbm, ⟨36, _⟩ => ⟨S1x100, .f32⟩
  | .hbm, ⟨37, _⟩ => ⟨S1x100, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1x1, .f32⟩
  | .hbm, ⟨44, _⟩ => ⟨S1x100, .f32⟩
  | .hbm, ⟨45, _⟩ => ⟨S1x100, .f32⟩
  | .hbm, ⟨46, _⟩ => ⟨S1x100, .f32⟩
  | .hbm, ⟨47, _⟩ => ⟨S_, .f32⟩
  | .hbm, ⟨48, _⟩ => ⟨S1, .f32⟩
  | .hbm, ⟨49, _⟩ => ⟨S1x1, .f32⟩
  | .hbm, ⟨50, _⟩ => ⟨S1x100, .f32⟩
  | .hbm, ⟨51, _⟩ => ⟨S1x100, .f32⟩
  | .hbm, ⟨52, _⟩ => ⟨S1x1024, .f32⟩
  | .hbm, ⟨53, _⟩ => ⟨S1x1024, .f32⟩
  | .hbm, ⟨54, _⟩ => ⟨S1x2048, .f32⟩
  | .hbm, ⟨55, _⟩ => ⟨S2048x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1024x3072, .f32⟩
  | .hbm, ⟨64, _⟩ => ⟨S1x3072, .f32⟩
  | .hbm, ⟨65, _⟩ => ⟨S1x3072, .f32⟩
  | .hbm, ⟨66, _⟩ => ⟨S1x3072, .f32⟩
  | .hbm, ⟨67, _⟩ => ⟨S1024x3072, .f32⟩
  | .hbm, ⟨68, _⟩ => ⟨S1x3072, .f32⟩
  | .hbm, ⟨69, _⟩ => ⟨S1x3072, .f32⟩
  | .hbm, ⟨70, _⟩ => ⟨S1x3072, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S_, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1024x50257, .f32⟩
  | .hbm, ⟨105, _⟩ => ⟨S1x50257, .f32⟩
  | .hbm, ⟨106, _⟩ => ⟨S1x50257, .f32⟩
  | .hbm, ⟨107, _⟩ => ⟨S1x50257, .f32⟩
  | .hbm, ⟨108, _⟩ => ⟨S_, .f32⟩
  | .hbm, ⟨109, _⟩ => ⟨S1, .f32⟩
  | .hbm, ⟨110, _⟩ => ⟨S_, .f32⟩
  | .hbm, ⟨111, _⟩ => ⟨S1, .f32⟩
  | .hbm, ⟨112, _⟩ => ⟨S1, .f32⟩
  | .hbm, ⟨113, _⟩ => ⟨S1x1, .f32⟩
  | .hbm, ⟨114, _⟩ => ⟨S1x50257, .f32⟩
  | .hbm, ⟨115, _⟩ => ⟨S1x50257, .f32⟩
  | .hbm, ⟨116, _⟩ => ⟨S1x50257, .f32⟩
  | .hbm, ⟨117, _⟩ => ⟨S_, .f32⟩
  | .hbm, ⟨118, _⟩ => ⟨S1, .f32⟩
  | .hbm, ⟨119, _⟩ => ⟨S1x1, .f32⟩
  | .hbm, ⟨120, _⟩ => ⟨S1x1, .f32⟩
  | .hbm, ⟨121, _⟩ => ⟨S1x50257, .f32⟩
  | .hbm, ⟨122, _⟩ => ⟨S1x50257, .f32⟩
  | .hbm, ⟨123, _⟩ => ⟨S1x1x1024, .f32⟩
  | _, _ => ⟨S1x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call0_cst : Ref sig .tc := ⟨.hbm, 59, rfl⟩
abbrev main_call0_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call1_cst : Ref sig .tc := ⟨.hbm, 108, rfl⟩
abbrev main_call1_v0 : Ref sig .tc := ⟨.hbm, 109, rfl⟩
abbrev main_call1_cst_0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_cst_1 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_v77 : Ref sig .tc := ⟨.hbm, 122, rfl⟩
abbrev main_v78 : Ref sig .tc := ⟨.hbm, 123, rfl⟩

abbrev nD : Nat := 1
abbrev τ : Topo := Topo.v7x

variable {F : FTy → Type} [FloatOps F]

class Facts₀ : Prop where
  shapeCasts_S1x1_S_ : S1x1.ShapeCasts S_
  sliceFits_S50257x1024_S1x1024 : S50257x1024.Slices (fun _ => 0) S1x1024
  h_S_ : 0 < S_.numel
  shapeCasts_S1x1024_S1024 : S1x1024.ShapeCasts S1024
  shapeCasts_S1024_S1x1x1024 : S1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S100x2048_S2048x100_1_0 : S100x2048.Transposes [1, 0] S2048x100
  bcast_S100_S1x100_1 : S100.BroadcastsInDim S1x100 (![1] : Fin 1 → Fin S1x100.rank)
  reducesTo_S1x100_S1_d1 : S1x100.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x100_0_1 : S1x1.BroadcastsInDim S1x100 (![0, 1] : Fin 2 → Fin S1x100.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x100_S1x100_1_0_0_1_n_n_wf : DotDims.WF S1x2048 S2048x100 S1x100 [1] [0] [0] [1] [] []
  dot_S1x100_S100x1024_S1x1024_1_0_0_1_n_n_wf : DotDims.WF S1x100 S100x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def dot_S1x2048_S2048x100_S1x100_1_0_0_1_n_n : DotDims S1x2048 S2048x100 S1x100 where
  lhsContracting := [1]
  rhsContracting := [0]
  lhsNonContracting := [0]
  rhsNonContracting := [1]
  lhsBatch := []
  rhsBatch := []
  wf := dot_S1x2048_S2048x100_S1x100_1_0_0_1_n_n_wf
def dot_S1x100_S100x1024_S1x1024_1_0_0_1_n_n : DotDims S1x100 S100x1024 S1x1024 where
  lhsContracting := [1]
  rhsContracting := [0]
  lhsNonContracting := [0]
  rhsNonContracting := [1]
  lhsBatch := []
  rhsBatch := []
  wf := dot_S1x100_S100x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Reg0.lean ====
import proofs.«411164_j15539191677010_3_alg».proof.Proof.Gen.Kernel.Launch
import proofs.«411164_j15539191677010_3_alg».proof.Proof.Gen.Kernel.Skeleton
import proofs.«411164_j15539191677010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The attention-and-combine call (the first of the three calls): proof data and body obligation

The call has a grid of one point. Seven arrays are read (the embedded token, the hidden state, the encoder
outputs, the attention weight matrix and bias, the combine weight matrix and bias), two are written (the
combined input of the recurrent cell and the attention weights). Every window's block is its whole array.
The body loads the seven input buffers whole, forms the attention weights (a softmax of a linear score) and
the combined vector (a rectified linear map of the token beside the attended context), reads each output
buffer once without using what it read, and stores each result over its whole buffer.

Everything here is stated at an arbitrary float instance and at a parameter `V`: the contents of the
core's buffers when the call is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each the whole of its buffer -/

abbrev whole1x1024 : Rect S1x1024 := Rect.unit (s := S1x1024) ![0, 0] S1x1024.size inb_S1x1024_S1x1024_0_0
abbrev whole100x1024 : Rect S100x1024 := Rect.unit (s := S100x1024) ![0, 0] S100x1024.size inb_S100x1024_S100x1024_0_0
abbrev whole100x2048 : Rect S100x2048 := Rect.unit (s := S100x2048) ![0, 0] S100x2048.size inb_S100x2048_S100x2048_0_0
abbrev whole1x100 : Rect S1x100 := Rect.unit (s := S1x100) ![0, 0] S1x100.size inb_S1x100_S1x100_0_0
abbrev whole1024x2048 : Rect S1024x2048 := Rect.unit (s := S1024x2048) ![0, 0] S1024x2048.size inb_S1024x2048_S1024x2048_0_0

/-! ## What the body leaves in the two output buffers -/

/-- The combined vector's buffer after the body: one store over the whole buffer, of the rectified combine of
    the token `emb` beside the context the attention weights pick from the encoder outputs `enc`. -/
def combOut (emb hid : Vec F S1x1024 .f32) (attnW : Vec F S100x2048 .f32) (attnB : Vec F S1x100 .f32)
    (enc : Vec F S100x1024 .f32) (combW : Vec F S1024x2048 .f32) (combB : Vec F S1x1024 .f32) : Vec F S1x1024 .f32 :=
  View.canon [⟨whole1x1024, k0_pay3 (View.ld emb whole1x1024) (View.ld hid whole1x1024) (View.ld attnW whole100x2048)
    (View.ld attnB whole1x100) (View.ld enc whole100x1024) (View.ld combW whole1024x2048) (View.ld combB whole1x1024)⟩]

/-- The attention weights' buffer after the body: one store over the whole buffer, of the softmax of the
    score of the token beside the hidden state. -/
def attnOut (emb hid : Vec F S1x1024 .f32) (attnW : Vec F S100x2048 .f32) (attnB : Vec F S1x100 .f32) : Vec F S1x100 .f32 :=
  View.canon [⟨whole1x100, k0_pay2 (View.ld emb whole1x1024) (View.ld hid whole1x1024) (View.ld attnW whole100x2048)
    (View.ld attnB whole1x100)⟩]

/-- The one store over the whole buffer covers it. -/
theorem combCover (p : Vec F S1x1024 .f32) (y : S1x1024.Idx) :
    ∃ pc ∈ ([⟨whole1x1024, p⟩] : List (View.Piece (Elt F) S1x1024 .f32)), y ∈ pc.1.set :=
  View.cover_of_tiled [⟨whole1x1024, p⟩] S1x1024.size (by rfl) y

theorem attnCover (p : Vec F S1x100 .f32) (y : S1x100.Idx) :
    ∃ pc ∈ ([⟨whole1x100, p⟩] : List (View.Piece (Elt F) S1x100 .f32)), y ∈ pc.1.set :=
  View.cover_of_tiled [⟨whole1x100, p⟩] S1x100.size (by rfl) y

/-! ## The body's triple -/

set_option maxHeartbeats 2000000 in
/-- The body on whole staging buffers: the seven inputs at given contents, the two outputs at anything. It runs
    to the continuation with the inputs unchanged and the outputs at `combOut` and `attnOut` of the inputs.
    The read of each output buffer before its store reads whatever the buffer held; the value is not used. -/
theorem sound_kernel0 (c : Dev nD) (E : Set ℕ) (i : grid0.Coords)
    (a1 : Memref sig .tc .vmem S1x1024 .f32) (h1 : a1.IsWhole) (a2 : Memref sig .tc .vmem S1x1024 .f32) (h2 : a2.IsWhole)
    (a3 : Memref sig .tc .vmem S100x1024 .f32) (h3 : a3.IsWhole) (a4 : Memref sig .tc .vmem S100x2048 .f32) (h4 : a4.IsWhole)
    (a5 : Memref sig .tc .vmem S1x100 .f32) (h5 : a5.IsWhole) (a6 : Memref sig .tc .vmem S1024x2048 .f32) (h6 : a6.IsWhole)
    (a7 : Memref sig .tc .vmem S1x1024 .f32) (h7 : a7.IsWhole) (a8 : Memref sig .tc .vmem S1x1024 .f32) (h8 : a8.IsWhole)
    (a9 : Memref sig .tc .vmem S1x100 .f32) (h9 : a9.IsWhole)
    (emb hid : Vec F S1x1024 .f32) (enc : Vec F S100x1024 .f32) (attnW : Vec F S100x2048 .f32) (attnB : Vec F S1x100 .f32)
    (combW : Vec F S1024x2048 .f32) (combB : Vec F S1x1024 .f32) (K : PUnit → sProp 𝕄) :
    iprop(owns (c : Thread nD τ) a1 fullShare emb ∗ owns (c : Thread nD τ) a2 fullShare hid
        ∗ owns (c : Thread nD τ) a3 fullShare enc ∗ owns (c : Thread nD τ) a4 fullShare attnW
        ∗ owns (c : Thread nD τ) a5 fullShare attnB ∗ owns (c : Thread nD τ) a6 fullShare combW
        ∗ owns (c : Thread nD τ) a7 fullShare combB
        ∗ (∃ d, owns (c : Thread nD τ) a8 fullShare d) ∗ (∃ d, owns (c : Thread nD τ) a9 fullShare d)
        ∗ (iprop(owns (c : Thread nD τ) a1 fullShare emb ∗ owns (c : Thread nD τ) a2 fullShare hid
            ∗ owns (c : Thread nD τ) a3 fullShare enc ∗ owns (c : Thread nD τ) a4 fullShare attnW
            ∗ owns (c : Thread nD τ) a5 fullShare attnB ∗ owns (c : Thread nD τ) a6 fullShare combW
            ∗ owns (c : Thread nD τ) a7 fullShare combB
            ∗ owns (c : Thread nD τ) a8 fullShare (combOut emb hid attnW attnB enc combW combB)
            ∗ owns (c : Thread nD τ) a9 fullShare (attnOut emb hid attnW attnB)) -∗ K ⟨⟩))
      ⊢ wp frame (wpE (defs₀ (F := F)) Variants.none c none) E
          (cc0__attn_comb_kernel i a1 h1 a2 h2 a3 h3 a4 h4 a5 h5 a6 h6 a7 h7 a8 h8 a9 h9) K := by
  simp only [cc0__attn_comb_kernel_eq_skeleton]; unfold cc0__attn_comb_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, Hk⟩
  subst e1 e2 e3 e4 e5 e6 e7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (combCover _)
  iexists _; isplitr
  swap; · iexact H9
  ipureintro
  exact View.read_writes_eq_canon _ _ _ (attnCover _)

/-! ## The proof data -/

/-- The proof data of the call on core `c`. The arrays are as the call finds them. After the body at the
    grid's point each input buffer still holds its block, the combined vector's buffer holds `combOut` of the
    input blocks and the attention weights' buffer holds `attnOut` of them. The invariant is the untouched
    rest; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => combOut (iblk0 V c 0 t) (iblk0 V c 1 t) (iblk0 V c 3 t) (iblk0 V c 4 t) (iblk0 V c 2 t) (iblk0 V c 5 t) (iblk0 V c 6 t)
    | ⟨8, _⟩ => attnOut (iblk0 V c 0 t) (iblk0 V c 1 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = combOut (iblk0 V c 0 t) (iblk0 V c 1 t) (iblk0 V c 3 t) (iblk0 V c 4 t) (iblk0 V c 2 t) (iblk0 V c 5 t) (iblk0 V c 6 t) := by
  dsimp only [dat0]
theorem after0_8 (c : Dev nD) (t : Fin cfg0.N) : (dat0 V c).after 8 t
    = attnOut (iblk0 V c 0 t) (iblk0 V c 1 t) (iblk0 V c 3 t) (iblk0 V c 4 t) := by dsimp only [dat0]

/-- Every input window is fetched at the grid's point and no block is cut, so when the body runs each input's
    staging buffer holds exactly the window's block of its array. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)
theorem before0_2 (c : Dev nD) (t : Fin cfg0.N) (d) : (dat0 V c).before 2 t d = iblk0 V c 2 t :=
  ((dat0 V c).before_fetched 2 t (fetch0_2 t) d).trans (by unfold Dat.fetched Dat.blockOf iblk0; rw [A_eq0]; try rfl)
theorem before0_3 (c : Dev nD) (t : Fin cfg0.N) (d) : (dat0 V c).before 3 t d = iblk0 V c 3 t :=
  ((dat0 V c).before_fetched 3 t (fetch0_3 t) d).trans (by unfold Dat.fetched Dat.blockOf iblk0; rw [A_eq0]; try rfl)
theorem before0_4 (c : Dev nD) (t : Fin cfg0.N) (d) : (dat0 V c).before 4 t d = iblk0 V c 4 t :=
  ((dat0 V c).before_fetched 4 t (fetch0_4 t) d).trans (by unfold Dat.fetched Dat.blockOf iblk0; rw [A_eq0]; try rfl)
theorem before0_5 (c : Dev nD) (t : Fin cfg0.N) (d) : (dat0 V c).before 5 t d = iblk0 V c 5 t :=
  ((dat0 V c).before_fetched 5 t (fetch0_5 t) d).trans (by unfold Dat.fetched Dat.blockOf iblk0; rw [A_eq0]; try rfl)
theorem before0_6 (c : Dev nD) (t : Fin cfg0.N) (d) : (dat0 V c).before 6 t d = iblk0 V c 6 t :=
  ((dat0 V c).before_fetched 6 t (fetch0_6 t) d).trans (by unfold Dat.fetched Dat.blockOf iblk0; rw [A_eq0]; try rfl)

/-! ## The body obligation -/

/-- What the body is handed at point `t`: the invariant, what is owed, and the nine staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at the grid's point: the input buffers hold their blocks, the output buffers hold anything, so the
    body's triple applies; the invariant and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the call, at its every point. -/
theorem body_obligation0 (c : Dev nD) : BodyObligation (dat0 (F := F) V c) (defs₀ (F := F)) Variants.none () Set.univ := fun t => by
  rw [bigSep_W0, bigSep_W0]
  exact sound_body0 V c t

/-! ## The arrays after the call

The grid has one point and every window's block is its whole array (its block index is zero on every axis),
so a block read off an array is the array, and the one write-back of an output's block leaves the array at
what the body left in the staging buffer. -/

/-- Windows 0 to 6 are read, never written back. -/
theorem isIn0 : ∀ w : Fin cfg0.W, w.val < 7 → (cfg0.win w).isOut = false := by decide

/-- An input array ends as the call found it. -/
theorem final0_in (c : Dev nD) (w : Fin cfg0.W) (hw : w.val < 7) : (dat0 V c).arrAt w cfg0.N = V c (Pipeline.arrRef spec0 w) :=
  ((dat0 V c).arrAt_in w (isIn0 w hw) cfg0.N).trans (A_eq0 V c w)

/-- At the grid's point every window's block index is zero on every axis. -/
theorem blockIdx0 : ∀ (w : Fin cfg0.W) (a : Fin (cfg0.win w).shape.rank), (cfg0.win w).index t0_0 a = 0 := by decide +kernel

/-- The offsets of the whole rectangle are zero. -/
theorem offs2 : (![0, 0] : Fin 2 → ℕ) = fun _ => 0 := funext fun a => by fin_cases a <;> rfl

/-- Each input's block at the point is its array: an element of the block sits in the array at its own index. -/
theorem iblk0_0 (c : Dev nD) : iblk0 V c 0 t0_0 = V c main_v2 := by
  funext y
  show V c main_v2 (((cfg0.win 0).rect t0_0).emb y) = V c main_v2 y
  exact congrArg _ (funext fun a => Fin.ext (Window.rect_emb_val_of_index_zero _ t0_0 a (blockIdx0 0 a) y))
theorem iblk0_1 (c : Dev nD) : iblk0 V c 1 t0_0 = V c main_v3 := by
  funext y
  show V c main_v3 (((cfg0.win 1).rect t0_0).emb y) = V c main_v3 y
  exact congrArg _ (funext fun a => Fin.ext (Window.rect_emb_val_of_index_zero _ t0_0 a (blockIdx0 1 a) y))
theorem iblk0_2 (c : Dev nD) : iblk0 V c 2 t0_0 = V c main_arg2 := by
  funext y
  show V c main_arg2 (((cfg0.win 2).rect t0_0).emb y) = V c main_arg2 y
  exact congrArg _ (funext fun a => Fin.ext (Window.rect_emb_val_of_index_zero _ t0_0 a (blockIdx0 2 a) y))
theorem iblk0_3 (c : Dev nD) : iblk0 V c 3 t0_0 = V c main_arg4 := by
  funext y
  show V c main_arg4 (((cfg0.win 3).rect t0_0).emb y) = V c main_arg4 y
  exact congrArg _ (funext fun a => Fin.ext (Window.rect_emb_val_of_index_zero _ t0_0 a (blockIdx0 3 a) y))
theorem iblk0_4 (c : Dev nD) : iblk0 V c 4 t0_0 = V c main_v4 := by
  funext y
  show V c main_v4 (((cfg0.win 4).rect t0_0).emb y) = V c main_v4 y
  exact congrArg _ (funext fun a => Fin.ext (Window.rect_emb_val_of_index_zero _ t0_0 a (blockIdx0 4 a) y))
theorem iblk0_5 (c : Dev nD) : iblk0 V c 5 t0_0 = V c main_arg6 := by
  funext y
  show V c main_arg6 (((cfg0.win 5).rect t0_0).emb y) = V c main_arg6 y
  exact congrArg _ (funext fun a => Fin.ext (Window.rect_emb_val_of_index_zero _ t0_0 a (blockIdx0 5 a) y))
theorem iblk0_6 (c : Dev nD) : iblk0 V c 6 t0_0 = V c main_v5 := by
  funext y
  show V c main_v5 (((cfg0.win 6).rect t0_0).emb y) = V c main_v5 y
  exact congrArg _ (funext fun a => Fin.ext (Window.rect_emb_val_of_index_zero _ t0_0 a (blockIdx0 6 a) y))

/-- What the body leaves in the combined vector's buffer at the point is the combine of the whole arrays:
    the one store covers the buffer and every load reads its whole buffer. -/
theorem after0_7_val (c : Dev nD) : (dat0 V c).after 7 t0_0
    = k0_pay3 (V c main_v2) (V c main_v3) (V c main_arg4) (V c main_v4) (V c main_arg2) (V c main_arg6) (V c main_v5) := by
  rw [after0_7, iblk0_0, iblk0_1, iblk0_2, iblk0_3, iblk0_4, iblk0_5, iblk0_6]
  unfold combOut
  rw [View.canon_unit_zero offs2, View.ld_unit_zero offs2, View.ld_unit_zero offs2, View.ld_unit_zero offs2,
    View.ld_unit_zero offs2, View.ld_unit_zero offs2, View.ld_unit_zero offs2, View.ld_unit_zero offs2]

theorem after0_8_val (c : Dev nD) : (dat0 V c).after 8 t0_0
    = k0_pay2 (V c main_v2) (V c main_v3) (V c main_arg4) (V c main_v4) := by
  rw [after0_8, iblk0_0, iblk0_1, iblk0_3, iblk0_4]
  unfold attnOut
  rw [View.canon_unit_zero offs2, View.ld_unit_zero offs2, View.ld_unit_zero offs2, View.ld_unit_zero offs2,
    View.ld_unit_zero offs2]

/-- The combined vector's array after the call: the one write-back puts the block over the whole array. -/
theorem final0_7 (c : Dev nD) : (dat0 V c).arrAt 7 cfg0.N
    = k0_pay3 (V c main_v2) (V c main_v3) (V c main_arg4) (V c main_v4) (V c main_arg2) (V c main_arg6) (V c main_v5) := by
  rw [← after0_7_val]
  rw [show cfg0.N = (t0_0 : Fin cfg0.N).val + 1 from N_0, Dat.arrAt_succ, if_pos (flush0_7 t0_0)]
  funext y
  have hy : ((cfg0.win 7).blk t0_0).view.emb y = y :=
    funext fun a => Fin.ext (show ((((cfg0.win 7).rect t0_0).emb y a : ℕ)) = (y a : ℕ) from
      Window.rect_emb_val_of_index_zero (cfg0.win 7) t0_0 a (blockIdx0 7 a) y)
  refine (congrArg _ hy.symm).trans ?_
  rw [View.write_emb_of_mem _ _ (Finset.mem_univ y)]
  rfl

theorem final0_8 (c : Dev nD) : (dat0 V c).arrAt 8 cfg0.N
    = k0_pay2 (V c main_v2) (V c main_v3) (V c main_arg4) (V c main_v4) := by
  rw [← after0_8_val]
  rw [show cfg0.N = (t0_0 : Fin cfg0.N).val + 1 from N_0, Dat.arrAt_succ, if_pos (flush0_8 t0_0)]
  funext y
  have hy : ((cfg0.win 8).blk t0_0).view.emb y = y :=
    funext fun a => Fin.ext (show ((((cfg0.win 8).rect t0_0).emb y a : ℕ)) = (y a : ℕ) from
      Window.rect_emb_val_of_index_zero (cfg0.win 8) t0_0 a (blockIdx0 8 a) y)
  refine (congrArg _ hy.symm).trans ?_
  rw [View.write_emb_of_mem _ _ (Finset.mem_univ y)]
  rfl

end Cert.Kernel.Hand

end
-- ==== Proof.K.Reg1.lean ====
import proofs.«411164_j15539191677010_3_alg».proof.Proof.Gen.Kernel.Launch
import proofs.«411164_j15539191677010_3_alg».proof.Proof.Gen.Kernel.Skeleton
import proofs.«411164_j15539191677010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The gate pre-activations (second pallas_call): proof data and body obligation

The call runs over three grid points g = 0, 1, 2 (the reset, update and candidate gates). At point g the
body reads the attended input row x2 and the previous hidden row h (whole, the same at every point), the
g-th row block of the two gate matrices W_ih, W_hh and the g-th lane block of the two biases, and
writes lane block g of

  gi = x2 · W_ihᵀ + b_ih,   gh = h · W_hhᵀ + b_hh.

This file states, at any contents V of the core's buffers when the call is entered, what each staging buffer
holds after the body at each point (the proof data) and proves the body's triple there. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the block was moved there at that
point or not: the two row vectors are moved in once, at the first gate, and their block index never changes;
the matrix and bias blocks are moved at every gate. Stated for any proof data over the arrays V whose body
leaves the input in place. -/

theorem before_x2_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before_h_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before_Wih_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before_Whh_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before_bih_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before_bhh_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

/-- A whole row buffer (1 × 1024). -/
abbrev rowAll : Rect S1x1024 := Rect.unit (s := S1x1024) ![0, 0] S1x1024.size inb_S1x1024_S1x1024_0_0
/-- A whole matrix block buffer (1024 × 1024). -/
abbrev matAll : Rect S1024x1024 := Rect.unit (s := S1024x1024) ![0, 0] S1024x1024.size inb_S1024x1024_S1024x1024_0_0

/-! ## What the body leaves in the two output buffers -/

/-- The gi lane block after the body: its one store, of x · Wᵀ + b over the row x, the matrix block W
    and the bias block b the body loaded. -/
def giBlock (x : Vec F S1x1024 .f32) (W : Vec F S1024x1024 .f32) (b : Vec F S1x1024 .f32) : Vec F S1x1024 .f32 :=
  View.canon [⟨rowAll, k1_pay1 (View.ld x rowAll) (View.ld W matAll) (View.ld b rowAll)⟩]

/-- The gh lane block after the body, likewise over the hidden row. -/
def ghBlock (h : Vec F S1x1024 .f32) (W : Vec F S1024x1024 .f32) (b : Vec F S1x1024 .f32) : Vec F S1x1024 .f32 :=
  View.canon [⟨rowAll, k1_pay2 (View.ld h rowAll) (View.ld W matAll) (View.ld b rowAll)⟩]

/-- A store of a whole row buffer covers it. -/
theorem cover_row (p : Vec F S1x1024 .f32) (y : S1x1024.Idx) :
    ∃ pc ∈ ([⟨rowAll, p⟩] : List (View.Piece (Elt F) S1x1024 .f32)), y ∈ pc.1.set :=
  View.cover_of_tiled [⟨rowAll, p⟩] S1x1024.size (by rfl) y

/-! ## The body's triple -/

set_option maxHeartbeats 1000000 in
/-- The body on whole staging memrefs — the six inputs' at read contents, the two outputs' at anything — runs to
    the continuation holding the inputs' as they were and the outputs' at giBlock, ghBlock of the inputs'.
    Each output buffer is loaded once before it is stored; the loaded value is not used. -/
theorem sound_kernel1 (c : Dev nD) (E : Set ℕ) (i : grid1.Coords)
    (arg0 : Memref sig .tc .vmem S1x1024 .f32) (harg0 : arg0.IsWhole) (arg1 : Memref sig .tc .vmem S1x1024 .f32) (harg1 : arg1.IsWhole)
    (arg2 : Memref sig .tc .vmem S1024x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x1024 .f32) (harg7 : arg7.IsWhole)
    (x0 : Vec F S1x1024 .f32) (x1 : Vec F S1x1024 .f32) (x2 : Vec F S1024x1024 .f32) (x3 : Vec F S1024x1024 .f32)
    (x4 : Vec F S1x1024 .f32) (x5 : Vec F S1x1024 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (giBlock x0 x2 x4)
            ∗ owns (c : Thread nD τ) arg7 fullShare (ghBlock x1 x3 x5)) -∗ K ⟨⟩))
      ⊢ wp frame (wpE (defs₀ (F := F)) Variants.none c none) E
          (cc1__gru_gates_kernel i arg0 harg0 arg1 harg1 arg2 harg2 arg3 harg3 arg4 harg4 arg5 harg5 arg6 harg6 arg7 harg7) K := by
  simp only [cc1__gru_gates_kernel_eq_skeleton]; unfold cc1__gru_gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_row _)
  iexists _; isplitr
  swap; · iexact H7
  ipureintro
  exact View.read_writes_eq_canon _ _ _ (cover_row _)

/-! ## The proof data -/

/-- The proof data of the call on core c: the arrays as the call finds them; after the body at point t each
    input's buffer still at its block and the two outputs' at giBlock, ghBlock of the input blocks; the
    invariant is the untouched rest of the core's state; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => giBlock (iblk1 V c 0 t) (iblk1 V c 2 t) (iblk1 V c 4 t)
    | ⟨7, _⟩ => ghBlock (iblk1 V c 1 t) (iblk1 V c 3 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = giBlock (iblk1 V c 0 t) (iblk1 V c 2 t) (iblk1 V c 4 t) := by dsimp only [dat1]
theorem after1_7 (c : Dev nD) (t : Fin cfg1.N) :
    (dat1 V c).after 7 t = ghBlock (iblk1 V c 1 t) (iblk1 V c 3 t) (iblk1 V c 5 t) := by dsimp only [dat1]

/-! Each input's staging buffer holds its block at every point. -/
theorem before1_0 (c : Dev nD) (t : Fin cfg1.N) (d) : (dat1 V c).before 0 t d = iblk1 V c 0 t :=
  before_x2_of V (dat1 V c) (A_eq1 V c 0) (after1_0 V c) t d
theorem before1_1 (c : Dev nD) (t : Fin cfg1.N) (d) : (dat1 V c).before 1 t d = iblk1 V c 1 t :=
  before_h_of V (dat1 V c) (A_eq1 V c 1) (after1_1 V c) t d
theorem before1_2 (c : Dev nD) (t : Fin cfg1.N) (d) : (dat1 V c).before 2 t d = iblk1 V c 2 t :=
  before_Wih_of V (dat1 V c) (A_eq1 V c 2) (after1_2 V c) t d
theorem before1_3 (c : Dev nD) (t : Fin cfg1.N) (d) : (dat1 V c).before 3 t d = iblk1 V c 3 t :=
  before_Whh_of V (dat1 V c) (A_eq1 V c 3) (after1_3 V c) t d
theorem before1_4 (c : Dev nD) (t : Fin cfg1.N) (d) : (dat1 V c).before 4 t d = iblk1 V c 4 t :=
  before_bih_of V (dat1 V c) (A_eq1 V c 4) (after1_4 V c) t d
theorem before1_5 (c : Dev nD) (t : Fin cfg1.N) (d) : (dat1 V c).before 5 t d = iblk1 V c 5 t :=
  before_bhh_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The input arrays after the call -/

/-- An input array is never written back: after the last point it holds what the call found. -/
theorem final1_in (c : Dev nD) (w : Fin cfg1.W) (hw : w.val < 6) :
    (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨n + 6, _⟩, h => exact absurd h (by simp)
  rw [(dat1 V c).arrAt_in w hin, A_eq1]

end Cert.Kernel.Hand

end
-- ==== Proof.K.Reg2.lean ====
/-
  Region 2 (the output projection, sixteen grid points) of the word-level program: RELATIONAL proof data and the
  body obligation. The last block of the weight, bias and result windows overhangs its array, and at the bit-exact
  instance the stored value is not determined by the words inside the array alone; so the data constrain, and do not
  name, what the body leaves: the three input buffers are left as found, of the result buffer nothing is said.
-/
import proofs.«411164_j15539191677010_3_alg».proof.Proof.Gen.Kernel.Launch
import proofs.«411164_j15539191677010_3_alg».proof.Proof.Gen.Kernel.Skeleton
import proofs.«411164_j15539191677010_3_alg».proof.Proof.Gen.Kernel.Points
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body on whole staging memrefs at ARBITRARY contents: three whole loads, the dead load of the result
    buffer, one whole store. The three inputs come back as they were; the result buffer comes back at some contents. -/
theorem sound_kernel2 (c : Dev nD) (E : Set ℕ) (i : grid2.Coords)
    (arg1 : Memref sig .tc .vmem S1x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S1x3200 .f32) (harg4 : arg4.IsWhole)
    (x1 : Vec F S1x1024 .f32) (x2 : Vec F S3200x1024 .f32) (x3 : Vec F S1x3200 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ (∃ X, owns (c : Thread nD τ) arg4 fullShare X)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f1, %hf1, H1⟩, ⟨%f2, %hf2, H2⟩, ⟨%f3, %hf3, H3⟩, ⟨%d, %f4, -, H4⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; iexists _; isplitr
  swap; · iexact H4
  ipureintro; rfl

/-! ## The relational proof data -/

-- the TensorCore's buffer contents when the region is entered
variable (V : (c : Dev nD) → (b : Ref sig .tc) → Buf (Elt F) ((c : Thread nD τ).loc b))

/-- Relational proof data of pipeline 2 on core `c`: the arrays as the region finds them (`V`); the body leaves each
    input window's buffer as it found it and says nothing of the result window's; the invariant is the scoped rest and
    the generator register, untouched; nothing owed; full shares. -/
def rdat2 (c : Dev nD) : RDat τ (Elt F) Unit ℕ (UR sig nD τ) ℕ cfg2 c where
  A w := V c (Pipeline.arrRef spec2 w)
  after w _ Y X := match w with
    | ⟨0, _⟩ => X = Y
    | ⟨1, _⟩ => X = Y
    | ⟨2, _⟩ => X = Y
    | ⟨3, _⟩ => True
  Φ _ := Pipeline.ΦA spec2 c
  q _ := fullShare
  owed _ := 0

theorem rdat2_A (c : Dev nD) (w : Fin cfg2.W) : (rdat2 V c).A w = V c (Pipeline.arrRef spec2 w) := rfl
theorem rdat2_Φ (c : Dev nD) (t : Fin (cfg2.N + 1)) : (rdat2 V c).Φ t = Pipeline.ΦA spec2 c := rfl
theorem rdat2_owed (c : Dev nD) (t : Fin (cfg2.N + 1)) : (rdat2 V c).owed t = 0 := rfl
theorem rdat2_share (c : Dev nD) (w : Fin cfg2.W) : (rdat2 V c).share w = fullShare := by
  unfold RDat.share; split <;> rfl

/-- The body at any point, on whatever the four current buffers hold. -/
theorem sound_body2 (c : Dev nD) (t : Fin cfg2.N) (Y : (w : Fin cfg2.W) → (cfg2.win w).block.Idx → Elt F (cfg2.win w).elt) :
    iprop((rdat2 V c).Φ t.castSucc ∗ (rdat2 V c).owesAt () t.castSucc
      ∗ owns (c : Thread nD τ) (st2_0 t) fullShare (Y 0) ∗ owns (c : Thread nD τ) (st2_1 t) fullShare (Y 1)
      ∗ owns (c : Thread nD τ) (st2_2 t) fullShare (Y 2) ∗ owns (c : Thread nD τ) (st2_3 t) fullShare (Y 3))
    ⊢ wp frame (wpE (defs₀ (F := F)) Variants.none c none) Set.univ (bodyAt2 t) (fun _ =>
      iprop((rdat2 V c).Φ t.succ ∗ (rdat2 V c).owesAt () t.succ
        ∗ (∃ X, ⌜(rdat2 V c).after 0 t (Y 0) X⌝ ∗ owns (c : Thread nD τ) (st2_0 t) fullShare X)
        ∗ (∃ X, ⌜(rdat2 V c).after 1 t (Y 1) X⌝ ∗ owns (c : Thread nD τ) (st2_1 t) fullShare X)
        ∗ (∃ X, ⌜(rdat2 V c).after 2 t (Y 2) X⌝ ∗ owns (c : Thread nD τ) (st2_2 t) fullShare X)
        ∗ (∃ X, ⌜(rdat2 V c).after 3 t (Y 3) X⌝ ∗ owns (c : Thread nD τ) (st2_3 t) fullShare X))) := by
  unfold bodyAt2
  rw [show (rdat2 V c).Φ t.succ = (rdat2 V c).Φ t.castSucc from rfl,
    show (rdat2 V c).owesAt () t.succ = (rdat2 V c).owesAt () t.castSucc from rfl]
  iintro ⟨HΦ, Ho, H0, H1, H2, H3⟩
  iapply (sound_kernel2 c Set.univ (grid2.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, ⟨%X, H3⟩⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists X; isplitr; · ipureintro; exact trivial
  iexact H3

/-- The library's relational body obligation, at every point: nothing of what the buffers may hold is used. -/
theorem body_obligation2 (c : Dev nD) : (rdat2 (F := F) V c).BodyObligation (defs₀ (F := F)) Variants.none () Set.univ := fun t Y _ => by
  rw [bigSep_W2, bigSep_W2]
  exact sound_body2 V c t Y

end Cert.Kernel.Hand

end
-- ==== Proof.K.Frame.lean ====
/-
  The frame of the word-level program: every weakly fair execution of @main terminates, nothing faults, and the
  fourteen argument arrays end as launched.

  Regions 0 and 1 have no clipped block: they enter the launch through exact proof data read relationally. Region 2's
  last blocks overhang their arrays and its stored value is not a function of the in-array words alone, so it enters
  through relational proof data: its exit hands back its four arrays at SOME contents they may hold after every
  write-back (the three inputs' as entered; the result's whatever the body stored). The two host stretches after
  region 2 therefore run from a thread state that holds the unscoped buffers at one of a FAMILY of valuations, indexed
  by what region 2 left; the arguments are read back through every member of the family alike.
-/
import proofs.«411164_j15539191677010_3_alg».proof.Proof.K.Reg0
import proofs.«411164_j15539191677010_3_alg».proof.Proof.K.Reg1
import proofs.«411164_j15539191677010_3_alg».proof.Proof.K.Reg2
import proofs.«411164_j15539191677010_3_alg».proof.Proof.Gen.Kernel.Regions
import proofs.«411164_j15539191677010_3_alg».proof.Proof.Gen.Pre_finite_inputs
import proofs.«411164_j15539191677010_3_alg».proof.Defs
import Idealize.ShloMosaic.Lib.Pipeline.FrameSuffix
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

local notation "𝕄" => MT nD τ sig Unit (Elt F) ℕ (UR sig nD τ) ℕ

/-! ## The thread state's fixed parts -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A host stretch over the unscoped buffers from ANY ONE of a family of contents `W c g` (`g` with `P c g`), `R` riding
    along: it ends at the same member's contents after the stretch. -/
def hsegEx {α : Dev nD → Type} (ops : List (HloOp τ sig (Elt F))) (hsub : ops.Forall fun op => op.bufs ⊆ StableHlo.tcRefs τ sig)
    (hfresh : ops.Forall fun op => op.fresh = ∅) (P : (c : Dev nD) → α c → Prop) (W : (c : Dev nD) → α c → Valuation τ sig (Elt F)) :
    Pipeline.HostSeg (Name := ℕ) (U := UR sig nD τ) (pcfgs (F := F)) defs₀ 𝒱₀ L lv where
  prog := StableHlo.seq ops
  pre c := iprop(∃ g : α c, ⌜P c g⌝ ∗ StableHlo.held (c : Thread nD τ) (Pipeline.ucRefs τ sig) (W c g) ∗ R c)
  post c := iprop(∃ g : α c, ⌜P c g⌝ ∗ StableHlo.held (c : Thread nD τ) (Pipeline.ucRefs τ sig) (StableHlo.after ops (W c g)) ∗ R c)
  run c {β} k K := by
    iintro ⟨Hk, Hbd, ⟨%g, %hg, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (W c g)
    iapply hseq $$ [Hbd Hh]
    · isplitl [Hbd] <;> iassumption
    iintro ⟨Hbd, Hh⟩
    iapply Hk
    isplitl [Hbd]; · iexact Hbd
    iexists g
    isplitr; · ipureintro; exact hg
    isplitl [Hh] <;> iassumption

/-! ## The buffers' contents at the segment boundaries -/

/-- What the run asks of exact proof data for a region entered at the contents `Vin`: the arrays read off `Vin`, the
    class invariant (the scoped rest and the generator register), full shares, nothing owed, and the body obligation. -/
structure ExactAt (cfg : Cfg sig Λ₀) (d : (c : Dev nD) → Dat τ (Elt F) Unit ℕ (UR sig nD τ) ℕ cfg c)
    (Vin : (c : Dev nD) → (b : Ref sig .tc) → Buf (Elt F) ((c : Thread nD τ).loc b)) : Prop where
  hA : ∀ c w, (d c).A w = Vin c (Pipeline.arrRef cfg.spec w)
  hΦ : ∀ c t, (d c).Φ t = Pipeline.ΦA cfg.spec c
  hq : ∀ c w, (d c).q w = fullShare
  howed : ∀ c t, (d c).owed t = 0
  hrec : ∀ c t, (d c).recorded t = Set.univ
  hbody : ∀ c, BodyObligation (d c) (defs₀ (F := F)) Variants.none () Set.univ

section Run

variable (m : (ℓ : Loc nD τ sig) → Buf (Elt F) ℓ)
variable (d0 : (c : Dev nD) → Dat τ (Elt F) Unit ℕ (UR sig nD τ) ℕ cfg0 c)
variable (d1 : (c : Dev nD) → Dat τ (Elt F) Unit ℕ (UR sig nD τ) ℕ cfg1 c)

/-- Region 0's entry contents (after the first three host stretches), read at the TensorCore's references. -/
abbrev V3' : (c : Dev nD) → (b : Ref sig .tc) → Buf (Elt F) ((c : Thread nD τ).loc b) := fun c b => V3 m c b
/-- At region 0's exit: its arrays at what the pipeline leaves, every other buffer as entered. -/
def W4 (c : Dev nD) : Valuation τ sig (Elt F) := Pipeline.withArrays spec0 c (V3 m c) fun w => (d0 c).arrAt w cfg0.N
abbrev V4' : (c : Dev nD) → (b : Ref sig .tc) → Buf (Elt F) ((c : Thread nD τ).loc b) := fun c b => W4 m d0 c b
/-- At region 1's exit. -/
def W5 (c : Dev nD) : Valuation τ sig (Elt F) := Pipeline.withArrays spec1 c (W4 m d0 c) fun w => (d1 c).arrAt w cfg1.N
abbrev V5' : (c : Dev nD) → (b : Ref sig .tc) → Buf (Elt F) ((c : Thread nD τ).loc b) := fun c b => W5 m d0 d1 c b
/-- After the host stretch between regions 1 and 2 (region 2's entry). -/
abbrev W6 (c : Dev nD) : Valuation τ sig (Elt F) := StableHlo.after hostOps2 (W5 m d0 d1 c)
abbrev V6' : (c : Dev nD) → (b : Ref sig .tc) → Buf (Elt F) ((c : Thread nD τ).loc b) := fun c b => W6 m d0 d1 c b
/-- Contents for region 2's four arrays. -/
abbrev Arr2 (c : Dev nD) : Type := (w : Fin cfg2.W) → Buf (Elt F) ((cfg2.win w).arr.view.loc (c : Thread nD τ))
/-- At region 2's exit, if it left `G` in its arrays; then after each of the last two host stretches. -/
def W7 (c : Dev nD) (G : Arr2 (F := F) c) : Valuation τ sig (Elt F) := Pipeline.withArrays spec2 c (W6 m d0 d1 c) G
abbrev V7' (c : Dev nD) (G : Arr2 (F := F) c) : (b : Ref sig .tc) → Buf (Elt F) ((c : Thread nD τ).loc b) := fun b => W7 m d0 d1 c G b
abbrev W8 (c : Dev nD) (G : Arr2 (F := F) c) : Valuation τ sig (Elt F) := StableHlo.after hostOps3 (W7 m d0 d1 c G)
abbrev W9 (c : Dev nD) (G : Arr2 (F := F) c) : Valuation τ sig (Elt F) := StableHlo.after hostOps3_1 (W8 m d0 d1 c G)

/-- Every pipeline's proof data, each at its region's entry contents: regions 0 and 1 exact data read relationally,
    region 2 relational. -/
def rdats : (p : Fin 3) → (c : Dev nD) → RDat τ (Elt F) Unit ℕ (UR sig nD τ) ℕ (Pipeline.pin (pcfgs (F := F)) adm p) c
  | ⟨0, _⟩ => fun c => (d0 c).toR
  | ⟨1, _⟩ => fun c => (d1 c).toR
  | ⟨2, _⟩ => fun c => rdat2 (V6' m d0 d1) c

/-- EXIT, the arrays' part: pipeline `p`'s arrays at contents `G` and the unscoped rest at `V` are the core's unscoped
    buffers at any valuation `V'` that has the arrays at `G` and agrees with `V` off them. -/
theorem unscopedBufs_of_arraysR {p : Fin 3}
    (rd : (p : Fin 3) → (c : Dev nD) → RDat τ (Elt F) Unit ℕ (UR sig nD τ) ℕ (Pipeline.pin (pcfgs (F := F)) adm p) c)
    (hw : Pipeline.WinFacts (Pipeline.pin (pcfgs (F := F)) adm p).spec) (harr : ∀ w, ((Pipeline.pin (pcfgs (F := F)) adm p).spec w).arr.IsWhole)
    (c : Dev nD) (hshare : ∀ w, (rd p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rd p c).arrays G ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rd p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ### What a region's exit valuation holds -/

theorem W4_arr (c : Dev nD) (w : Fin cfg0.W) :
    W4 m d0 c (Proc.devRef .tc (Pipeline.arrRef spec0 w)) = (d0 c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m d0 c (Proc.devRef .tc b) = V3 m c (Proc.devRef .tc b) := by
  unfold W4; exact Pipeline.withArrays_of_ne spec0 c _ _ b hb
theorem W5_arr (c : Dev nD) (w : Fin cfg1.W) :
    W5 m d0 d1 c (Proc.devRef .tc (Pipeline.arrRef spec1 w)) = (d1 c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m d0 d1 c (Proc.devRef .tc b) = W4 m d0 c (Proc.devRef .tc b) := by
  unfold W5; exact Pipeline.withArrays_of_ne spec1 c _ _ b hb
theorem W7_arr (c : Dev nD) (G : Arr2 (F := F) c) (w : Fin cfg2.W) :
    W7 m d0 d1 c G (Proc.devRef .tc (Pipeline.arrRef spec2 w)) = G w := by
  unfold W7; exact Pipeline.withArrays_arr spec2 launch2.win.arr_inj c _ _ w
theorem W7_of_ne (c : Dev nD) (G : Arr2 (F := F) c) (b : Ref sig .tc) (hb : ∀ w, Pipeline.arrRef spec2 w ≠ b) :
    W7 m d0 d1 c G (Proc.devRef .tc b) = W6 m d0 d1 c (Proc.devRef .tc b) := by
  unfold W7; exact Pipeline.withArrays_of_ne spec2 c _ _ b hb

/-- What region 2 may leave in its arrays: a family each member of which the relational data allow. -/
abbrev P2 (c : Dev nD) (G : Arr2 (F := F) c) : Prop := ∀ w, (rdat2 (V6' m d0 d1) c).ArrAt w cfg2.N (G w)

/-- A reference that is no OUTPUT array of region 0 keeps its contents across it: bypassed, or an input array, which
    the pipeline never writes. -/
theorem W4_in (h0 : ExactAt cfg0 d0 (V3' m)) (c : Dev nD) (r : Ref sig .tc)
    (hr : ∀ w, Pipeline.arrRef spec0 w = r → (cfg0.win w).isOut = false) :
    W4 m d0 c (Proc.devRef .tc r) = V3 m c (Proc.devRef .tc r) := by
  by_cases h : ∃ w, Pipeline.arrRef spec0 w = r
  · obtain ⟨w, rfl⟩ := h
    rw [W4_arr, (d0 c).arrAt_in w (hr w rfl), h0.hA]
  · exact W4_of_ne m d0 c r fun w e => h ⟨w, e⟩
theorem W5_in (h1 : ExactAt cfg1 d1 (V4' m d0)) (c : Dev nD) (r : Ref sig .tc)
    (hr : ∀ w, Pipeline.arrRef spec1 w = r → (cfg1.win w).isOut = false) :
    W5 m d0 d1 c (Proc.devRef .tc r) = W4 m d0 c (Proc.devRef .tc r) := by
  by_cases h : ∃ w, Pipeline.arrRef spec1 w = r
  · obtain ⟨w, rfl⟩ := h
    rw [W5_arr, (d1 c).arrAt_in w (hr w rfl), h1.hA]
  · exact W5_of_ne m d0 d1 c r fun w e => h ⟨w, e⟩
theorem W7_in (c : Dev nD) (G : Arr2 (F := F) c) (hG : P2 m d0 d1 c G) (r : Ref sig .tc)
    (hr : ∀ w, Pipeline.arrRef spec2 w = r → (cfg2.win w).isOut = false) :
    W7 m d0 d1 c G (Proc.devRef .tc r) = W6 m d0 d1 c (Proc.devRef .tc r) := by
  by_cases h : ∃ w, Pipeline.arrRef spec2 w = r
  · obtain ⟨w, rfl⟩ := h
    have hw := hG w
    rw [(rdat2 (V6' m d0 d1) c).ArrAt_in w (hr w rfl)] at hw
    rw [W7_arr, hw]; rfl
  · exact W7_of_ne m d0 d1 c G r fun w e => h ⟨w, e⟩

/-- A reference no host stretch writes and no region has as an output array reaches the end as launched. -/
theorem W9_arg (h0 : ExactAt cfg0 d0 (V3' m)) (h1 : ExactAt cfg1 d1 (V4' m d0)) (c : Dev nD) (G : Arr2 (F := F) c)
    (hG : P2 m d0 d1 c G) (r : Ref sig .tc)
    (n31 : r ∉ hostOps3_1_W) (n3 : r ∉ hostOps3_W) (a2 : ∀ w, Pipeline.arrRef spec2 w = r → (cfg2.win w).isOut = false)
    (n2 : r ∉ hostOps2_W) (a1 : ∀ w, Pipeline.arrRef spec1 w = r → (cfg1.win w).isOut = false)
    (a0 : ∀ w, Pipeline.arrRef spec0 w = r → (cfg0.win w).isOut = false)
    (n02 : r ∉ hostOps0_2_W) (n01 : r ∉ hostOps0_1_W) (n00 : r ∉ hostOps0_W) :
    W9 m d0 d1 c G (Proc.devRef .tc r) = m ((c : Thread nD τ).loc r) :=
  calc W9 m d0 d1 c G (Proc.devRef .tc r)
    _ = W8 m d0 d1 c G (Proc.devRef .tc r) := StableHlo.after_of_writes_sub hostOps3_1 _ hostOps3_1_writes n31
    _ = W7 m d0 d1 c G (Proc.devRef .tc r) := StableHlo.after_of_writes_sub hostOps3 _ hostOps3_writes n3
    _ = W6 m d0 d1 c (Proc.devRef .tc r) := W7_in m d0 d1 c G hG r a2
    _ = W5 m d0 d1 c (Proc.devRef .tc r) := StableHlo.after_of_writes_sub hostOps2 _ hostOps2_writes n2
    _ = W4 m d0 c (Proc.devRef .tc r) := W5_in m d0 d1 h1 c r a1
    _ = V3 m c (Proc.devRef .tc r) := W4_in m d0 h0 c r a0
    _ = V2 m c (Proc.devRef .tc r) := V3_of m c r n02
    _ = V1 m c (Proc.devRef .tc r) := V2_of m c r n01
    _ = V0 m c (Proc.devRef .tc r) := V1_of m c r n00
    _ = m ((c : Thread nD τ).loc r) := rfl

/-! ### The core's `owes`, at nothing -/

/-- Exact data that owe nothing and bound no recorded pair take the core owing nothing, at any point, -/
theorem owesAt_in {cfg : Cfg sig Λ₀} {c : Dev nD} (d : Dat τ (Elt F) Unit ℕ (UR sig nD τ) ℕ cfg c)
    (howed : ∀ t, d.owed t = 0) (hrec : ∀ t, d.recorded t = Set.univ) (t : Fin (cfg.N + 1)) :
    (iprop(∃ W, owes (c : Thread nD τ) (0 : CellTallies nD τ sig Unit) W) : sProp 𝕄) ⊢ d.toR.owesAt () t := by
  show _ ⊢ Pipeline.owesWithin c (d.owed t) (d.recorded t ∪ cfg.waitPairs ())
  rw [howed, hrec]
  iintro ⟨%W, HO⟩; iexists W; isplitr; · ipureintro; exact fun _ _ => Or.inl trivial
  iexact HO
/-- and give it back so. -/
theorem owesAt_out {cfg : Cfg sig Λ₀} {c : Dev nD} (d : Dat τ (Elt F) Unit ℕ (UR sig nD τ) ℕ cfg c)
    (howed : ∀ t, d.owed t = 0) (t : Fin (cfg.N + 1)) :
    (d.toR.owesAt () t : sProp 𝕄) ⊢ iprop(∃ W, owes (c : Thread nD τ) (0 : CellTallies nD τ sig Unit) W) := by
  show Pipeline.owesWithin c (d.owed t) (d.recorded t ∪ cfg.waitPairs ()) ⊢ _
  rw [howed]
  iintro ⟨%W, -, HO⟩; iexists W; iexact HO

/-! ## The regions as segments -/

set_option backward.isDefEq.respectTransparency.types false in
/-- REGION 0 over the thread state: entered from every unscoped buffer at `V3`, left at `W4`. Its arrays split out of the
    unscoped buffers and put back at the exit contents; the generator register into the class invariant and out; nothing
    owed; no semaphore of the kernel's own. -/
def reg0 (h0 : ExactAt cfg0 d0 (V3' m)) : Pipeline.RDat.RegionSeg (pcfgs (F := F)) adm (rdats m d0 d1) () defs₀ 𝒱₀ L lv 0 where
  win := launch0.win.to₀
  block_pos := launch0.block_pos
  stage_whole := launch0.stage_whole
  K := PEmpty
  osem k := k.elim
  ho := Pipeline.OwnSemFacts.none _
  hbody c := (h0.hbody c).toR
  hwaits := Pipeline.RDat.hwaits_of_owed_zero _ _ _ _ L lv 0 fun c t => h0.howed c t
  pre c := iprop(StableHlo.held (c : Thread nD τ) (Pipeline.ucRefs τ sig) (V3 m c) ∗ R c)
  post c := iprop(StableHlo.held (c : Thread nD τ) (Pipeline.ucRefs τ sig) (W4 m d0 c) ∗ R c)
  X c := iprop(∃ r, prngReg c r)
  Y c := iprop(∃ r, prngReg c r)
  Z c := Pipeline.unscopedRest (Ix := Unit) (Name := ℕ) (U := UR sig nD τ) (Lvl := ℕ) spec0 c (V3' m c)
  hentry c := by
    rw [Pipeline.ownSems0_none]
    have hsplit := Pipeline.RDat.arrays_of_unscopedBufs (p := 0) (pcfgs (F := F)) adm (rdats m d0 d1) launch0.win launch0.arr_whole c
      ((d0 c).toR.share_full fun w => h0.hq c w) (V3' m c) fun w => h0.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_in (d0 c) (h0.howed c) (h0.hrec c) 0); iexact HO
    isplitl [Hp]; · iexact Hp
    iexact Hrest
  hin c := by
    rw [show (rdats m d0 d1 0 c).Φ 0 = (d0 c).Φ 0 from rfl, h0.hΦ]; unfold Pipeline.ΦA
    iintro ⟨Hp, -, Hr⟩
    isplitl [Hr]; · iexact Hr
    iexact Hp
  hout c := by
    rw [Pipeline.ownSems0_none, show (rdats m d0 d1 0 c).Φ (Fin.last _) = (d0 c).Φ (Fin.last _) from rfl, h0.hΦ]; unfold Pipeline.ΦA
    iintro ⟨Hr, Hp⟩
    isplitl [Hp]; · iexact Hp
    isplitr; · iempintro
    iexact Hr
  hexit c := by
    have hjoin : iprop((d0 c).arrays ((d0 c).arrAt · cfg0.N)
          ∗ Pipeline.unscopedRest (Ix := Unit) (Name := ℕ) (U := UR sig nD τ) (Lvl := ℕ) spec0 c (V3' m c))
        ⊢ (unscopedBufs c (V4' m d0 c) : sProp 𝕄) :=
      unscopedBufs_of_arraysR (p := 0) (rdats m d0 d1) launch0.win launch0.arr_whole c
      ((d0 c).toR.share_full fun w => h0.hq c w) (V3' m c) (V4' m d0 c) ((d0 c).arrAt · cfg0.N)
      (fun w => (W4_arr m d0 c w).symm)
      (fun b hb => W4_of_ne m d0 c b fun w e => hb (Finset.mem_image.mpr ⟨w, Finset.mem_univ _, e⟩))
    rw [Pipeline.unscopedBufs_held] at hjoin
    show iprop((d0 c).toR.arraysAt cfg0.N ∗ (d0 c).toR.owesAt () (Fin.last cfg0.N) ∗ (∃ r, prngReg c r)
      ∗ Pipeline.unscopedRest (Ix := Unit) (Name := ℕ) (U := UR sig nD τ) (Lvl := ℕ) spec0 c (V3' m c)) ⊢ _
    rw [(d0 c).toR_arraysAt_eq]
    iintro ⟨Ha, HO, HY, Hrest⟩
    imodintro
    isplitl [Ha Hrest]
    · iapply hjoin; isplitl [Ha] <;> iassumption
    isplitl [HY]; · iexact HY
    iapply (owesAt_out (d0 c) (h0.howed c) (Fin.last _)); iexact HO
set_option backward.isDefEq.respectTransparency.types false in
/-- REGION 1 over the thread state: entered from every unscoped buffer at `W4`, left at `W5`. Its arrays split out of the
    unscoped buffers and put back at the exit contents; the generator register into the class invariant and out; nothing
    owed; no semaphore of the kernel's own. -/
def reg1 (h1 : ExactAt cfg1 d1 (V4' m d0)) : Pipeline.RDat.RegionSeg (pcfgs (F := F)) adm (rdats m d0 d1) () defs₀ 𝒱₀ L lv 1 where
  win := launch1.win.to₀
  block_pos := launch1.block_pos
  stage_whole := launch1.stage_whole
  K := PEmpty
  osem k := k.elim
  ho := Pipeline.OwnSemFacts.none _
  hbody c := (h1.hbody c).toR
  hwaits := Pipeline.RDat.hwaits_of_owed_zero _ _ _ _ L lv 1 fun c t => h1.howed c t
  pre c := iprop(StableHlo.held (c : Thread nD τ) (Pipeline.ucRefs τ sig) (W4 m d0 c) ∗ R c)
  post c := iprop(StableHlo.held (c : Thread nD τ) (Pipeline.ucRefs τ sig) (W5 m d0 d1 c) ∗ R c)
  X c := iprop(∃ r, prngReg c r)
  Y c := iprop(∃ r, prngReg c r)
  Z c := Pipeline.unscopedRest (Ix := Unit) (Name := ℕ) (U := UR sig nD τ) (Lvl := ℕ) spec1 c (V4' m d0 c)
  hentry c := by
    rw [Pipeline.ownSems0_none]
    have hsplit := Pipeline.RDat.arrays_of_unscopedBufs (p := 1) (pcfgs (F := F)) adm (rdats m d0 d1) launch1.win launch1.arr_whole c
      ((d1 c).toR.share_full fun w => h1.hq c w) (V4' m d0 c) fun w => h1.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_in (d1 c) (h1.howed c) (h1.hrec c) 0); iexact HO
    isplitl [Hp]; · iexact Hp
    iexact Hrest
  hin c := by
    rw [show (rdats m d0 d1 1 c).Φ 0 = (d1 c).Φ 0 from rfl, h1.hΦ]; unfold Pipeline.ΦA
    iintro ⟨Hp, -, Hr⟩
    isplitl [Hr]; · iexact Hr
    iexact Hp
  hout c := by
    rw [Pipeline.ownSems0_none, show (rdats m d0 d1 1 c).Φ (Fin.last _) = (d1 c).Φ (Fin.last _) from rfl, h1.hΦ]; unfold Pipeline.ΦA
    iintro ⟨Hr, Hp⟩
    isplitl [Hp]; · iexact Hp
    isplitr; · iempintro
    iexact Hr
  hexit c := by
    have hjoin : iprop((d1 c).arrays ((d1 c).arrAt · cfg1.N)
          ∗ Pipeline.unscopedRest (Ix := Unit) (Name := ℕ) (U := UR sig nD τ) (Lvl := ℕ) spec1 c (V4' m d0 c))
        ⊢ (unscopedBufs c (V5' m d0 d1 c) : sProp 𝕄) :=
      unscopedBufs_of_arraysR (p := 1) (rdats m d0 d1) launch1.win launch1.arr_whole c
      ((d1 c).toR.share_full fun w => h1.hq c w) (V4' m d0 c) (V5' m d0 d1 c) ((d1 c).arrAt · cfg1.N)
      (fun w => (W5_arr m d0 d1 c w).symm)
      (fun b hb => W5_of_ne m d0 d1 c b fun w e => hb (Finset.mem_image.mpr ⟨w, Finset.mem_univ _, e⟩))
    rw [Pipeline.unscopedBufs_held] at hjoin
    show iprop((d1 c).toR.arraysAt cfg1.N ∗ (d1 c).toR.owesAt () (Fin.last cfg1.N) ∗ (∃ r, prngReg c r)
      ∗ Pipeline.unscopedRest (Ix := Unit) (Name := ℕ) (U := UR sig nD τ) (Lvl := ℕ) spec1 c (V4' m d0 c)) ⊢ _
    rw [(d1 c).toR_arraysAt_eq]
    iintro ⟨Ha, HO, HY, Hrest⟩
    imodintro
    isplitl [Ha Hrest]
    · iapply hjoin; isplitl [Ha] <;> iassumption
    isplitl [HY]; · iexact HY
    iapply (owesAt_out (d1 c) (h1.howed c) (Fin.last _)); iexact HO

/-- Region 2's relational data take the core owing nothing, at any point, and give it back so. -/
theorem owesAt2_in (V : (c : Dev nD) → (b : Ref sig .tc) → Buf (Elt F) ((c : Thread nD τ).loc b)) (c : Dev nD) (t : Fin (cfg2.N + 1)) :
    (iprop(∃ W, owes (c : Thread nD τ) (0 : CellTallies nD τ sig Unit) W) : sProp 𝕄) ⊢ (rdat2 V c).owesAt () t := by
  show _ ⊢ Pipeline.owesWithin c (0 : CellTallies nD τ sig Unit) (Set.univ ∪ cfg2.waitPairs ())
  iintro ⟨%W, HO⟩; iexists W; isplitr; · ipureintro; exact fun _ _ => Or.inl trivial
  iexact HO
theorem owesAt2_out (V : (c : Dev nD) → (b : Ref sig .tc) → Buf (Elt F) ((c : Thread nD τ).loc b)) (c : Dev nD) (t : Fin (cfg2.N + 1)) :
    ((rdat2 V c).owesAt () t : sProp 𝕄) ⊢ iprop(∃ W, owes (c : Thread nD τ) (0 : CellTallies nD τ sig Unit) W) := by
  show Pipeline.owesWithin c (0 : CellTallies nD τ sig Unit) (Set.univ ∪ cfg2.waitPairs ()) ⊢ _
  iintro ⟨%W, -, HO⟩; iexists W; iexact HO

/-- What region 2's arrays may hold at its exit, gathered into one family. -/
theorem arraysAt2_elim (c : Dev nD) :
    ((rdat2 (V6' m d0 d1) c).arraysAt cfg2.N : sProp 𝕄)
      ⊢ iprop(∃ G : Arr2 (F := F) c, ⌜P2 m d0 d1 c G⌝ ∗ (rdat2 (V6' m d0 d1) c).arrays G) := by
  unfold RDat.arraysAt RDat.arrays
  refine (bigSep_exists_pi Finset.univ fun (w : Fin cfg2.W) (G : Buf (Elt F) ((cfg2.win w).arr.view.loc (c : Thread nD τ))) =>
    iprop(⌜(rdat2 (V6' m d0 d1) c).ArrAt w cfg2.N G⌝
      ∗ ((cfg2.win w).arr.view.loc (c : Thread nD τ) ↦[(cfg2.win w).arr.view.set]{(rdat2 (V6' m d0 d1) c).share w} G))).trans ?_
  iintro ⟨%G, H⟩
  ihave H' := (bigSep_pure_sep Finset.univ (fun w : Fin cfg2.W => (rdat2 (V6' m d0 d1) c).ArrAt w cfg2.N (G w))
    (fun w : Fin cfg2.W => ((cfg2.win w).arr.view.loc (c : Thread nD τ) ↦[(cfg2.win w).arr.view.set]{(rdat2 (V6' m d0 d1) c).share w} G w : sProp 𝕄))) $$ H
  icases H' with ⟨%hG, H⟩
  iexists G; isplitr; · ipureintro; exact fun w => hG w (Finset.mem_univ w)
  iexact H

set_option backward.isDefEq.respectTransparency.types false in
/-- REGION 2 over the thread state: entered from every unscoped buffer at `W6`; left at `W7 c G` for SOME family `G` of
    contents its arrays may hold after every write-back (the inputs' as entered, the result's whatever the body stored). -/
def reg2 : Pipeline.RDat.RegionSeg (pcfgs (F := F)) adm (rdats m d0 d1) () defs₀ 𝒱₀ L lv 2 where
  win := launch2.win.to₀
  block_pos := launch2.block_pos
  stage_whole := launch2.stage_whole
  K := PEmpty
  osem k := k.elim
  ho := Pipeline.OwnSemFacts.none _
  hbody c := body_obligation2 (V6' m d0 d1) c
  hwaits := Pipeline.RDat.hwaits_of_owed_zero _ _ _ _ L lv 2 fun _ _ => rfl
  pre c := iprop(StableHlo.held (c : Thread nD τ) (Pipeline.ucRefs τ sig) (W6 m d0 d1 c) ∗ R c)
  post c := iprop(∃ G : Arr2 (F := F) c, ⌜P2 m d0 d1 c G⌝ ∗ StableHlo.held (c : Thread nD τ) (Pipeline.ucRefs τ sig) (W7 m d0 d1 c G) ∗ R c)
  X c := iprop(∃ r, prngReg c r)
  Y c := iprop(∃ r, prngReg c r)
  Z c := Pipeline.unscopedRest (Ix := Unit) (Name := ℕ) (U := UR sig nD τ) (Lvl := ℕ) spec2 c (V6' m d0 d1 c)
  hentry c := by
    rw [Pipeline.ownSems0_none]
    have hsplit := Pipeline.RDat.arrays_of_unscopedBufs (p := 2) (pcfgs (F := F)) adm (rdats m d0 d1) launch2.win launch2.arr_whole c
      (rdat2_share (V6' m d0 d1) c) (V6' m d0 d1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt2_in (V6' m d0 d1) c 0); iexact HO
    isplitl [Hp]; · iexact Hp
    iexact Hrest
  hin c := by
    rw [show (rdats m d0 d1 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m d0 d1 2 c).Φ (Fin.last _) = Pipeline.ΦA spec2 c from rfl]; unfold Pipeline.ΦA
    iintro ⟨Hr, Hp⟩
    isplitl [Hp]; · iexact Hp
    isplitr; · iempintro
    iexact Hr
  hexit c := by
    show iprop((rdat2 (V6' m d0 d1) c).arraysAt cfg2.N ∗ (rdat2 (V6' m d0 d1) c).owesAt () (Fin.last cfg2.N) ∗ (∃ r, prngReg c r)
      ∗ Pipeline.unscopedRest (Ix := Unit) (Name := ℕ) (U := UR sig nD τ) (Lvl := ℕ) spec2 c (V6' m d0 d1 c)) ⊢ _
    iintro ⟨Ha, HO, HY, Hrest⟩
    ihave Ha' := (arraysAt2_elim m d0 d1 c) $$ Ha
    icases Ha' with ⟨%G, %hG, Ha⟩
    have hjoin : iprop((rdat2 (V6' m d0 d1) c).arrays G
          ∗ Pipeline.unscopedRest (Ix := Unit) (Name := ℕ) (U := UR sig nD τ) (Lvl := ℕ) spec2 c (V6' m d0 d1 c))
        ⊢ (unscopedBufs c (V7' m d0 d1 c G) : sProp 𝕄) :=
      unscopedBufs_of_arraysR (p := 2) (rdats m d0 d1) launch2.win launch2.arr_whole c
      (rdat2_share (V6' m d0 d1) c) (V6' m d0 d1 c) (V7' m d0 d1 c G) G
      (fun w => (W7_arr m d0 d1 c G w).symm)
      (fun b hb => W7_of_ne m d0 d1 c G b fun w e => hb (Finset.mem_image.mpr ⟨w, Finset.mem_univ _, e⟩))
    rw [Pipeline.unscopedBufs_held] at hjoin
    imodintro
    iexists G
    isplitr; · ipureintro; exact hG
    isplitl [Ha Hrest]
    · iapply hjoin; isplitl [Ha] <;> iassumption
    isplitl [HY]; · iexact HY
    iapply (owesAt2_out (V6' m d0 d1) c (Fin.last _)); iexact HO

/-! ## @main as segments, and the launch -/

/-- @main's nine items in order: a host segment per stretch from its boundary's contents, a region per pallas_call; the
    last two stretches from whichever contents region 2 left. -/
abbrev segs (h0 : ExactAt cfg0 d0 (V3' m)) (h1 : ExactAt cfg1 d1 (V4' m d0)) :
    List (Pipeline.RDat.Seg (pcfgs (F := F)) adm (rdats m d0 d1) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m d0 d1 h0),
    .region (reg1 m d0 d1 h1),
    .host (hseg hostOps2 hostOps2_sub hostOps2_fresh (W5 m d0 d1)),
    .region (reg2 m d0 d1),
    .host (hsegEx hostOps3 hostOps3_sub hostOps3_fresh (P2 m d0 d1) (W7 m d0 d1)),
    .host (hsegEx hostOps3_1 hostOps3_1_sub hostOps3_1_fresh (P2 m d0 d1) (W8 m d0 d1)) ]

/-- The last thread state without the `owes`: every unscoped buffer at the last boundary's contents, for some family
    region 2 may have left; the generator register at some state. -/
abbrev Tₙ (c : Dev nD) : sProp 𝕄 :=
  iprop(∃ G : Arr2 (F := F) c, ⌜P2 m d0 d1 c G⌝ ∗ StableHlo.held (c : Thread nD τ) (Pipeline.ucRefs τ sig) (W9 m d0 d1 c G) ∗ ∃ r, prngReg c r)

set_option backward.isDefEq.respectTransparency.types false in
/-- THE FRAME, from exact proof data for regions 0 and 1: at the compiled mesh, from any memory with zero counters, every
    weakly fair execution of @main on the TensorCores terminates, nothing faulting, and every final state has the
    argument arrays as launched. -/
theorem frame_of (ρ : Dev nD → PrngReg) (h0 : ExactAt cfg0 d0 (V3' m)) (h1 : ExactAt cfg1 d1 (V4' m d0)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdats m d0 d1) () cellOf_inj emb₁ defs₀ 𝒱₀ L lv m ρ main (segs m d0 d1 h0 h1)
    (fun c Q => by
      rewrite [main_chain c, Pipeline.RDat.Seg.run_eq_chain,
        show (segs m d0 d1 h0 h1).map Pipeline.RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m d0 d1)
    (hch := ⟨fun _ => .rfl, fun _ => .rfl, fun _ => .rfl, fun _ => .rfl, fun _ => .rfl, fun _ => .rfl, fun _ => .rfl, fun _ => .rfl,
      fun _ => .rfl, fun c => by
        show iprop(∃ G : Arr2 (F := F) c, ⌜P2 m d0 d1 c G⌝
            ∗ StableHlo.held (c : Thread nD τ) (Pipeline.ucRefs τ sig) (W9 m d0 d1 c G) ∗ R c)
          ⊢ iprop(Tₙ m d0 d1 c ∗ ∃ W, owes (c : Thread nD τ) (0 : CellTallies nD τ sig Unit) W)
        iintro ⟨%G, %hG, Hh, Hp, HO⟩
        isplitr [HO]
        · iexists G; isplitr; · ipureintro; exact hG
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => by
      iintro ⟨⟨%G, %hG, Hh, -⟩, HSI⟩
      unfold StableHlo.held
      ihave Hr := (pointsTo_read_all (Pipeline.ucRefs τ sig) (fun b => ((c : Thread nD τ).1, b)) (W9 m d0 d1 c G) s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans (W9_arg m d0 d1 h0 h1 c G hG main_arg0 (by decide) (by decide) (by decide) (by decide) (by decide) (by decide) (by decide) (by decide) (by decide)),
          (h (Proc.devRef .tc main_arg1) (Finset.mem_filter.mpr ⟨StableHlo.devRef_mem_tcRefs main_arg1, by decide⟩)).trans (W9_arg m d0 d1 h0 h1 c G hG main_arg1 (by decide) (by decide) (by decide) (by decide) (by decide) (by decide) (by decide) (by decide) (by decide)),
          (h (Proc.devRef .tc main_arg2) (Finset.mem_filter.mpr ⟨StableHlo.devRef_mem_tcRefs main_arg2, by decide⟩)).trans (W9_arg m d0 d1 h0 h1 c G hG main_arg2 (by decide) (by decide) (by decide) (by decide) (by decide) (by decide) (by decide) (by decide) (by decide)),
          (h (Proc.devRef .tc main_arg3) (Finset.mem_filter.mpr ⟨StableHlo.devRef_mem_tcRefs main_arg3, by decide⟩)).trans (W9_arg m d0 d1 h0 h1 c G hG main_arg3 (by decide) (by decide) (by decide) (by decide) (by decide) (by decide) (by decide) (by decide) (by decide)),
          (h (Proc.devRef .tc main_arg4) (Finset.mem_filter.mpr ⟨StableHlo.devRef_mem_tcRefs main_arg4, by decide⟩)).trans (W9_arg m d0 d1 h0 h1 c G hG main_arg4 (by decide) (by decide) (by decide) (by decide) (by decide) (by decide) (by decide) (by decide) (by decide)),
          (h (Proc.devRef .tc main_arg5) (Finset.mem_filter.mpr ⟨StableHlo.devRef_mem_tcRefs main_arg5, by decide⟩)).trans (W9_arg m d0 d1 h0 h1 c G hG main_arg5 (by decide) (by decide) (by decide) (by decide) (by decide) (by decide) (by decide) (by decide) (by decide)),
          (h (Proc.devRef .tc main_arg6) (Finset.mem_filter.mpr ⟨StableHlo.devRef_mem_tcRefs main_arg6, by decide⟩)).trans (W9_arg m d0 d1 h0 h1 c G hG main_arg6 (by decide) (by decide) (by decide) (by decide) (by decide) (by decide) (by decide) (by decide) (by decide)),
          (h (Proc.devRef .tc main_arg7) (Finset.mem_filter.mpr ⟨StableHlo.devRef_mem_tcRefs main_arg7, by decide⟩)).trans (W9_arg m d0 d1 h0 h1 c G hG main_arg7 (by decide) (by decide) (by decide) (by decide) (by decide) (by decide) (by decide) (by decide) (by decide)),
          (h (Proc.devRef .tc main_arg8) (Finset.mem_filter.mpr ⟨StableHlo.devRef_mem_tcRefs main_arg8, by decide⟩)).trans (W9_arg m d0 d1 h0 h1 c G hG main_arg8 (by decide) (by decide) (by decide) (by decide) (by decide) (by decide) (by decide) (by decide) (by decide)),
          (h (Proc.devRef .tc main_arg9) (Finset.mem_filter.mpr ⟨StableHlo.devRef_mem_tcRefs main_arg9, by decide⟩)).trans (W9_arg m d0 d1 h0 h1 c G hG main_arg9 (by decide) (by decide) (by decide) (by decide) (by decide) (by decide) (by decide) (by decide) (by decide)),
          (h (Proc.devRef .tc main_arg10) (Finset.mem_filter.mpr ⟨StableHlo.devRef_mem_tcRefs main_arg10, by decide⟩)).trans (W9_arg m d0 d1 h0 h1 c G hG main_arg10 (by decide) (by decide) (by decide) (by decide) (by decide) (by decide) (by decide) (by decide) (by decide)),
          (h (Proc.devRef .tc main_arg11) (Finset.mem_filter.mpr ⟨StableHlo.devRef_mem_tcRefs main_arg11, by decide⟩)).trans (W9_arg m d0 d1 h0 h1 c G hG main_arg11 (by decide) (by decide) (by decide) (by decide) (by decide) (by decide) (by decide) (by decide) (by decide)),
          (h (Proc.devRef .tc main_arg12) (Finset.mem_filter.mpr ⟨StableHlo.devRef_mem_tcRefs main_arg12, by decide⟩)).trans (W9_arg m d0 d1 h0 h1 c G hG main_arg12 (by decide) (by decide) (by decide) (by decide) (by decide) (by decide) (by decide) (by decide) (by decide)),
          (h (Proc.devRef .tc main_arg13) (Finset.mem_filter.mpr ⟨StableHlo.devRef_mem_tcRefs main_arg13, by decide⟩)).trans (W9_arg m d0 d1 h0 h1 c G hG main_arg13 (by decide) (by decide) (by decide) (by decide) (by decide) (by decide) (by decide) (by decide) (by decide))⟩
      · iexact HSI)
    (hQ := fun _ h => h)

end Run

/-! ## The frame, at the exact proof data of regions 0 and 1 -/

/-- Region 0's exact proof data at its entry contents meet what the run asks. -/
theorem exact0 (m : (ℓ : Loc nD τ sig) → Buf (Elt F) ℓ) : ExactAt cfg0 (fun c => dat0 (F := F) (V3' m) c) (V3' m) :=
  ⟨fun _ _ => rfl, fun _ _ => rfl, fun _ _ => rfl, fun _ _ => rfl, fun _ _ => rfl, fun c => body_obligation0 (V3' m) c⟩

/-- Region 1's, at region 0's exit contents. -/
theorem exact1 (m : (ℓ : Loc nD τ sig) → Buf (Elt F) ℓ) :
    ExactAt cfg1 (fun c => dat1 (F := F) (V4' m fun c => dat0 (F := F) (V3' m) c) c) (V4' m fun c => dat0 (F := F) (V3' m) c) :=
  ⟨fun _ _ => rfl, fun _ _ => rfl, fun _ _ => rfl, fun _ _ => rfl, fun _ _ => rfl,
    fun c => body_obligation1 (V4' m fun c => dat0 (F := F) (V3' m) c) c⟩

/-- THE FRAME at any `F`. -/
theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m (fun c => dat0 (F := F) (V3' m) c) (fun c => dat1 (F := F) (V4' m fun c => dat0 (F := F) (V3' m) c) c) ρ (exact0 m) (exact1 m)

end Cert.Kernel.Hand

namespace Cert.Proof.KFrame

open Idealize.ShloMosaic Idealize.SL.Sem

/-- The word-level program's frame claim: the launch above at the bit-exact instance. -/
theorem frame : Cert.frame_Kernel := fun m g _ => Cert.Kernel.Hand.frame_any (F := Bits) m g

end Cert.Proof.KFrame

end
-- ==== Proof.KI.Reg0.lean ====
import proofs.«411164_j15539191677010_3_alg».proof.Proof.Gen.KernelIdeal.Launch
import proofs.«411164_j15539191677010_3_alg».proof.Proof.Gen.KernelIdeal.Skeleton
import proofs.«411164_j15539191677010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The attention-and-combine call (the first of the three calls): proof data and body obligation

The call has a grid of one point. Seven arrays are read (the embedded token, the hidden state, the encoder
outputs, the attention weight matrix and bias, the combine weight matrix and bias), two are written (the
combined input of the recurrent cell and the attention weights). Every window's block is its whole array.
The body loads the seven input buffers whole, forms the attention weights (a softmax of a linear score) and
the combined vector (a rectified linear map of the token beside the attended context), reads each output
buffer once without using what it read, and stores each result over its whole buffer.

Everything here is stated at an arbitrary float instance and at a parameter `V`: the contents of the
core's buffers when the call is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each the whole of its buffer -/

abbrev whole1x1024 : Rect S1x1024 := Rect.unit (s := S1x1024) ![0, 0] S1x1024.size inb_S1x1024_S1x1024_0_0
abbrev whole100x1024 : Rect S100x1024 := Rect.unit (s := S100x1024) ![0, 0] S100x1024.size inb_S100x1024_S100x1024_0_0
abbrev whole100x2048 : Rect S100x2048 := Rect.unit (s := S100x2048) ![0, 0] S100x2048.size inb_S100x2048_S100x2048_0_0
abbrev whole1x100 : Rect S1x100 := Rect.unit (s := S1x100) ![0, 0] S1x100.size inb_S1x100_S1x100_0_0
abbrev whole1024x2048 : Rect S1024x2048 := Rect.unit (s := S1024x2048) ![0, 0] S1024x2048.size inb_S1024x2048_S1024x2048_0_0

/-! ## What the body leaves in the two output buffers -/

/-- The combined vector's buffer after the body: one store over the whole buffer, of the rectified combine of
    the token `emb` beside the context the attention weights pick from the encoder outputs `enc`. -/
def combOut (emb hid : Vec F S1x1024 .f32) (attnW : Vec F S100x2048 .f32) (attnB : Vec F S1x100 .f32)
    (enc : Vec F S100x1024 .f32) (combW : Vec F S1024x2048 .f32) (combB : Vec F S1x1024 .f32) : Vec F S1x1024 .f32 :=
  View.canon [⟨whole1x1024, k0_pay3 (View.ld emb whole1x1024) (View.ld hid whole1x1024) (View.ld attnW whole100x2048)
    (View.ld attnB whole1x100) (View.ld enc whole100x1024) (View.ld combW whole1024x2048) (View.ld combB whole1x1024)⟩]

/-- The attention weights' buffer after the body: one store over the whole buffer, of the softmax of the
    score of the token beside the hidden state. -/
def attnOut (emb hid : Vec F S1x1024 .f32) (attnW : Vec F S100x2048 .f32) (attnB : Vec F S1x100 .f32) : Vec F S1x100 .f32 :=
  View.canon [⟨whole1x100, k0_pay2 (View.ld emb whole1x1024) (View.ld hid whole1x1024) (View.ld attnW whole100x2048)
    (View.ld attnB whole1x100)⟩]

/-- The one store over the whole buffer covers it. -/
theorem combCover (p : Vec F S1x1024 .f32) (y : S1x1024.Idx) :
    ∃ pc ∈ ([⟨whole1x1024, p⟩] : List (View.Piece (Elt F) S1x1024 .f32)), y ∈ pc.1.set :=
  View.cover_of_tiled [⟨whole1x1024, p⟩] S1x1024.size (by rfl) y

theorem attnCover (p : Vec F S1x100 .f32) (y : S1x100.Idx) :
    ∃ pc ∈ ([⟨whole1x100, p⟩] : List (View.Piece (Elt F) S1x100 .f32)), y ∈ pc.1.set :=
  View.cover_of_tiled [⟨whole1x100, p⟩] S1x100.size (by rfl) y

/-! ## The body's triple -/

set_option maxHeartbeats 2000000 in
/-- The body on whole staging buffers: the seven inputs at given contents, the two outputs at anything. It runs
    to the continuation with the inputs unchanged and the outputs at `combOut` and `attnOut` of the inputs.
    The read of each output buffer before its store reads whatever the buffer held; the value is not used. -/
theorem sound_kernel0 (c : Dev nD) (E : Set ℕ) (i : grid0.Coords)
    (a1 : Memref sig .tc .vmem S1x1024 .f32) (h1 : a1.IsWhole) (a2 : Memref sig .tc .vmem S1x1024 .f32) (h2 : a2.IsWhole)
    (a3 : Memref sig .tc .vmem S100x1024 .f32) (h3 : a3.IsWhole) (a4 : Memref sig .tc .vmem S100x2048 .f32) (h4 : a4.IsWhole)
    (a5 : Memref sig .tc .vmem S1x100 .f32) (h5 : a5.IsWhole) (a6 : Memref sig .tc .vmem S1024x2048 .f32) (h6 : a6.IsWhole)
    (a7 : Memref sig .tc .vmem S1x1024 .f32) (h7 : a7.IsWhole) (a8 : Memref sig .tc .vmem S1x1024 .f32) (h8 : a8.IsWhole)
    (a9 : Memref sig .tc .vmem S1x100 .f32) (h9 : a9.IsWhole)
    (emb hid : Vec F S1x1024 .f32) (enc : Vec F S100x1024 .f32) (attnW : Vec F S100x2048 .f32) (attnB : Vec F S1x100 .f32)
    (combW : Vec F S1024x2048 .f32) (combB : Vec F S1x1024 .f32) (K : PUnit → sProp 𝕄) :
    iprop(owns (c : Thread nD τ) a1 fullShare emb ∗ owns (c : Thread nD τ) a2 fullShare hid
        ∗ owns (c : Thread nD τ) a3 fullShare enc ∗ owns (c : Thread nD τ) a4 fullShare attnW
        ∗ owns (c : Thread nD τ) a5 fullShare attnB ∗ owns (c : Thread nD τ) a6 fullShare combW
        ∗ owns (c : Thread nD τ) a7 fullShare combB
        ∗ (∃ d, owns (c : Thread nD τ) a8 fullShare d) ∗ (∃ d, owns (c : Thread nD τ) a9 fullShare d)
        ∗ (iprop(owns (c : Thread nD τ) a1 fullShare emb ∗ owns (c : Thread nD τ) a2 fullShare hid
            ∗ owns (c : Thread nD τ) a3 fullShare enc ∗ owns (c : Thread nD τ) a4 fullShare attnW
            ∗ owns (c : Thread nD τ) a5 fullShare attnB ∗ owns (c : Thread nD τ) a6 fullShare combW
            ∗ owns (c : Thread nD τ) a7 fullShare combB
            ∗ owns (c : Thread nD τ) a8 fullShare (combOut emb hid attnW attnB enc combW combB)
            ∗ owns (c : Thread nD τ) a9 fullShare (attnOut emb hid attnW attnB)) -∗ K ⟨⟩))
      ⊢ wp frame (wpE (defs₀ (F := F)) Variants.none c none) E
          (cc0__attn_comb_kernel i a1 h1 a2 h2 a3 h3 a4 h4 a5 h5 a6 h6 a7 h7 a8 h8 a9 h9) K := by
  simp only [cc0__attn_comb_kernel_eq_skeleton]; unfold cc0__attn_comb_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, Hk⟩
  subst e1 e2 e3 e4 e5 e6 e7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (combCover _)
  iexists _; isplitr
  swap; · iexact H9
  ipureintro
  exact View.read_writes_eq_canon _ _ _ (attnCover _)

/-! ## The proof data -/

/-- The proof data of the call on core `c`. The arrays are as the call finds them. After the body at the
    grid's point each input buffer still holds its block, the combined vector's buffer holds `combOut` of the
    input blocks and the attention weights' buffer holds `attnOut` of them. The invariant is the untouched
    rest; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => combOut (iblk0 V c 0 t) (iblk0 V c 1 t) (iblk0 V c 3 t) (iblk0 V c 4 t) (iblk0 V c 2 t) (iblk0 V c 5 t) (iblk0 V c 6 t)
    | ⟨8, _⟩ => attnOut (iblk0 V c 0 t) (iblk0 V c 1 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = combOut (iblk0 V c 0 t) (iblk0 V c 1 t) (iblk0 V c 3 t) (iblk0 V c 4 t) (iblk0 V c 2 t) (iblk0 V c 5 t) (iblk0 V c 6 t) := by
  dsimp only [dat0]
theorem after0_8 (c : Dev nD) (t : Fin cfg0.N) : (dat0 V c).after 8 t
    = attnOut (iblk0 V c 0 t) (iblk0 V c 1 t) (iblk0 V c 3 t) (iblk0 V c 4 t) := by dsimp only [dat0]

/-- Every input window is fetched at the grid's point and no block is cut, so when the body runs each input's
    staging buffer holds exactly the window's block of its array. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)
theorem before0_2 (c : Dev nD) (t : Fin cfg0.N) (d) : (dat0 V c).before 2 t d = iblk0 V c 2 t :=
  ((dat0 V c).before_fetched 2 t (fetch0_2 t) d).trans (by unfold Dat.fetched Dat.blockOf iblk0; rw [A_eq0]; try rfl)
theorem before0_3 (c : Dev nD) (t : Fin cfg0.N) (d) : (dat0 V c).before 3 t d = iblk0 V c 3 t :=
  ((dat0 V c).before_fetched 3 t (fetch0_3 t) d).trans (by unfold Dat.fetched Dat.blockOf iblk0; rw [A_eq0]; try rfl)
theorem before0_4 (c : Dev nD) (t : Fin cfg0.N) (d) : (dat0 V c).before 4 t d = iblk0 V c 4 t :=
  ((dat0 V c).before_fetched 4 t (fetch0_4 t) d).trans (by unfold Dat.fetched Dat.blockOf iblk0; rw [A_eq0]; try rfl)
theorem before0_5 (c : Dev nD) (t : Fin cfg0.N) (d) : (dat0 V c).before 5 t d = iblk0 V c 5 t :=
  ((dat0 V c).before_fetched 5 t (fetch0_5 t) d).trans (by unfold Dat.fetched Dat.blockOf iblk0; rw [A_eq0]; try rfl)
theorem before0_6 (c : Dev nD) (t : Fin cfg0.N) (d) : (dat0 V c).before 6 t d = iblk0 V c 6 t :=
  ((dat0 V c).before_fetched 6 t (fetch0_6 t) d).trans (by unfold Dat.fetched Dat.blockOf iblk0; rw [A_eq0]; try rfl)

/-! ## The body obligation -/

/-- What the body is handed at point `t`: the invariant, what is owed, and the nine staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at the grid's point: the input buffers hold their blocks, the output buffers hold anything, so the
    body's triple applies; the invariant and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the call, at its every point. -/
theorem body_obligation0 (c : Dev nD) : BodyObligation (dat0 (F := F) V c) (defs₀ (F := F)) Variants.none () Set.univ := fun t => by
  rw [bigSep_W0, bigSep_W0]
  exact sound_body0 V c t

/-! ## The arrays after the call

The grid has one point and every window's block is its whole array (its block index is zero on every axis),
so a block read off an array is the array, and the one write-back of an output's block leaves the array at
what the body left in the staging buffer. -/

/-- Windows 0 to 6 are read, never written back. -/
theorem isIn0 : ∀ w : Fin cfg0.W, w.val < 7 → (cfg0.win w).isOut = false := by decide

/-- An input array ends as the call found it. -/
theorem final0_in (c : Dev nD) (w : Fin cfg0.W) (hw : w.val < 7) : (dat0 V c).arrAt w cfg0.N = V c (Pipeline.arrRef spec0 w) :=
  ((dat0 V c).arrAt_in w (isIn0 w hw) cfg0.N).trans (A_eq0 V c w)

/-- At the grid's point every window's block index is zero on every axis. -/
theorem blockIdx0 : ∀ (w : Fin cfg0.W) (a : Fin (cfg0.win w).shape.rank), (cfg0.win w).index t0_0 a = 0 := by decide +kernel

/-- The offsets of the whole rectangle are zero. -/
theorem offs2 : (![0, 0] : Fin 2 → ℕ) = fun _ => 0 := funext fun a => by fin_cases a <;> rfl

/-- Each input's block at the point is its array: an element of the block sits in the array at its own index. -/
theorem iblk0_0 (c : Dev nD) : iblk0 V c 0 t0_0 = V c main_v2 := by
  funext y
  show V c main_v2 (((cfg0.win 0).rect t0_0).emb y) = V c main_v2 y
  exact congrArg _ (funext fun a => Fin.ext (Window.rect_emb_val_of_index_zero _ t0_0 a (blockIdx0 0 a) y))
theorem iblk0_1 (c : Dev nD) : iblk0 V c 1 t0_0 = V c main_v3 := by
  funext y
  show V c main_v3 (((cfg0.win 1).rect t0_0).emb y) = V c main_v3 y
  exact congrArg _ (funext fun a => Fin.ext (Window.rect_emb_val_of_index_zero _ t0_0 a (blockIdx0 1 a) y))
theorem iblk0_2 (c : Dev nD) : iblk0 V c 2 t0_0 = V c main_arg2 := by
  funext y
  show V c main_arg2 (((cfg0.win 2).rect t0_0).emb y) = V c main_arg2 y
  exact congrArg _ (funext fun a => Fin.ext (Window.rect_emb_val_of_index_zero _ t0_0 a (blockIdx0 2 a) y))
theorem iblk0_3 (c : Dev nD) : iblk0 V c 3 t0_0 = V c main_arg4 := by
  funext y
  show V c main_arg4 (((cfg0.win 3).rect t0_0).emb y) = V c main_arg4 y
  exact congrArg _ (funext fun a => Fin.ext (Window.rect_emb_val_of_index_zero _ t0_0 a (blockIdx0 3 a) y))
theorem iblk0_4 (c : Dev nD) : iblk0 V c 4 t0_0 = V c main_v4 := by
  funext y
  show V c main_v4 (((cfg0.win 4).rect t0_0).emb y) = V c main_v4 y
  exact congrArg _ (funext fun a => Fin.ext (Window.rect_emb_val_of_index_zero _ t0_0 a (blockIdx0 4 a) y))
theorem iblk0_5 (c : Dev nD) : iblk0 V c 5 t0_0 = V c main_arg6 := by
  funext y
  show V c main_arg6 (((cfg0.win 5).rect t0_0).emb y) = V c main_arg6 y
  exact congrArg _ (funext fun a => Fin.ext (Window.rect_emb_val_of_index_zero _ t0_0 a (blockIdx0 5 a) y))
theorem iblk0_6 (c : Dev nD) : iblk0 V c 6 t0_0 = V c main_v5 := by
  funext y
  show V c main_v5 (((cfg0.win 6).rect t0_0).emb y) = V c main_v5 y
  exact congrArg _ (funext fun a => Fin.ext (Window.rect_emb_val_of_index_zero _ t0_0 a (blockIdx0 6 a) y))

/-- What the body leaves in the combined vector's buffer at the point is the combine of the whole arrays:
    the one store covers the buffer and every load reads its whole buffer. -/
theorem after0_7_val (c : Dev nD) : (dat0 V c).after 7 t0_0
    = k0_pay3 (V c main_v2) (V c main_v3) (V c main_arg4) (V c main_v4) (V c main_arg2) (V c main_arg6) (V c main_v5) := by
  rw [after0_7, iblk0_0, iblk0_1, iblk0_2, iblk0_3, iblk0_4, iblk0_5, iblk0_6]
  unfold combOut
  rw [View.canon_unit_zero offs2, View.ld_unit_zero offs2, View.ld_unit_zero offs2, View.ld_unit_zero offs2,
    View.ld_unit_zero offs2, View.ld_unit_zero offs2, View.ld_unit_zero offs2, View.ld_unit_zero offs2]

theorem after0_8_val (c : Dev nD) : (dat0 V c).after 8 t0_0
    = k0_pay2 (V c main_v2) (V c main_v3) (V c main_arg4) (V c main_v4) := by
  rw [after0_8, iblk0_0, iblk0_1, iblk0_3, iblk0_4]
  unfold attnOut
  rw [View.canon_unit_zero offs2, View.ld_unit_zero offs2, View.ld_unit_zero offs2, View.ld_unit_zero offs2,
    View.ld_unit_zero offs2]

/-- The combined vector's array after the call: the one write-back puts the block over the whole array. -/
theorem final0_7 (c : Dev nD) : (dat0 V c).arrAt 7 cfg0.N
    = k0_pay3 (V c main_v2) (V c main_v3) (V c main_arg4) (V c main_v4) (V c main_arg2) (V c main_arg6) (V c main_v5) := by
  rw [← after0_7_val]
  rw [show cfg0.N = (t0_0 : Fin cfg0.N).val + 1 from N_0, Dat.arrAt_succ, if_pos (flush0_7 t0_0)]
  funext y
  have hy : ((cfg0.win 7).blk t0_0).view.emb y = y :=
    funext fun a => Fin.ext (show ((((cfg0.win 7).rect t0_0).emb y a : ℕ)) = (y a : ℕ) from
      Window.rect_emb_val_of_index_zero (cfg0.win 7) t0_0 a (blockIdx0 7 a) y)
  refine (congrArg _ hy.symm).trans ?_
  rw [View.write_emb_of_mem _ _ (Finset.mem_univ y)]
  rfl

theorem final0_8 (c : Dev nD) : (dat0 V c).arrAt 8 cfg0.N
    = k0_pay2 (V c main_v2) (V c main_v3) (V c main_arg4) (V c main_v4) := by
  rw [← after0_8_val]
  rw [show cfg0.N = (t0_0 : Fin cfg0.N).val + 1 from N_0, Dat.arrAt_succ, if_pos (flush0_8 t0_0)]
  funext y
  have hy : ((cfg0.win 8).blk t0_0).view.emb y = y :=
    funext fun a => Fin.ext (show ((((cfg0.win 8).rect t0_0).emb y a : ℕ)) = (y a : ℕ) from
      Window.rect_emb_val_of_index_zero (cfg0.win 8) t0_0 a (blockIdx0 8 a) y)
  refine (congrArg _ hy.symm).trans ?_
  rw [View.write_emb_of_mem _ _ (Finset.mem_univ y)]
  rfl

end Cert.KernelIdeal.Hand

end
-- ==== Proof.KI.Reg1.lean ====
import proofs.«411164_j15539191677010_3_alg».proof.Proof.Gen.KernelIdeal.Launch
import proofs.«411164_j15539191677010_3_alg».proof.Proof.Gen.KernelIdeal.Skeleton
import proofs.«411164_j15539191677010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The gate pre-activations (second pallas_call): proof data and body obligation

The call runs over three grid points g = 0, 1, 2 (the reset, update and candidate gates). At point g the
body reads the attended input row x2 and the previous hidden row h (whole, the same at every point), the
g-th row block of the two gate matrices W_ih, W_hh and the g-th lane block of the two biases, and
writes lane block g of

  gi = x2 · W_ihᵀ + b_ih,   gh = h · W_hhᵀ + b_hh.

This file states, at any contents V of the core's buffers when the call is entered, what each staging buffer
holds after the body at each point (the proof data) and proves the body's triple there. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the block was moved there at that
point or not: the two row vectors are moved in once, at the first gate, and their block index never changes;
the matrix and bias blocks are moved at every gate. Stated for any proof data over the arrays V whose body
leaves the input in place. -/

theorem before_x2_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before_h_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before_Wih_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before_Whh_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before_bih_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before_bhh_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

/-- A whole row buffer (1 × 1024). -/
abbrev rowAll : Rect S1x1024 := Rect.unit (s := S1x1024) ![0, 0] S1x1024.size inb_S1x1024_S1x1024_0_0
/-- A whole matrix block buffer (1024 × 1024). -/
abbrev matAll : Rect S1024x1024 := Rect.unit (s := S1024x1024) ![0, 0] S1024x1024.size inb_S1024x1024_S1024x1024_0_0

/-! ## What the body leaves in the two output buffers -/

/-- The gi lane block after the body: its one store, of x · Wᵀ + b over the row x, the matrix block W
    and the bias block b the body loaded. -/
def giBlock (x : Vec F S1x1024 .f32) (W : Vec F S1024x1024 .f32) (b : Vec F S1x1024 .f32) : Vec F S1x1024 .f32 :=
  View.canon [⟨rowAll, k1_pay1 (View.ld x rowAll) (View.ld W matAll) (View.ld b rowAll)⟩]

/-- The gh lane block after the body, likewise over the hidden row. -/
def ghBlock (h : Vec F S1x1024 .f32) (W : Vec F S1024x1024 .f32) (b : Vec F S1x1024 .f32) : Vec F S1x1024 .f32 :=
  View.canon [⟨rowAll, k1_pay2 (View.ld h rowAll) (View.ld W matAll) (View.ld b rowAll)⟩]

/-- A store of a whole row buffer covers it. -/
theorem cover_row (p : Vec F S1x1024 .f32) (y : S1x1024.Idx) :
    ∃ pc ∈ ([⟨rowAll, p⟩] : List (View.Piece (Elt F) S1x1024 .f32)), y ∈ pc.1.set :=
  View.cover_of_tiled [⟨rowAll, p⟩] S1x1024.size (by rfl) y

/-! ## The body's triple -/

set_option maxHeartbeats 1000000 in
/-- The body on whole staging memrefs — the six inputs' at read contents, the two outputs' at anything — runs to
    the continuation holding the inputs' as they were and the outputs' at giBlock, ghBlock of the inputs'.
    Each output buffer is loaded once before it is stored; the loaded value is not used. -/
theorem sound_kernel1 (c : Dev nD) (E : Set ℕ) (i : grid1.Coords)
    (arg0 : Memref sig .tc .vmem S1x1024 .f32) (harg0 : arg0.IsWhole) (arg1 : Memref sig .tc .vmem S1x1024 .f32) (harg1 : arg1.IsWhole)
    (arg2 : Memref sig .tc .vmem S1024x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x1024 .f32) (harg7 : arg7.IsWhole)
    (x0 : Vec F S1x1024 .f32) (x1 : Vec F S1x1024 .f32) (x2 : Vec F S1024x1024 .f32) (x3 : Vec F S1024x1024 .f32)
    (x4 : Vec F S1x1024 .f32) (x5 : Vec F S1x1024 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (giBlock x0 x2 x4)
            ∗ owns (c : Thread nD τ) arg7 fullShare (ghBlock x1 x3 x5)) -∗ K ⟨⟩))
      ⊢ wp frame (wpE (defs₀ (F := F)) Variants.none c none) E
          (cc1__gru_gates_kernel i arg0 harg0 arg1 harg1 arg2 harg2 arg3 harg3 arg4 harg4 arg5 harg5 arg6 harg6 arg7 harg7) K := by
  simp only [cc1__gru_gates_kernel_eq_skeleton]; unfold cc1__gru_gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_row _)
  iexists _; isplitr
  swap; · iexact H7
  ipureintro
  exact View.read_writes_eq_canon _ _ _ (cover_row _)

/-! ## The proof data -/

/-- The proof data of the call on core c: the arrays as the call finds them; after the body at point t each
    input's buffer still at its block and the two outputs' at giBlock, ghBlock of the input blocks; the
    invariant is the untouched rest of the core's state; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => giBlock (iblk1 V c 0 t) (iblk1 V c 2 t) (iblk1 V c 4 t)
    | ⟨7, _⟩ => ghBlock (iblk1 V c 1 t) (iblk1 V c 3 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = giBlock (iblk1 V c 0 t) (iblk1 V c 2 t) (iblk1 V c 4 t) := by dsimp only [dat1]
theorem after1_7 (c : Dev nD) (t : Fin cfg1.N) :
    (dat1 V c).after 7 t = ghBlock (iblk1 V c 1 t) (iblk1 V c 3 t) (iblk1 V c 5 t) := by dsimp only [dat1]

/-! Each input's staging buffer holds its block at every point. -/
theorem before1_0 (c : Dev nD) (t : Fin cfg1.N) (d) : (dat1 V c).before 0 t d = iblk1 V c 0 t :=
  before_x2_of V (dat1 V c) (A_eq1 V c 0) (after1_0 V c) t d
theorem before1_1 (c : Dev nD) (t : Fin cfg1.N) (d) : (dat1 V c).before 1 t d = iblk1 V c 1 t :=
  before_h_of V (dat1 V c) (A_eq1 V c 1) (after1_1 V c) t d
theorem before1_2 (c : Dev nD) (t : Fin cfg1.N) (d) : (dat1 V c).before 2 t d = iblk1 V c 2 t :=
  before_Wih_of V (dat1 V c) (A_eq1 V c 2) (after1_2 V c) t d
theorem before1_3 (c : Dev nD) (t : Fin cfg1.N) (d) : (dat1 V c).before 3 t d = iblk1 V c 3 t :=
  before_Whh_of V (dat1 V c) (A_eq1 V c 3) (after1_3 V c) t d
theorem before1_4 (c : Dev nD) (t : Fin cfg1.N) (d) : (dat1 V c).before 4 t d = iblk1 V c 4 t :=
  before_bih_of V (dat1 V c) (A_eq1 V c 4) (after1_4 V c) t d
theorem before1_5 (c : Dev nD) (t : Fin cfg1.N) (d) : (dat1 V c).before 5 t d = iblk1 V c 5 t :=
  before_bhh_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The input arrays after the call -/

/-- An input array is never written back: after the last point it holds what the call found. -/
theorem final1_in (c : Dev nD) (w : Fin cfg1.W) (hw : w.val < 6) :
    (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨n + 6, _⟩, h => exact absurd h (by simp)
  rw [(dat1 V c).arrAt_in w hin, A_eq1]

end Cert.KernelIdeal.Hand

end
-- ==== Proof.LibDotT.lean ====
/-
  The product of an N × K matrix by the TRANSPOSE of an M × K matrix, read at an index.

  A product whose dimension numbers contract axis 1 of the left operand with axis 1 of the right, keep axis 0 of
  each and carry no batch axis has, at (n, j), the value Σ_κ l (n, κ) · r (j, κ): row n of the left against row j of
  the right. Stated for any dimension-numbers record whose lists have those values, generically in the sizes and the
  operands' formats, at the ideal values (a float is an extended real): for the bare sum over the record's
  contraction index, and for the accumulating block product that reduces to it.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

section Rows

variable {N K M : Nat}
  (wf : DotDims.WF ⟨2, ![N, K]⟩ ⟨2, ![M, K]⟩ ⟨2, ![N, M]⟩ [1] [1] [0] [0] [] [])

/-- The record that contracts the two trailing axes and keeps the two leading ones. -/
abbrev rowsT : DotDims ⟨2, ![N, K]⟩ ⟨2, ![M, K]⟩ ⟨2, ![N, M]⟩ := ⟨[1], [1], [0], [0], [], [], wf⟩

/-- The left index keeps the result's row on its kept axis, -/
theorem lhs_0 (i : (⟨2, ![N, M]⟩ : Shape).Idx) (q : (rowsT wf).contr.Idx) :
    ((rowsT wf).lhsIdx i q 0).val = (i 0).val := by
  unfold DotDims.lhsIdx
  rw [dif_neg (show ¬(0 : Fin 2) ∈ (rowsT wf).lhsBatch from List.not_mem_nil),
    dif_pos (show (0 : Fin 2) ∈ (rowsT wf).lhsNonContracting from List.mem_singleton.mpr rfl)]
  rfl
/-- and the contraction position on its contracted one; -/
theorem lhs_1 (i : (⟨2, ![N, M]⟩ : Shape).Idx) (q : (rowsT wf).contr.Idx) :
    ((rowsT wf).lhsIdx i q 1).val = (q ⟨0, by rw [DotDims.rank_contr]; exact Nat.one_pos⟩).val :=
  (rowsT wf).lhsIdx_val_of_single rfl i q
/-- the right index keeps the result's column on its kept axis, -/
theorem rhs_0 (i : (⟨2, ![N, M]⟩ : Shape).Idx) (q : (rowsT wf).contr.Idx) :
    ((rowsT wf).rhsIdx i q 0).val = (i 1).val := by
  unfold DotDims.rhsIdx
  rw [dif_neg (show ¬(0 : Fin 2) ∈ (rowsT wf).rhsBatch from List.not_mem_nil),
    dif_pos (show (0 : Fin 2) ∈ (rowsT wf).rhsNonContracting from List.mem_singleton.mpr rfl)]
  rfl
/-- and the contraction position on its contracted one. -/
theorem rhs_1 (i : (⟨2, ![N, M]⟩ : Shape).Idx) (q : (rowsT wf).contr.Idx) :
    ((rowsT wf).rhsIdx i q 1).val = (q ⟨0, by rw [DotDims.rank_contr]; exact Nat.one_pos⟩).val :=
  (rowsT wf).rhsIdx_val_of_single rfl i q

/-- So the sum over the contraction index at (n, j) is Σ_κ l (n, κ) · r (j, κ). -/
theorem sum_rowsT {φ₁ φ₂ : FTy} (l : FVec Ideal ⟨2, ![N, K]⟩ φ₁) (r : FVec Ideal ⟨2, ![M, K]⟩ φ₂) (n : Fin N) (j : Fin M) :
    ∑ k : (rowsT wf).contr.Idx, l ((rowsT wf).lhsIdx (ix2 n j) k) * r ((rowsT wf).rhsIdx (ix2 n j) k)
      = ∑ κ : Fin K, l (ix2 n κ) * r (ix2 j κ) := by
  rw [← Equiv.sum_comp (contrEquiv1 (rowsT wf) K rfl rfl).symm]
  refine Finset.sum_congr rfl fun κ _ => ?_
  have hk := contrEquiv1_symm_val (rowsT wf) K rfl rfl κ
  have el : (rowsT wf).lhsIdx (ix2 n j) ((contrEquiv1 (rowsT wf) K rfl rfl).symm κ) = ix2 n κ :=
    funext fun a => Fin.ext (by
      match a with
      | ⟨0, _⟩ => exact lhs_0 wf _ _
      | ⟨1, _⟩ => exact (lhs_1 wf _ _).trans hk)
  have er : (rowsT wf).rhsIdx (ix2 n j) ((contrEquiv1 (rowsT wf) K rfl rfl).symm κ) = ix2 j κ :=
    funext fun a => Fin.ext (by
      match a with
      | ⟨0, _⟩ => exact rhs_0 wf _ _
      | ⟨1, _⟩ => exact (rhs_1 wf _ _).trans hk)
  rw [el, er]

end Rows

/-- A record whose six lists are those of the rows-against-rows product is that record. -/
theorem dot_eq_rowsT {N K M : Nat} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = []) :
    ∃ wf, d = rowsT wf := by
  cases d
  simp only at hlc hrc hln hrn hlb hrb
  subst hlc hrc hln hrn hlb hrb
  exact ⟨_, rfl⟩

/-- THE CONTRACTION'S SUM AT (n, j), for any record with those lists: Σ_κ l (n, κ) · r (j, κ). -/
theorem contr_sum_rowsT {N K M : Nat} {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (l : FVec Ideal ⟨2, ![N, K]⟩ φ₁) (r : FVec Ideal ⟨2, ![M, K]⟩ φ₂) (n : Fin N) (j : Fin M) :
    ∑ k : d.contr.Idx, l (d.lhsIdx (ix2 n j) k) * r (d.rhsIdx (ix2 n j) k) = ∑ κ : Fin K, l (ix2 n κ) * r (ix2 j κ) := by
  obtain ⟨wf, rfl⟩ := dot_eq_rowsT d hlc hrc hln hrn hlb hrb
  exact sum_rowsT wf l r n j

/-- THE ACCUMULATING BLOCK PRODUCT READ AT (n, j): the accumulator's entry plus Σ_κ l (n, κ) · r (j, κ). -/
theorem matmul_rowsT_apply {N K M : Nat} {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![N, K]⟩ φ₁) (r : FVec Ideal ⟨2, ![M, K]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 j κ) := by
  rw [Ideal.matmul_apply]
  exact congrArg (acc (ix2 n j) + ·) (contr_sum_rowsT d hlc hrc hln hrn hlb hrb l r n j)

/-- The same into the zero splat a block product starts from: just the sum. -/
theorem matmul_rowsT_zero_apply {N K M : Nat} {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![N, K]⟩ φ₁) (r : FVec Ideal ⟨2, ![M, K]⟩ φ₂) (n : Fin N) (j : Fin M) :
    FloatOps.matmul d prec l r (constant (F := Ideal) ⟨2, ![N, M]⟩ .f32 0x00000000#32) (ix2 n j)
      = ∑ κ : Fin K, l (ix2 n κ) * r (ix2 j κ) := by
  rw [Ideal.matmul_constant_zero_apply]
  exact contr_sum_rowsT d hlc hrc hln hrn hlb hrb l r n j

end Cert.LibDotT

end
-- ==== Proof.KI.Reg2.lean ====
/-
  Region 2 of the idealized kernel program, the output projection, at the ideal values: its proof data, the body's
  obligation at every point, and the logits array after the run.

  The projection's grid has sixteen points. Point `t` reads the whole hidden row `h` [1, 1024], rows
  `3200 t ‥ 3200 t + 3199` of the weight matrix `W` [50257, 1024] and lanes `3200 t ‥ 3200 t + 3199` of the bias row
  `b` [1, 50257], and writes lanes `3200 t ‥ 3200 t + 3199` of the logits row [1, 50257]. Sixteen blocks of 3200 reach
  51200, past 50257: the last block of the weight, bias and logits windows overhangs its array and is cut there — only
  its first 2257 rows (lanes), 48000 ‥ 50256, lie inside. A cut fetch fills the part of the staging buffer inside the
  array and leaves the rest at contents nothing names; the three cut windows' buffers are handed back stated on the part
  inside the array only, and the cut write-back writes only the lanes inside the array.

  What makes this sound: logit `j` of a block is `Σ_κ h (0, κ) · W (j, κ) + b (0, j)` (at the ideal values the narrowing
  to bf16 is the identity and the product into the zero block is the bare sum). It reads row `j` of the weight buffer and
  lane `j` of the bias buffer and no other, so a lane inside the array never depends on what fills the buffers past the
  arrays' end (`cut_pay2`). Every point writes back its block of ONE row, the logits row of the region's inputs
  (`flushed2_3`), lane `n` lies in the block of point `n / 3200` (`cover2_3`), and so the array ends holding that row
  (`final2_3`, `final2_3_apply`).
-/
import proofs.«411164_j15539191677010_3_alg».proof.Proof.Gen.KernelIdeal.Launch
import proofs.«411164_j15539191677010_3_alg».proof.Proof.Gen.KernelIdeal.Skeleton
import proofs.«411164_j15539191677010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«411164_j15539191677010_3_alg».proof.Proof.LibDotT

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

local notation "𝕄" => MT nD τ sig Unit (Elt Ideal) ℕ (UR sig nD τ) ℕ

variable (V : (c : Dev nD) → (b : Ref sig .tc) → Buf (Elt Ideal) ((c : Thread nD τ).loc b))

/-! # Region 2 (the output projection): proof data and body obligation at the ideal values

The grid has sixteen points. Point `t` reads the whole hidden row, rows `3200 t ‥ 3200 t + 3199` of the weight
matrix and lanes `3200 t ‥ 3200 t + 3199` of the bias row, and writes lanes `3200 t ‥ 3200 t + 3199` of the logits
row. `16 · 3200 = 51200 > 50257`: the last block of the three blocked windows overhangs its array, and only its first
`2257` rows (lanes) lie inside. Logit `j` is `Σ_κ h (0, κ) · W (j, κ) + b (0, j)`: it reads row `j` of the weights and lane
`j` of the bias and nothing else, so a lane inside the array never sees what fills a staging buffer past the array's
end. -/

/-- `![0, 0]` is the zero offset. -/
theorem r2_hz : (![0, 0] : Fin 2 → Nat) = fun _ => 0 := funext fun a => by fin_cases a <;> rfl

/-! ## The index maps and cuts, decided once over the grid -/

/-- At point `t`: the weight window's block index is `(t, 0)`, the bias and logits windows' `(0, t)`; the blocked axis
    is cut to `min 3200 (50257 - 3200 t)` coordinates (all `3200` but at the last point, `2257` there), the other axis
    not at all. -/
theorem r2_pt_facts : ∀ t : Fin cfg2.N,
    win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = min 3200 (50257 - t.val * 3200)
    ∧ win2_1.xsize (grid2.coords t) (1 : Fin 2) = 1024
    ∧ win2_2.xsize (grid2.coords t) (0 : Fin 2) = 1
    ∧ win2_2.xsize (grid2.coords t) (1 : Fin 2) = min 3200 (50257 - t.val * 3200)
    ∧ win2_3.xsize (grid2.coords t) (0 : Fin 2) = 1
    ∧ win2_3.xsize (grid2.coords t) (1 : Fin 2) = min 3200 (50257 - t.val * 3200) :=
  (by decide +kernel : ∀ t : Fin grid2.N, _)

/-- The logits window is never fetched. -/
theorem r2_nofetch3 : ∀ t : Fin cfg2.N, (cfg2.win 3).fetch t = false :=
  (by decide +kernel : ∀ t : Fin grid2.N, win2_3.fetch t = false)

/-! ## The blocks and the logits -/

/-- Window `w`'s block at point `t`, its part inside the array, read off the array as the region finds it. -/
def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- Logit `n` of a hidden row `h`, a weight matrix `W` and a bias row `b`: `Σ_k h (0, k) · W (n, k) + b (0, n)`. -/
def logit2 (h : S1x1024.Idx → Ideal .f32) (W : S50257x1024.Idx → Ideal .f32) (b : S1x50257.Idx → Ideal .f32) (n : Fin 50257) :
    Ideal .f32 :=
  (∑ k : Fin 1024, h (ix2 (0 : Fin 1) k) * W (ix2 n k)) + b (ix2 (0 : Fin 1) n)

/-- The logits row: lane `j` is logit `j`. -/
def logits2 (h : S1x1024.Idx → Ideal .f32) (W : S50257x1024.Idx → Ideal .f32) (b : S1x50257.Idx → Ideal .f32) :
    S1x50257.Idx → Ideal .f32 :=
  fun i => logit2 h W b ⟨(i 1).val, idx2_lt1 i⟩

/-- The logits row of the region's three input arrays as the region finds them. -/
def G2 (c : Dev nD) : S1x50257.Idx → Elt Ideal .f32 :=
  logits2 (V c main_v38) (V c main_arg12) (V c main_v8)

/-! ## The proof data -/

/-- The proof data of the output projection on core `c`: the arrays as the region finds them; after the body at point
    `t` the hidden row's buffer at the hidden row, the weight and bias buffers at their blocks and the logits buffer at
    block `t` of the logits row, each filled out past the array's end with zero, which nothing reads; the invariant the
    scoped rest and the generator register; nothing owed; full shares. -/
def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => (cfg2.win 1).fill (cfg2.grid.coords t) (fun _ => (0 : Ideal .f32)) (iblk2 V c 1 t)
    | ⟨2, _⟩ => (cfg2.win 2).fill (cfg2.grid.coords t) (fun _ => (0 : Ideal .f32)) (iblk2 V c 2 t)
    | ⟨3, _⟩ => (cfg2.win 3).fill (cfg2.grid.coords t) (fun _ => (0 : Ideal .f32))
        (((cfg2.win 3).blk t).view.read (Elt Ideal) (G2 V c))
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) :
    (dat2 V c).after 1 t = (cfg2.win 1).fill (cfg2.grid.coords t) (fun _ => (0 : Ideal .f32)) (iblk2 V c 1 t) := by dsimp only [dat2]
theorem after2_2 (c : Dev nD) (t : Fin cfg2.N) :
    (dat2 V c).after 2 t = (cfg2.win 2).fill (cfg2.grid.coords t) (fun _ => (0 : Ideal .f32)) (iblk2 V c 2 t) := by dsimp only [dat2]
theorem after2_3 (c : Dev nD) (t : Fin cfg2.N) :
    (dat2 V c).after 3 t = (cfg2.win 3).fill (cfg2.grid.coords t) (fun _ => (0 : Ideal .f32))
      (((cfg2.win 3).blk t).view.read (Elt Ideal) (G2 V c)) := by dsimp only [dat2]

/-! ## What the body finds -/

/-- The hidden row's buffer holds the hidden row at every point: fetched at the first, left in place after. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight and bias buffers are fetched at every point: the block on the part inside the array, `d` elsewhere. -/
theorem before2_1 (c : Dev nD) (t : Fin cfg2.N) (d) :
    (dat2 V c).before 1 t d = (cfg2.win 1).fill (cfg2.grid.coords t) d (iblk2 V c 1 t) := by
  unfold Dat.before; rw [if_pos (fetch2_1 t)]; unfold Dat.fetched Dat.blockOf iblk2; rw [A_eq2]
theorem before2_2 (c : Dev nD) (t : Fin cfg2.N) (d) :
    (dat2 V c).before 2 t d = (cfg2.win 2).fill (cfg2.grid.coords t) d (iblk2 V c 2 t) := by
  unfold Dat.before; rw [if_pos (fetch2_2 t)]; unfold Dat.fetched Dat.blockOf iblk2; rw [A_eq2]

/-- The logits buffer holds contents nothing names: never fetched, written back at every point. -/
theorem before2_3 (c : Dev nD) (t : Fin cfg2.N) (d) : (dat2 V c).before 3 t d = d := by
  unfold Dat.before
  rw [if_neg (by rw [r2_nofetch3 t]; exact Bool.false_ne_true)]
  by_cases h : t.val = 0
  · rw [if_pos h]
  · rw [if_neg h]; exact if_pos (flush2_3 _)

/-! ## The body's triple -/

set_option maxHeartbeats 1000000 in
/-- The kernel body on whole staging memrefs holding `x0`, `x1`, `x2` and anything: three whole loads, the payload, a
    dead whole load of the result's buffer, a whole store. The result's buffer ends holding the payload of the three
    contents, the other three what they held. -/
theorem sound_kernel2 (c : Dev nD) (E : Set ℕ) (i : grid2.Coords)
    (arg1 : Memref sig .tc .vmem S1x1024 .f32) (harg1 : arg1.IsWhole)
    (arg2 : Memref sig .tc .vmem S3200x1024 .f32) (harg2 : arg2.IsWhole)
    (arg3 : Memref sig .tc .vmem S1x3200 .f32) (harg3 : arg3.IsWhole)
    (arg4 : Memref sig .tc .vmem S1x3200 .f32) (harg4 : arg4.IsWhole)
    (x0 : Vec Ideal S1x1024 .f32) (x1 : Vec Ideal S3200x1024 .f32) (x2 : Vec Ideal S1x3200 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x0 x1 x2)) -∗ K ⟨⟩))
      ⊢ wp frame (wpE (defs₀ (F := Ideal)) Variants.none c none) E
          (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_singleton_self _,
    View.mem_set_unit_zero r2_hz inb_S1x3200_S1x3200_0_0 y⟩)).trans ?_
  rw [View.canon_unit_zero r2_hz]
  simp only [View.readAt_eq_ld, View.ld_unit_zero (S := S1x1024) r2_hz, View.ld_unit_zero (S := S3200x1024) r2_hz,
    View.ld_unit_zero (S := S1x3200) r2_hz]

/-! ## The payload at a lane -/

/-- Lane `j` of the payload of `x0`, `x1`, `x2` is `Σ_κ x0 (0, κ) · x1 (j, κ) + x2 (0, j)`: at the ideal values the
    narrowing to bf16 changes nothing, a cast to the same shape is the identity, and the product into the zero block
    is the bare sum of row `0` of the left operand against row `j` of the right. -/
theorem k2_pay1_apply (x0 : FVec Ideal S1x1024 .f32) (x1 : FVec Ideal S3200x1024 .f32) (x2 : FVec Ideal S1x3200 .f32) (j : Fin 3200) :
    k2_pay1 x0 x1 x2 (ix2 (0 : Fin 1) j)
      = (∑ κ : Fin 1024, x0 (ix2 (0 : Fin 1) κ) * x1 (ix2 j κ)) + x2 (ix2 (0 : Fin 1) j) := by
  unfold k2_pay1
  rw [addf_apply, shapeCast_self, shapeCast_self]
  refine congrArg (· + x2 (ix2 (0 : Fin 1) j)) ?_
  refine (Cert.LibDotT.matmul_rowsT_zero_apply dot_S1x1024_S3200x1024_S1x3200_1_1_0_0_n_n rfl rfl rfl rfl rfl rfl none _ _ (0 : Fin 1) j).trans ?_
  rfl

/-! ## The payload of the fetched blocks, cut back to the array -/

/-- A rectangle of a whole buffer reads the buffer's contents at the rectangle's indices. -/
theorem r2_read_whole_slice {κ : Kind} (b : Ref sig κ) (r : Rect b.ty.shape) (f : b.ty.Contents (Elt Ideal)) (x : r.shape.Idx) :
    ((View.whole b).slice r).read (Elt Ideal) f x = f (r.emb x) := rfl

/-- A filled block read at an index inside the part the transfer moves is the filling there. -/
theorem r2_fill_of_moved {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The hidden row's buffer holds the hidden row. -/
theorem hblk2_apply (c : Dev nD) (t : Fin cfg2.N) (κ : Fin 1024) :
    iblk2 V c 0 t (ix2 (0 : Fin 1) κ) = V c main_v38 (ix2 (0 : Fin 1) κ) := by
  refine (r2_read_whole_slice main_v38 (win2_0.rect t) (V c main_v38) _).trans ?_
  congr 1
  funext a; apply Fin.ext
  rw [Window.rect_emb_val]
  match a with
  | ⟨0, _⟩ => rfl
  | ⟨1, _⟩ => show 0 * 1024 + κ.val = κ.val; omega

/-- Row `j` of the weight buffer, for a row inside the array, is row `3200 t + j` of the weights, whatever fills the
    buffer past the array's end. -/
theorem wblk2_apply (c : Dev nD) (t : Fin cfg2.N) (d1 : S3200x1024.Idx → Ideal .f32) (j : Fin 3200) (κ : Fin 1024)
    (h : j.val < min 3200 (50257 - t.val * 3200)) (hb : t.val * 3200 + j.val < 50257) :
    (cfg2.win 1).fill (cfg2.grid.coords t) d1 (iblk2 V c 1 t) (ix2 j κ)
      = V c main_arg12 (ix2 (⟨t.val * 3200 + j.val, hb⟩ : Fin 50257) κ) := by
  obtain ⟨e10, e11, -, -, -, -, s10, s11, -⟩ := r2_pt_facts t
  have hm : ∀ a, ((ix2 j κ : S3200x1024.Idx) a).val < win2_1.xsize (grid2.coords t) a := fun a => by
    match a with
    | ⟨0, _⟩ => show j.val < win2_1.xsize (grid2.coords t) (0 : Fin 2); rw [s10]; exact h
    | ⟨1, _⟩ => show κ.val < win2_1.xsize (grid2.coords t) (1 : Fin 2); rw [s11]; exact κ.isLt
  refine (r2_fill_of_moved win2_1 (grid2.coords t) d1 (iblk2 V c 1 t) (ix2 j κ) hm).trans ?_
  refine (r2_read_whole_slice main_arg12 (win2_1.rect t) (V c main_arg12) _).trans ?_
  congr 1
  funext a; apply Fin.ext
  rw [Window.rect_emb_val]
  match a with
  | ⟨0, _⟩ => show win2_1.index t (0 : Fin 2) * 3200 + j.val = t.val * 3200 + j.val; rw [e10]
  | ⟨1, _⟩ => show win2_1.index t (1 : Fin 2) * 1024 + κ.val = κ.val; rw [e11]; omega

/-- Lane `j` of the bias buffer, for a lane inside the array, is lane `3200 t + j` of the bias. -/
theorem bblk2_apply (c : Dev nD) (t : Fin cfg2.N) (d2 : S1x3200.Idx → Ideal .f32) (j : Fin 3200)
    (h : j.val < min 3200 (50257 - t.val * 3200)) (hb : t.val * 3200 + j.val < 50257) :
    (cfg2.win 2).fill (cfg2.grid.coords t) d2 (iblk2 V c 2 t) (ix2 (0 : Fin 1) j)
      = V c main_v8 (ix2 (0 : Fin 1) (⟨t.val * 3200 + j.val, hb⟩ : Fin 50257)) := by
  obtain ⟨-, -, e20, e21, -, -, -, -, s20, s21, -⟩ := r2_pt_facts t
  have hm : ∀ a, ((ix2 (0 : Fin 1) j : S1x3200.Idx) a).val < win2_2.xsize (grid2.coords t) a := fun a => by
    match a with
    | ⟨0, _⟩ => show 0 < win2_2.xsize (grid2.coords t) (0 : Fin 2); rw [s20]; exact Nat.one_pos
    | ⟨1, _⟩ => show j.val < win2_2.xsize (grid2.coords t) (1 : Fin 2); rw [s21]; exact h
  refine (r2_fill_of_moved win2_2 (grid2.coords t) d2 (iblk2 V c 2 t) (ix2 (0 : Fin 1) j) hm).trans ?_
  refine (r2_read_whole_slice main_v8 (win2_2.rect t) (V c main_v8) _).trans ?_
  congr 1
  funext a; apply Fin.ext
  rw [Window.rect_emb_val]
  match a with
  | ⟨0, _⟩ => show win2_2.index t (0 : Fin 2) * 1 + 0 = 0; rw [e20]
  | ⟨1, _⟩ => show win2_2.index t (1 : Fin 2) * 3200 + j.val = t.val * 3200 + j.val; rw [e21]

/-- Block `t` of the logits row at lane `j` is logit `3200 t + j`. -/
theorem gblk2_apply (c : Dev nD) (t : Fin cfg2.N) (j : ((cfg2.win 3).xblock (cfg2.grid.coords t)).Idx)
    (hb : t.val * 3200 + (j 1).val < 50257) :
    ((cfg2.win 3).blk t).view.read (Elt Ideal) (G2 V c) j
      = logit2 (V c main_v38) (V c main_arg12) (V c main_v8) ⟨t.val * 3200 + (j 1).val, hb⟩ := by
  obtain ⟨-, -, -, -, -, e31, -⟩ := r2_pt_facts t
  refine (r2_read_whole_slice main_v39 (win2_3.rect t) (G2 V c) j).trans ?_
  have hi : ((win2_3.rect t).emb j (1 : Fin 2)).val = t.val * 3200 + (j 1).val := by
    rw [Window.rect_emb_val]
    show win2_3.index t (1 : Fin 2) * 3200 + (j 1).val = t.val * 3200 + (j 1).val; rw [e31]
  unfold G2 logits2
  exact congrArg (logit2 (V c main_v38) (V c main_arg12) (V c main_v8)) (Fin.ext hi)

/-- At point `t`, whatever fills the weight and bias buffers past the arrays' end (`d1`, `d2`): the payload of the
    hidden row and the two fetched blocks, cut to the lanes inside the array, is block `t` of the logits row. Lane `j`
    of the payload reads row `j` of the weight buffer and lane `j` of the bias buffer; for a lane inside the array both
    lie in the part the fetch filled. -/
theorem cut_pay2 (c : Dev nD) (t : Fin cfg2.N) (d1 : S3200x1024.Idx → Ideal .f32) (d2 : S1x3200.Idx → Ideal .f32) :
    (cfg2.win 3).cut (cfg2.grid.coords t)
        (k2_pay1 (iblk2 V c 0 t) ((cfg2.win 1).fill (cfg2.grid.coords t) d1 (iblk2 V c 1 t))
          ((cfg2.win 2).fill (cfg2.grid.coords t) d2 (iblk2 V c 2 t)))
      = ((cfg2.win 3).blk t).view.read (Elt Ideal) (G2 V c) := by
  obtain ⟨-, -, -, -, -, -, -, -, -, -, s30, s31⟩ := r2_pt_facts t
  funext j
  have hj0 : (j 0).val < win2_3.xsize (grid2.coords t) (0 : Fin 2) := (j 0).isLt
  have hj1 : (j 1).val < win2_3.xsize (grid2.coords t) (1 : Fin 2) := (j 1).isLt
  rw [s30] at hj0; rw [s31] at hj1
  have hl : (j 1).val < 3200 := by omega
  have hb : t.val * 3200 + (j 1).val < 50257 := by omega
  have hx : (cfg2.win 3).xinj (cfg2.grid.coords t) j = ix2 (0 : Fin 1) (⟨(j 1).val, hl⟩ : Fin 3200) := by
    funext a; apply Fin.ext
    match a with
    | ⟨0, _⟩ => show (j 0).val = 0; omega
    | ⟨1, _⟩ => rfl
  show k2_pay1 _ _ _ ((cfg2.win 3).xinj (cfg2.grid.coords t) j) = _
  rw [hx, k2_pay1_apply, gblk2_apply V c t j hb, bblk2_apply V c t d2 ⟨(j 1).val, hl⟩ hj1 hb]
  unfold logit2
  refine congrArg (· + _) (Finset.sum_congr rfl fun κ _ => ?_)
  rw [hblk2_apply V c t κ, wblk2_apply V c t d1 ⟨(j 1).val, hl⟩ κ hj1 hb]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the hidden row's buffer at what the data names, each of the three cut windows' buffers stated
    on the part inside the array only. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare
        ((cfg2.win 1).fill (cfg2.grid.coords t) d ((cfg2.win 1).cut (cfg2.grid.coords t) ((dat2 V c).after 1 t))))
    ∗ (∃ d, owns (c : Thread nD τ) (st2_2 t) fullShare
        ((cfg2.win 2).fill (cfg2.grid.coords t) d ((cfg2.win 2).cut (cfg2.grid.coords t) ((dat2 V c).after 2 t))))
    ∗ (∃ d, owns (c : Thread nD τ) (st2_3 t) fullShare
        ((cfg2.win 3).fill (cfg2.grid.coords t) d ((cfg2.win 3).cut (cfg2.grid.coords t) ((dat2 V c).after 3 t)))))

/-- The body at any point: the hidden row's buffer holds the hidden row, the weight and bias buffers their blocks
    filled out with whatever the fetch left past the array's end, the logits buffer anything; the body leaves the
    first three as they were and the payload in the fourth, whose lanes inside the array are block `t` of the logits
    row whatever the fillers were. -/
theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2, before2_3 V c t d3]
  iapply (sound_kernel2 c Set.univ _ _ _ _ _ _ _ _ _ (iblk2 V c 0 t)
    ((cfg2.win 1).fill (cfg2.grid.coords t) d1 (iblk2 V c 1 t)) ((cfg2.win 2).fill (cfg2.grid.coords t) d2 (iblk2 V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after2_0]; iexact H0
  isplitl [H1]
  · iexists d1; rw [after2_1, Window.cut_fill]; iexact H1
  isplitl [H2]
  · iexists d2; rw [after2_2, Window.cut_fill]; iexact H2
  · iexists _
    rw [after2_3, Window.cut_fill, ← cut_pay2 V c t d1 d2, Window.fill_cut]; iexact H3

/-- The library's body obligation, at every point. -/
theorem body_obligation2 (c : Dev nD) : BodyObligationLoose (dat2 V c) (defs₀ (F := Ideal)) Variants.none () Set.univ := fun t => by
  rw [bigSep_W2, bigSep_W2]
  exact sound_body2 V c t

/-! ## The arrays after the run -/

/-- The three inputs are never written: after the run they hold what the region found. -/
theorem final2_in (c : Dev nD) (w : Fin cfg2.W) (hw : w.val < 3) : (dat2 V c).arrAt w cfg2.N = V c (Pipeline.arrRef spec2 w) :=
  match w, hw with
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨3, _⟩, h => absurd h (Nat.lt_irrefl 3)

/-- What point `t` writes back — the lanes inside the array of what the body left — is block `t` of the logits row. -/
theorem flushed2_3 (c : Dev nD) (t : Fin cfg2.N) :
    (dat2 V c).flushed 3 t = ((cfg2.win 3).blk t).view.read (Elt Ideal) (G2 V c) := by
  show (cfg2.win 3).cut (cfg2.grid.coords t) ((dat2 V c).after 3 t) = _
  rw [after2_3, Window.cut_fill]

/-- A lane of the logits row is in point `t`'s block iff it is among the block's lanes inside the array. -/
theorem mem_blk2_3 (t : Fin cfg2.N) (i : S1x50257.Idx) :
    i ∈ ((cfg2.win 3).blk t).view.set ↔ ∀ a : Fin 2, win2_3.index t a * S1x3200.size a ≤ (i a).val
      ∧ (i a).val < win2_3.index t a * S1x3200.size a + win2_3.xsize (grid2.coords t) a := by
  show i ∈ ((View.whole main_v39).slice (win2_3.rect t)).set ↔ _
  rw [View.set_slice_whole, Rect.mem_set_unit]
  exact Iff.rfl

/-- Lane `n` is in the block of point `n / 3200`: lanes `3200 t ‥ 3200 t + 3199` for `t < 15`, and at the last point the
    `2257` lanes `48000 ‥ 50256` inside the array. The sixteen blocks cover the row. -/
theorem cover2_3 (i : S1x50257.Idx) :
    ∃ t : Fin cfg2.N, (cfg2.win 3).flush t = true ∧ i ∈ ((cfg2.win 3).blk t).view.set := by
  have hi0 : (i 0).val < 1 := (i 0).isLt
  have hi1 : (i 1).val < 50257 := (i 1).isLt
  have hN : cfg2.N = 16 := N_2
  have hq : (i 1).val / 3200 < cfg2.N := by rw [hN]; omega
  obtain ⟨-, -, -, -, e30, e31, -, -, -, -, s30, s31⟩ := r2_pt_facts ⟨(i 1).val / 3200, hq⟩
  refine ⟨⟨(i 1).val / 3200, hq⟩, flush2_3 _, ?_⟩
  rw [mem_blk2_3]
  intro a
  match a with
  | ⟨0, _⟩ =>
    show win2_3.index ⟨(i 1).val / 3200, hq⟩ (0 : Fin 2) * 1 ≤ (i 0).val
      ∧ (i 0).val < win2_3.index ⟨(i 1).val / 3200, hq⟩ (0 : Fin 2) * 1 + win2_3.xsize (grid2.coords ⟨(i 1).val / 3200, hq⟩) (0 : Fin 2)
    rw [e30, s30]; omega
  | ⟨1, _⟩ =>
    show win2_3.index ⟨(i 1).val / 3200, hq⟩ (1 : Fin 2) * 3200 ≤ (i 1).val
      ∧ (i 1).val < win2_3.index ⟨(i 1).val / 3200, hq⟩ (1 : Fin 2) * 3200 + win2_3.xsize (grid2.coords ⟨(i 1).val / 3200, hq⟩) (1 : Fin 2)
    rw [e31, s31]
    show (i 1).val / 3200 * 3200 ≤ (i 1).val
      ∧ (i 1).val < (i 1).val / 3200 * 3200 + min 3200 (50257 - (i 1).val / 3200 * 3200)
    omega

/-- The logits array after the run is the logits row of the three inputs. -/
theorem final2_3 (c : Dev nD) : (dat2 V c).arrAt 3 cfg2.N = G2 V c :=
  (dat2 V c).arrAt_eq_of_cover 3 (G2 V c) (fun t _ => flushed2_3 V c t) cover2_3

/-- Logit `n` after the run: `Σ_k h (0, k) · W (n, k) + b (0, n)` of the hidden row, the weights and the bias as the
    region finds them. -/
theorem final2_3_apply (c : Dev nD) (n : Fin 50257) :
    (dat2 V c).arrAt 3 cfg2.N (ix2 (0 : Fin 1) n) = logit2 (V c main_v38) (V c main_arg12) (V c main_v8) n := by
  rw [final2_3]; rfl

end Cert.KernelIdeal.Hand

end
-- ==== Proof.KI.Run.lean ====
/-
  The idealized kernel program's run, from the launch to the return.

  @main is nine segments: three stretches of host operations (the token's reshape; the embedding row's gather; the
  reshapes of the row, the hidden state and the five bias vectors), the attention region, the gate region, the host
  combination of the gates into the new hidden state, the projection region, the log-softmax, and the hidden state's
  last reshape. Between two segments every unscoped buffer of a core is held whole at named contents: the launch memory
  pushed through each host stretch as a function, and at a region's exit the region's arrays at what its write-backs
  leave (its input arrays as entered) with every other buffer as entered. Each region is one record over its proof
  data (what each window's staging buffer holds after the body at each grid point) and its body obligation; the records'
  four entailments only move the arrays out of and back into the unscoped buffers and pass the generator register
  through the regions' invariant. The launch theorem for a program of several regions then gives: every weakly fair
  execution terminates, nothing faults, and every final state holds each unscoped buffer at the last boundary's
  contents. Read at the fourteen arguments, which no host stretch writes and no region changes, that is the frame.
-/
import proofs.«411164_j15539191677010_3_alg».proof.Defs
import proofs.«411164_j15539191677010_3_alg».proof.Proof.Gen.Pre_finite_inputs
import proofs.«411164_j15539191677010_3_alg».proof.Proof.Gen.KernelIdeal.Regions
import proofs.«411164_j15539191677010_3_alg».proof.Proof.KI.Reg0
import proofs.«411164_j15539191677010_3_alg».proof.Proof.KI.Reg1
import proofs.«411164_j15539191677010_3_alg».proof.Proof.KI.Reg2
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the buffers hold at each boundary of @main -/

/-- Core `c`'s buffers at launch. -/
abbrev W0 : Dev nD → Valuation τ sig (Elt Ideal) := fun c b => m (c, b)
/-- After the token's reshape, -/
abbrev W1 : Dev nD → Valuation τ sig (Elt Ideal) := fun c => StableHlo.after hostOps0 (W0 m c)
/-- after the embedding row's gather, -/
abbrev W2 : Dev nD → Valuation τ sig (Elt Ideal) := fun c => StableHlo.after hostOps0_1 (W1 m c)
/-- after the reshapes of the row, the hidden state and the five biases: what the attention region is entered from. -/
abbrev W3 : Dev nD → Valuation τ sig (Elt Ideal) := fun c => StableHlo.after hostOps0_2 (W2 m c)
abbrev V3 : (c : Dev nD) → (b : Ref sig .tc) → Buf (Elt Ideal) ((c : Thread nD τ).loc b) := fun c b => W3 m c b
/-- At the attention region's exit: its arrays at what its write-backs leave, every other buffer as entered. -/
def W4 (c : Dev nD) : Valuation τ sig (Elt Ideal) :=
  Pipeline.withArrays spec0 c (W3 m c) fun w => (dat0 (V3 m) c).arrAt w cfg0.N
abbrev V4 : (c : Dev nD) → (b : Ref sig .tc) → Buf (Elt Ideal) ((c : Thread nD τ).loc b) := fun c b => W4 m c b
/-- At the gate region's exit. -/
def W5 (c : Dev nD) : Valuation τ sig (Elt Ideal) :=
  Pipeline.withArrays spec1 c (W4 m c) fun w => (dat1 (V4 m) c).arrAt w cfg1.N
abbrev V5 : (c : Dev nD) → (b : Ref sig .tc) → Buf (Elt Ideal) ((c : Thread nD τ).loc b) := fun c b => W5 m c b
/-- After the gates' combination into the new hidden state: what the projection region is entered from. -/
abbrev W6 : Dev nD → Valuation τ sig (Elt Ideal) := fun c => StableHlo.after hostOps2 (W5 m c)
abbrev V6 : (c : Dev nD) → (b : Ref sig .tc) → Buf (Elt Ideal) ((c : Thread nD τ).loc b) := fun c b => W6 m c b
/-- At the projection region's exit. -/
def W7 (c : Dev nD) : Valuation τ sig (Elt Ideal) :=
  Pipeline.withArrays spec2 c (W6 m c) fun w => (dat2 (V6 m) c).arrAt w cfg2.N
abbrev V7 : (c : Dev nD) → (b : Ref sig .tc) → Buf (Elt Ideal) ((c : Thread nD τ).loc b) := fun c b => W7 m c b
/-- After the log-softmax, -/
abbrev W8 : Dev nD → Valuation τ sig (Elt Ideal) := fun c => StableHlo.after hostOps3 (W7 m c)
/-- and after the hidden state's last reshape: the end of @main. -/
abbrev W9 : Dev nD → Valuation τ sig (Elt Ideal) := fun c => StableHlo.after hostOps3_1 (W8 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-! ## A region leaves every buffer but its output arrays as it found it -/

/-- The attention region changes only its two result arrays. -/
theorem W4_keep (c : Dev nD) (b : Ref sig .tc) (h : ∀ w : Fin cfg0.W, Pipeline.arrRef spec0 w = b → w.val < 7) :
    W4 m c (Proc.devRef .tc b) = W3 m c (Proc.devRef .tc b) := by
  by_cases hb : ∃ w : Fin cfg0.W, Pipeline.arrRef spec0 w = b
  · obtain ⟨w, rfl⟩ := hb
    exact (W4_arr m c w).trans (final0_in (V3 m) c w (h w rfl))
  · exact W4_of_ne m c b fun w e => hb ⟨w, e⟩
/-- The gate region changes only its two result arrays. -/
theorem W5_keep (c : Dev nD) (b : Ref sig .tc) (h : ∀ w : Fin cfg1.W, Pipeline.arrRef spec1 w = b → w.val < 6) :
    W5 m c (Proc.devRef .tc b) = W4 m c (Proc.devRef .tc b) := by
  by_cases hb : ∃ w : Fin cfg1.W, Pipeline.arrRef spec1 w = b
  · obtain ⟨w, rfl⟩ := hb
    exact (W5_arr m c w).trans (final1_in (V4 m) c w (h w rfl))
  · exact W5_of_ne m c b fun w e => hb ⟨w, e⟩
/-- The projection region changes only its result array. -/
theorem W7_keep (c : Dev nD) (b : Ref sig .tc) (h : ∀ w : Fin cfg2.W, Pipeline.arrRef spec2 w = b → w.val < 3) :
    W7 m c (Proc.devRef .tc b) = W6 m c (Proc.devRef .tc b) := by
  by_cases hb : ∃ w : Fin cfg2.W, Pipeline.arrRef spec2 w = b
  · obtain ⟨w, rfl⟩ := hb
    exact (W7_arr m c w).trans (final2_in (V6 m) c w (h w rfl))
  · exact W7_of_ne m c b fun w e => hb ⟨w, e⟩

/-- A buffer that no host stretch writes and that is no region's result reaches the end of @main as launched. -/
theorem W9_untouched (c : Dev nD) (b : Ref sig .tc)
    (h0 : b ∉ hostOps0_W) (h1 : b ∉ hostOps0_1_W) (h2 : b ∉ hostOps0_2_W) (h5 : b ∉ hostOps2_W) (h7 : b ∉ hostOps3_W) (h8 : b ∉ hostOps3_1_W)
    (k0 : ∀ w : Fin cfg0.W, Pipeline.arrRef spec0 w = b → w.val < 7) (k1 : ∀ w : Fin cfg1.W, Pipeline.arrRef spec1 w = b → w.val < 6)
    (k2 : ∀ w : Fin cfg2.W, Pipeline.arrRef spec2 w = b → w.val < 3) :
    W9 m c (Proc.devRef .tc b) = m ((c : Thread nD τ).loc b) :=
  calc W9 m c (Proc.devRef .tc b)
    _ = W8 m c (Proc.devRef .tc b) := StableHlo.after_of_writes_sub hostOps3_1 _ hostOps3_1_writes h8
    _ = W7 m c (Proc.devRef .tc b) := StableHlo.after_of_writes_sub hostOps3 _ hostOps3_writes h7
    _ = W6 m c (Proc.devRef .tc b) := W7_keep m c b k2
    _ = W5 m c (Proc.devRef .tc b) := StableHlo.after_of_writes_sub hostOps2 _ hostOps2_writes h5
    _ = W4 m c (Proc.devRef .tc b) := W5_keep m c b k1
    _ = W3 m c (Proc.devRef .tc b) := W4_keep m c b k0
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

theorem W9_main_arg0 (c : Dev nD) : W9 m c (Proc.devRef .tc main_arg0) = m ((c : Thread nD τ).loc main_arg0) :=
  W9_untouched m c main_arg0 (by decide) (by decide) (by decide) (by decide) (by decide) (by decide) (by decide) (by decide) (by decide)
theorem W9_main_arg3 (c : Dev nD) : W9 m c (Proc.devRef .tc main_arg3) = m ((c : Thread nD τ).loc main_arg3) :=
  W9_untouched m c main_arg3 (by decide) (by decide) (by decide) (by decide) (by decide) (by decide) (by decide) (by decide) (by decide)
theorem W9_main_arg12 (c : Dev nD) : W9 m c (Proc.devRef .tc main_arg12) = m ((c : Thread nD τ).loc main_arg12) :=
  W9_untouched m c main_arg12 (by decide) (by decide) (by decide) (by decide) (by decide) (by decide) (by decide) (by decide) (by decide)
theorem W9_main_arg1 (c : Dev nD) : W9 m c (Proc.devRef .tc main_arg1) = m ((c : Thread nD τ).loc main_arg1) :=
  W9_untouched m c main_arg1 (by decide) (by decide) (by decide) (by decide) (by decide) (by decide) (by decide) (by decide) (by decide)
theorem W9_main_arg2 (c : Dev nD) : W9 m c (Proc.devRef .tc main_arg2) = m ((c : Thread nD τ).loc main_arg2) :=
  W9_untouched m c main_arg2 (by decide) (by decide) (by decide) (by decide) (by decide) (by decide) (by decide) (by decide) (by decide)
theorem W9_main_arg4 (c : Dev nD) : W9 m c (Proc.devRef .tc main_arg4) = m ((c : Thread nD τ).loc main_arg4) :=
  W9_untouched m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_untouched m c main_arg5 (by decide) (by decide) (by decide) (by decide) (by decide) (by decide) (by decide) (by decide) (by decide)
theorem W9_main_arg6 (c : Dev nD) : W9 m c (Proc.devRef .tc main_arg6) = m ((c : Thread nD τ).loc main_arg6) :=
  W9_untouched m c main_arg6 (by decide) (by decide) (by decide) (by decide) (by decide) (by decide) (by decide) (by decide) (by decide)
theorem W9_main_arg7 (c : Dev nD) : W9 m c (Proc.devRef .tc main_arg7) = m ((c : Thread nD τ).loc main_arg7) :=
  W9_untouched m c main_arg7 (by decide) (by decide) (by decide) (by decide) (by decide) (by decide) (by decide) (by decide) (by decide)
theorem W9_main_arg8 (c : Dev nD) : W9 m c (Proc.devRef .tc main_arg8) = m ((c : Thread nD τ).loc main_arg8) :=
  W9_untouched m c main_arg8 (by decide) (by decide) (by decide) (by decide) (by decide) (by decide) (by decide) (by decide) (by decide)
theorem W9_main_arg9 (c : Dev nD) : W9 m c (Proc.devRef .tc main_arg9) = m ((c : Thread nD τ).loc main_arg9) :=
  W9_untouched m c main_arg9 (by decide) (by decide) (by decide) (by decide) (by decide) (by decide) (by decide) (by decide) (by decide)
theorem W9_main_arg10 (c : Dev nD) : W9 m c (Proc.devRef .tc main_arg10) = m ((c : Thread nD τ).loc main_arg10) :=
  W9_untouched m c main_arg10 (by decide) (by decide) (by decide) (by decide) (by decide) (by decide) (by decide) (by decide) (by decide)
theorem W9_main_arg11 (c : Dev nD) : W9 m c (Proc.devRef .tc main_arg11) = m ((c : Thread nD τ).loc main_arg11) :=
  W9_untouched m c main_arg11 (by decide) (by decide) (by decide) (by decide) (by decide) (by decide) (by decide) (by decide) (by decide)
theorem W9_main_arg13 (c : Dev nD) : W9 m c (Proc.devRef .tc main_arg13) = m ((c : Thread nD τ).loc main_arg13) :=
  W9_untouched m c main_arg13 (by decide) (by decide) (by decide) (by decide) (by decide) (by decide) (by decide) (by decide) (by decide)

/-! ## The proof data family and the thread state -/

abbrev adm : (p : Fin 3) → (pcfgs (F := Ideal) p).Adm := fun p => (cfgs p).toPCfg_adm
def pdats : (p : Fin 3) → (c : Dev nD) → Dat τ (Elt Ideal) Unit ℕ (UR sig nD τ) ℕ (Pipeline.pin (pcfgs (F := Ideal)) adm p) c
  | ⟨0, _⟩ => fun c => dat0 (V3 m) c
  | ⟨1, _⟩ => fun c => dat1 (V4 m) c
  | ⟨2, _⟩ => fun c => dat2 (V6 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

set_option backward.isDefEq.respectTransparency.types false in
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V6 m) c
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)),
    .region (reg2 m),
    .host (hseg hostOps3 hostOps3_sub hostOps3_fresh (W7 m)),
    .host (hseg hostOps3_1 hostOps3_1_sub hostOps3_1_fresh (W8 m)) ]

theorem main_run (c : Dev nD) : main (F := Ideal) c = Pipeline.Seg.run (segs m) := (main_chain c).trans (by chain_rfl)

set_option backward.isDefEq.respectTransparency.types false in
/-- THE RUN: every weakly fair execution of @main terminates, nothing faulting, and every final state holds each
    unscoped buffer of every core at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The idealized kernel program's frame: it runs to the end, nothing faults, and each of the fourteen arguments ends
    holding what it was launched with (read off the last boundary's contents). -/
theorem frame_ki : Cert.frame_KernelIdeal := fun m ρ _ =>
  (θ_run defs _ _).mono (fun r h c => ⟨
    (h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c),
    (h c _ (mem_uc main_arg9 (by decide))).trans (W9_main_arg9 m c),
    (h c _ (mem_uc main_arg10 (by decide))).trans (W9_main_arg10 m c),
    (h c _ (mem_uc main_arg11 (by decide))).trans (W9_main_arg11 m c),
    (h c _ (mem_uc main_arg12 (by decide))).trans (W9_main_arg12 m c),
    (h c _ (mem_uc main_arg13 (by decide))).trans (W9_main_arg13 m c)⟩) (run_all m ρ)

end Cert.KernelIdeal.Hand

end
-- ==== Proof.KI.Val1.lean ====
import proofs.«411164_j15539191677010_3_alg».proof.Proof.KI.Reg1
import proofs.«411164_j15539191677010_3_alg».proof.Proof.LibDotT
import Idealize.ShloMosaic.Lib.ValueIdx
import Idealize.ShloMosaic.Lib.Pipeline.Value
import Idealize.ShloMosaic.Lib.ValueLayout
import Idealize.ShloMosaic.PureOps.Ideal.Laws

/-! # The gate pre-activations (second pallas_call) at the ideal values: the two result arrays in closed form

At the extended reals a change of float format is the identity and a block product into the zero splat is a plain
sum, so each lane block the body stores is a row against the rows of its matrix block, plus the bias block. The
three lane blocks are written back to disjoint thirds of the result, whose lane n (in block n / 1024, at lane
n mod 1024) therefore reads

  gi (0, n) = Σ_k x2 (0, k) · W_ih (n, k) + b_ih (0, n),   gh (0, n) = Σ_k h (0, k) · W_hh (n, k) + b_hh (0, n). -/

set_option maxRecDepth 16384

noncomputable section

namespace Cert.KernelIdeal.Hand
open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The two payloads at an index -/

theorem zeros2 : (![0, 0] : Fin 2 → Nat) = fun _ => 0 := funext fun a => by fin_cases a <;> rfl

/-- Lane j of the gi block: the row against row j of the matrix block, plus the bias lane. The narrowing of
    the two operands to the shorter float format is the identity on extended reals. -/
theorem giBlock_apply (x : Vec Ideal S1x1024 .f32) (W : Vec Ideal S1024x1024 .f32) (b : Vec Ideal S1x1024 .f32) (j : Fin 1024) :
    giBlock x W b (ix2 (0 : Fin 1) j) = (∑ k : Fin 1024, x (ix2 (0 : Fin 1) k) * W (ix2 j k)) + b (ix2 (0 : Fin 1) j) := by
  unfold giBlock
  rw [View.canon_unit_zero zeros2]
  unfold k1_pay1
  simp only [View.ld_unit_zero (S := S1x1024) zeros2, View.ld_unit_zero (S := S1024x1024) zeros2, shapeCast_self]
  rw [addf_apply]
  exact congrArg (· + b (ix2 (0 : Fin 1) j))
    (Cert.LibDotT.matmul_rowsT_zero_apply dot_S1x1024_S1024x1024_S1x1024_1_1_0_0_n_n rfl rfl rfl rfl rfl rfl none _ _ 0 j)

/-- Lane j of the gh block, likewise. -/
theorem ghBlock_apply (h : Vec Ideal S1x1024 .f32) (W : Vec Ideal S1024x1024 .f32) (b : Vec Ideal S1x1024 .f32) (j : Fin 1024) :
    ghBlock h W b (ix2 (0 : Fin 1) j) = (∑ k : Fin 1024, h (ix2 (0 : Fin 1) k) * W (ix2 j k)) + b (ix2 (0 : Fin 1) j) := by
  unfold ghBlock
  rw [View.canon_unit_zero zeros2]
  unfold k1_pay2
  simp only [View.ld_unit_zero (S := S1x1024) zeros2, View.ld_unit_zero (S := S1024x1024) zeros2, shapeCast_self]
  rw [addf_apply]
  exact congrArg (· + b (ix2 (0 : Fin 1) j))
    (Cert.LibDotT.matmul_rowsT_zero_apply dot_S1x1024_S1024x1024_S1x1024_1_1_0_0_n_n rfl rfl rfl rfl rfl rfl none _ _ 0 j)

variable (V : (c : Dev nD) → (b : Ref sig .tc) → Buf (Elt Ideal) ((c : Thread nD τ).loc b))

/-! ## Where each window's block sits in its array -/

/-- The block index of each window at a grid point: the two rows stay at block (0, 0); the matrices' blocks
    move down the rows; the biases' and the two results' blocks move along the lanes. -/
theorem index_facts (t : Fin cfg1.N) :
    (win1_0.index t 0 = 0 ∧ win1_0.index t 1 = 0) ∧ (win1_1.index t 0 = 0 ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = t.val) ∧ (win1_5.index t 0 = 0 ∧ win1_5.index t 1 = t.val)
    ∧ (win1_6.index t 0 = 0 ∧ win1_6.index t 1 = t.val) ∧ (win1_7.index t 0 = 0 ∧ win1_7.index t 1 = t.val) := by
  rcases fin_N1 t with rfl | rfl | rfl <;> decide +kernel

/-- The attended input row's block is the row. -/
theorem x2_blk_apply (c : Dev nD) (t : Fin cfg1.N) (y : S1x1024.Idx) :
    (iblk1 V c 0 t : Vec Ideal S1x1024 .f32) y = (V c main_v9_0) y := by
  obtain ⟨⟨e0, e1⟩, -⟩ := index_facts t
  unfold iblk1
  rw [View.read_apply]
  show V c main_v9_0 _ = V c main_v9_0 _
  congr 1
  funext a
  apply Fin.ext
  match a with
  | ⟨0, _⟩ => show win1_0.index t 0 * 1 + 1 * (y 0).val = (y 0).val; rw [e0]; omega
  | ⟨1, _⟩ => show win1_0.index t 1 * 1024 + 1 * (y 1).val = (y 1).val; rw [e1]; omega

/-- The hidden row's block is the row. -/
theorem h_blk_apply (c : Dev nD) (t : Fin cfg1.N) (y : S1x1024.Idx) :
    (iblk1 V c 1 t : Vec Ideal S1x1024 .f32) y = (V c main_v3) y := by
  obtain ⟨-, ⟨e0, e1⟩, -⟩ := index_facts t
  unfold iblk1
  rw [View.read_apply]
  show V c main_v3 _ = V c main_v3 _
  congr 1
  funext a
  apply Fin.ext
  match a with
  | ⟨0, _⟩ => show win1_1.index t 0 * 1 + 1 * (y 0).val = (y 0).val; rw [e0]; omega
  | ⟨1, _⟩ => show win1_1.index t 1 * 1024 + 1 * (y 1).val = (y 1).val; rw [e1]; omega

/-- Row r of the input-gate matrix block at point t is row 1024·t + r of the matrix. -/
theorem Wih_blk_apply (c : Dev nD) (t : Fin cfg1.N) (r k : Fin 1024) (n : Fin 3072) (hn : n.val = t.val * 1024 + r.val) :
    (iblk1 V c 2 t : Vec Ideal S1024x1024 .f32) (ix2 r k) = (V c main_arg8) (ix2 n k) := by
  obtain ⟨-, -, ⟨e0, e1⟩, -⟩ := index_facts t
  unfold iblk1
  rw [View.read_apply]
  show V c main_arg8 _ = V c main_arg8 _
  congr 1
  funext a
  apply Fin.ext
  match a with
  | ⟨0, _⟩ => show win1_2.index t 0 * 1024 + 1 * r.val = n.val; rw [e0, hn]; omega
  | ⟨1, _⟩ => show win1_2.index t 1 * 1024 + 1 * k.val = k.val; rw [e1]; omega

/-- Row r of the hidden-gate matrix block at point t is row 1024·t + r of the matrix. -/
theorem Whh_blk_apply (c : Dev nD) (t : Fin cfg1.N) (r k : Fin 1024) (n : Fin 3072) (hn : n.val = t.val * 1024 + r.val) :
    (iblk1 V c 3 t : Vec Ideal S1024x1024 .f32) (ix2 r k) = (V c main_arg9) (ix2 n k) := by
  obtain ⟨-, -, -, ⟨e0, e1⟩, -⟩ := index_facts t
  unfold iblk1
  rw [View.read_apply]
  show V c main_arg9 _ = V c main_arg9 _
  congr 1
  funext a
  apply Fin.ext
  match a with
  | ⟨0, _⟩ => show win1_3.index t 0 * 1024 + 1 * r.val = n.val; rw [e0, hn]; omega
  | ⟨1, _⟩ => show win1_3.index t 1 * 1024 + 1 * k.val = k.val; rw [e1]; omega

/-- Lane r of the input-gate bias block at point t is lane 1024·t + r of the bias. -/
theorem bih_blk_apply (c : Dev nD) (t : Fin cfg1.N) (r : Fin 1024) (n : Fin 3072) (hn : n.val = t.val * 1024 + r.val) :
    (iblk1 V c 4 t : Vec Ideal S1x1024 .f32) (ix2 (0 : Fin 1) r) = (V c main_v6) (ix2 (0 : Fin 1) n) := by
  obtain ⟨-, -, -, -, ⟨e0, e1⟩, -⟩ := index_facts t
  unfold iblk1
  rw [View.read_apply]
  show V c main_v6 _ = V c main_v6 _
  congr 1
  funext a
  apply Fin.ext
  match a with
  | ⟨0, _⟩ => show win1_4.index t 0 * 1 + 1 * 0 = 0; rw [e0]
  | ⟨1, _⟩ => show win1_4.index t 1 * 1024 + 1 * r.val = n.val; rw [e1, hn]; omega

/-- Lane r of the hidden-gate bias block at point t is lane 1024·t + r of the bias. -/
theorem bhh_blk_apply (c : Dev nD) (t : Fin cfg1.N) (r : Fin 1024) (n : Fin 3072) (hn : n.val = t.val * 1024 + r.val) :
    (iblk1 V c 5 t : Vec Ideal S1x1024 .f32) (ix2 (0 : Fin 1) r) = (V c main_v7) (ix2 (0 : Fin 1) n) := by
  obtain ⟨-, -, -, -, -, ⟨e0, e1⟩, -⟩ := index_facts t
  unfold iblk1
  rw [View.read_apply]
  show V c main_v7 _ = V c main_v7 _
  congr 1
  funext a
  apply Fin.ext
  match a with
  | ⟨0, _⟩ => show win1_5.index t 0 * 1 + 1 * 0 = 0; rw [e0]
  | ⟨1, _⟩ => show win1_5.index t 1 * 1024 + 1 * r.val = n.val; rw [e1, hn]; omega

/-! ## The two result arrays after the call -/

/-- A row against the transpose of a 3072-row matrix, plus a bias: lane n is Σ_k x (0, k) · W (n, k) + b (0, n). -/
def gateRow (x : Vec Ideal S1x1024 .f32) (W : Vec Ideal S3072x1024 .f32) (b : Vec Ideal S1x3072 .f32) : Vec Ideal S1x3072 .f32 :=
  fun i => (∑ k : Fin 1024, x (ix2 (0 : Fin 1) k) * W (ix2 (i 1) k)) + b (ix2 (0 : Fin 1) (i 1))

theorem gateRow_apply (x : Vec Ideal S1x1024 .f32) (W : Vec Ideal S3072x1024 .f32) (b : Vec Ideal S1x3072 .f32) (n : Fin 3072) :
    gateRow x W b (ix2 (0 : Fin 1) n) = (∑ k : Fin 1024, x (ix2 (0 : Fin 1) k) * W (ix2 n k)) + b (ix2 (0 : Fin 1) n) := rfl

theorem lt_three (t : Fin cfg1.N) : t.val < 3 := Nat.lt_of_lt_of_eq t.isLt N_1

/-- A row index is (0, its lane). -/
theorem row_idx (y : S1x1024.Idx) : y = ix2 (0 : Fin 1) (y 1) :=
  Shape.idx_ext₂ (by have h : (y 0).val < 1 := (y 0).isLt; show (y 0).val = 0; omega) rfl

/-- What point t writes back of gi is block t of the closed form. -/
theorem flushed_gi (c : Dev nD) (t : Fin cfg1.N) :
    (dat1 V c).flushed 6 t = ((cfg1.win 6).blk t).view.read (Elt Ideal) (gateRow (V c main_v9_0) (V c main_arg8) (V c main_v6)) := by
  obtain ⟨-, -, -, -, -, -, ⟨e0, e1⟩, -⟩ := index_facts t
  have ht := lt_three t
  show (cfg1.win 6).cut (grid1.coords t) ((dat1 V c).after 6 t) = _
  rw [after1_6]
  funext y
  rw [View.read_apply]
  obtain ⟨r, rfl⟩ : ∃ r : Fin 1024, y = ix2 (0 : Fin 1) r := ⟨y 1, row_idx y⟩
  show giBlock (iblk1 V c 0 t) (iblk1 V c 2 t) (iblk1 V c 4 t) (ix2 (0 : Fin 1) r) = gateRow _ _ _ _
  rw [giBlock_apply]
  have hemb : ((cfg1.win 6).blk t).view.emb (ix2 (0 : Fin 1) r) = ix2 (0 : Fin 1) (⟨t.val * 1024 + r.val, by omega⟩ : Fin 3072) :=
    Shape.idx_ext₂ (show win1_6.index t 0 * 1 + 1 * 0 = 0 by rw [e0])
      (show win1_6.index t 1 * 1024 + 1 * r.val = t.val * 1024 + r.val by rw [e1]; omega)
  rw [hemb, gateRow_apply]
  simp only [x2_blk_apply]
  rw [bih_blk_apply V c t r ⟨t.val * 1024 + r.val, by omega⟩ rfl]
  refine congrArg (· + _) (Finset.sum_congr rfl fun k _ => ?_)
  rw [Wih_blk_apply V c t r k ⟨t.val * 1024 + r.val, by omega⟩ rfl]

/-- What point t writes back of gh is block t of the closed form. -/
theorem flushed_gh (c : Dev nD) (t : Fin cfg1.N) :
    (dat1 V c).flushed 7 t = ((cfg1.win 7).blk t).view.read (Elt Ideal) (gateRow (V c main_v3) (V c main_arg9) (V c main_v7)) := by
  obtain ⟨-, -, -, -, -, -, -, ⟨e0, e1⟩⟩ := index_facts t
  have ht := lt_three t
  show (cfg1.win 7).cut (grid1.coords t) ((dat1 V c).after 7 t) = _
  rw [after1_7]
  funext y
  rw [View.read_apply]
  obtain ⟨r, rfl⟩ : ∃ r : Fin 1024, y = ix2 (0 : Fin 1) r := ⟨y 1, row_idx y⟩
  show ghBlock (iblk1 V c 1 t) (iblk1 V c 3 t) (iblk1 V c 5 t) (ix2 (0 : Fin 1) r) = gateRow _ _ _ _
  rw [ghBlock_apply]
  have hemb : ((cfg1.win 7).blk t).view.emb (ix2 (0 : Fin 1) r) = ix2 (0 : Fin 1) (⟨t.val * 1024 + r.val, by omega⟩ : Fin 3072) :=
    Shape.idx_ext₂ (show win1_7.index t 0 * 1 + 1 * 0 = 0 by rw [e0])
      (show win1_7.index t 1 * 1024 + 1 * r.val = t.val * 1024 + r.val by rw [e1]; omega)
  rw [hemb, gateRow_apply]
  simp only [h_blk_apply]
  rw [bhh_blk_apply V c t r ⟨t.val * 1024 + r.val, by omega⟩ rfl]
  refine congrArg (· + _) (Finset.sum_congr rfl fun k _ => ?_)
  rw [Whh_blk_apply V c t r k ⟨t.val * 1024 + r.val, by omega⟩ rfl]

/-- Every lane of gi lies in the block of the point its quotient by 1024 names. -/
theorem cover_gi (i : S1x3072.Idx) : ∃ t : Fin cfg1.N, (cfg1.win 6).flush t = true ∧ i ∈ ((cfg1.win 6).blk t).view.set := by
  have h0 : (i 0).val < 1 := (i 0).isLt
  have h1 : (i 1).val < 3072 := (i 1).isLt
  let t : Fin cfg1.N := ⟨(i 1).val / 1024, by rw [show cfg1.N = 3 from N_1]; omega⟩
  obtain ⟨-, -, -, -, -, -, ⟨e0, e1⟩, -⟩ := index_facts t
  refine ⟨t, flush1_6 t, ?_⟩
  show i ∈ ((View.whole main_v10_0).slice (win1_6.rect t)).set
  rw [View.set_slice_whole, Rect.mem_set_unit]
  intro a
  match a with
  | ⟨0, _⟩ => show win1_6.index t 0 * 1 ≤ (i 0).val ∧ (i 0).val < win1_6.index t 0 * 1 + 1; rw [e0]; omega
  | ⟨1, _⟩ => show win1_6.index t 1 * 1024 ≤ (i 1).val ∧ (i 1).val < win1_6.index t 1 * 1024 + 1024; rw [e1]; show (i 1).val / 1024 * 1024 ≤ _ ∧ _ < (i 1).val / 1024 * 1024 + 1024; omega

/-- Every lane of gh likewise. -/
theorem cover_gh (i : S1x3072.Idx) : ∃ t : Fin cfg1.N, (cfg1.win 7).flush t = true ∧ i ∈ ((cfg1.win 7).blk t).view.set := by
  have h0 : (i 0).val < 1 := (i 0).isLt
  have h1 : (i 1).val < 3072 := (i 1).isLt
  let t : Fin cfg1.N := ⟨(i 1).val / 1024, by rw [show cfg1.N = 3 from N_1]; omega⟩
  obtain ⟨-, -, -, -, -, -, -, ⟨e0, e1⟩⟩ := index_facts t
  refine ⟨t, flush1_7 t, ?_⟩
  show i ∈ ((View.whole main_v10_1).slice (win1_7.rect t)).set
  rw [View.set_slice_whole, Rect.mem_set_unit]
  intro a
  match a with
  | ⟨0, _⟩ => show win1_7.index t 0 * 1 ≤ (i 0).val ∧ (i 0).val < win1_7.index t 0 * 1 + 1; rw [e0]; omega
  | ⟨1, _⟩ => show win1_7.index t 1 * 1024 ≤ (i 1).val ∧ (i 1).val < win1_7.index t 1 * 1024 + 1024; rw [e1]; show (i 1).val / 1024 * 1024 ≤ _ ∧ _ < (i 1).val / 1024 * 1024 + 1024; omega

/-- The gi array after the three write-backs: the input row against the input-gate matrix, plus its bias. -/
theorem final_gi (c : Dev nD) : (dat1 V c).arrAt 6 cfg1.N = gateRow (V c main_v9_0) (V c main_arg8) (V c main_v6) :=
  (dat1 V c).arrAt_eq_of_cover 6 _ (fun t _ => flushed_gi V c t) cover_gi

/-- The gh array after the three write-backs: the hidden row against the hidden-gate matrix, plus its bias. -/
theorem final_gh (c : Dev nD) : (dat1 V c).arrAt 7 cfg1.N = gateRow (V c main_v3) (V c main_arg9) (V c main_v7) :=
  (dat1 V c).arrAt_eq_of_cover 7 _ (fun t _ => flushed_gh V c t) cover_gh

/-- Lane n of gi, the arrays named as vectors of their shapes. -/
theorem final1_6_apply (c : Dev nD) (n : Fin 3072)
    (x : Vec Ideal S1x1024 .f32) (W : Vec Ideal S3072x1024 .f32) (b : Vec Ideal S1x3072 .f32)
    (hx : x = V c main_v9_0) (hW : W = V c main_arg8) (hb : b = V c main_v6) :
    (dat1 (F := Ideal) V c).arrAt 6 cfg1.N (ix2 (0 : Fin 1) n)
      = (∑ k : Fin 1024, x (ix2 (0 : Fin 1) k) * W (ix2 n k)) + b (ix2 (0 : Fin 1) n) := by
  subst hx hW hb
  rw [final_gi]; rfl

/-- Lane n of gh, likewise. -/
theorem final1_7_apply (c : Dev nD) (n : Fin 3072)
    (x : Vec Ideal S1x1024 .f32) (W : Vec Ideal S3072x1024 .f32) (b : Vec Ideal S1x3072 .f32)
    (hx : x = V c main_v3) (hW : W = V c main_arg9) (hb : b = V c main_v7) :
    (dat1 (F := Ideal) V c).arrAt 7 cfg1.N (ix2 (0 : Fin 1) n)
      = (∑ k : Fin 1024, x (ix2 (0 : Fin 1) k) * W (ix2 n k)) + b (ix2 (0 : Fin 1) n) := by
  subst hx hW hb
  rw [final_gh]; rfl

end Cert.KernelIdeal.Hand
end
-- ==== Proof.Bridge.Softmax.lean ====
/-
  The softmax of a row of logits, in the block's form and in the host's form.

  Block: m = the lane maximum folded from -inf, e_j = exp (l_j - m), s = the lane sum of e, w_j = e_j / s, the maximum and
  the sum being carried to the row through a cast to a [1,1] cell and a broadcast. Host: the same with the maximum
  taken as max (-inf, reduce-max from -inf), the sum as 0 + the lane sum, and each carried to the row through two
  broadcasts. At the ideal values (a float is an extended real) the two are the same function of the logits: a fold
  of max from b is at least b, and 0 is the additive unit. Nothing here depends on a program: the shape facts are
  hypotheses.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

/-- The scalar shape, the one-element vector, the [1,1] cell and a row of n lanes. -/
abbrev R0 : Shape := ⟨0, ![]⟩
abbrev R1 : Shape := ⟨1, ![1]⟩
abbrev R11 : Shape := ⟨2, ![1, 1]⟩
abbrev Row (n : Nat) : Shape := ⟨2, ![1, n]⟩

section Carry
variable {α : Type} {n : Nat}

/-- A one-element vector cast to a cell and broadcast along a row reads its one element everywhere. -/
theorem cell_row_apply (x : R1.Idx → α) (hsc : R1.ShapeCasts R11) (hbc : R11.Broadcasts (Row n)) (i : (Row n).Idx) :
    broadcastTo (Row n) (shapeCast R11 x hsc) hbc i = x (ix1 0) := by
  refine (broadcastTo_apply _ hbc i (ix2 0 0) (fun a => match a with
    | ⟨0, _⟩ => by show 0 = if (1 : Nat) = 1 then 0 else _; rw [if_pos rfl]
    | ⟨1, _⟩ => by show 0 = if (1 : Nat) = 1 then 0 else _; rw [if_pos rfl])).trans ?_
  exact shapeCast_apply x hsc (ix2 0 0) (ix1 0)
    (by rewrite [Shape.rowMajor_val_one, Shape.rowMajor_val_two]; rfl)

/-- A one-element vector broadcast to a cell and then along a row reads its one element everywhere. -/
theorem bcast_row_apply (x : R1.Idx → α) (hb1 : R1.BroadcastsInDim R11 (![0] : Fin 1 → Fin R11.rank))
    (hb2 : R11.BroadcastsInDim (Row n) (![0, 1] : Fin 2 → Fin (Row n).rank)) (i : (Row n).Idx) :
    broadcastInDim (Row n) ![0, 1] hb2 (broadcastInDim R11 ![0] hb1 x) i = x (ix1 0) := by
  refine (broadcastInDim_apply _ hb2 _ i (ix2 0 0) (fun a => match a with
    | ⟨0, _⟩ => by show 0 = if (1 : Nat) = 1 then 0 else _; rw [if_pos rfl]
    | ⟨1, _⟩ => by show 0 = if (1 : Nat) = 1 then 0 else _; rw [if_pos rfl])).trans ?_
  exact broadcastInDim_apply _ hb1 x (ix2 0 0) (ix1 0) (fun a => match a with
    | ⟨0, _⟩ => by show 0 = if (1 : Nat) = 1 then 0 else _; rw [if_pos rfl])

end Carry

/-! ## The two softmaxes -/

/-- The word of -inf and the word of +0 at f32. -/
abbrev negInfW : BitVec 32 := 0xFF800000#32
abbrev zeroW : BitVec 32 := 0x00000000#32

section Softmax
variable {n : Nat}

/-- The block's row maximum, carried to the row. -/
def kRowMax (L : FVec Ideal (Row n) .f32) (hr : (Row n).Reduces [1] R1) (hφ : FKind.Formats .f32)
    (hacc : negInfW = FKind.maximumf.neutral .f32 hφ) (hsc : R1.ShapeCasts R11) (hbc : R11.Broadcasts (Row n)) :
    FVec Ideal (Row n) .f32 :=
  broadcastTo (Row n) (shapeCast R11 (multiReduction (F := Ideal) .maximumf [1] R1 L negInfW hr hφ hacc) hsc) hbc

/-- The host's row maximum, carried to the row. -/
def hRowMax (L : FVec Ideal (Row n) .f32) (hrt : (Row n).ReducesTo [1] R1) (hu : 0 < R0.numel)
    (hb0 : R0.BroadcastsInDim R1 (![] : Fin 0 → Fin R1.rank))
    (hb1 : R1.BroadcastsInDim R11 (![0] : Fin 1 → Fin R11.rank))
    (hb2 : R11.BroadcastsInDim (Row n) (![0, 1] : Fin 2 → Fin (Row n).rank)) : FVec Ideal (Row n) .f32 :=
  broadcastInDim (Row n) ![0, 1] hb2 (broadcastInDim R11 ![0] hb1
    (maximumf (broadcastInDim R1 ![] hb0 (constant (F := Ideal) R0 .f32 negInfW))
      (Host.reduce FloatOps.maximumf L (constant (F := Ideal) R0 .f32 negInfW) hrt hu)))

/-- They are the same row: max (b, fold of max from b) is the fold. -/
theorem kRowMax_eq_hRowMax (L : FVec Ideal (Row n) .f32) (hr : (Row n).Reduces [1] R1) (hφ : FKind.Formats .f32)
    (hacc : negInfW = FKind.maximumf.neutral .f32 hφ) (hsc : R1.ShapeCasts R11) (hbc : R11.Broadcasts (Row n))
    (hrt : (Row n).ReducesTo [1] R1) (hu : 0 < R0.numel)
    (hb0 : R0.BroadcastsInDim R1 (![] : Fin 0 → Fin R1.rank))
    (hb1 : R1.BroadcastsInDim R11 (![0] : Fin 1 → Fin R11.rank))
    (hb2 : R11.BroadcastsInDim (Row n) (![0, 1] : Fin 2 → Fin (Row n).rank)) :
    kRowMax L hr hφ hacc hsc hbc = hRowMax L hrt hu hb0 hb1 hb2 := by
  funext i
  unfold kRowMax hRowMax
  rw [cell_row_apply, bcast_row_apply, Ideal.multiReduction_maximumf_single, maximumf_apply,
    Host.reduce_eq_fold_single FloatOps.maximumf L _ hrt hr hu]
  rw [broadcastInDim_apply _ hb0 _ (ix1 0) (fun a => a.elim0) (fun a => a.elim0)]
  exact (max_eq_right ((Finset.le_fold_max _).2 (Or.inl le_rfl))).symm

/-- The block's softmax of the logits L: exp (l - max) over its lane sum. -/
def kSoftmax (L : FVec Ideal (Row n) .f32) (hr : (Row n).Reduces [1] R1) (hφ : FKind.Formats .f32)
    (hacc : negInfW = FKind.maximumf.neutral .f32 hφ) (hacc0 : zeroW = FKind.add.neutral .f32 hφ)
    (hsc : R1.ShapeCasts R11) (hbc : R11.Broadcasts (Row n)) : FVec Ideal (Row n) .f32 :=
  divf (exp (subf L (kRowMax L hr hφ hacc hsc hbc)))
    (broadcastTo (Row n) (shapeCast R11
      (multiReduction (F := Ideal) .add [1] R1 (exp (subf L (kRowMax L hr hφ hacc hsc hbc))) zeroW hr hφ hacc0) hsc) hbc)

/-- The host's softmax of the logits L. -/
def hSoftmax (L : FVec Ideal (Row n) .f32) (hrt : (Row n).ReducesTo [1] R1) (hu : 0 < R0.numel)
    (hb0 : R0.BroadcastsInDim R1 (![] : Fin 0 → Fin R1.rank))
    (hb1 : R1.BroadcastsInDim R11 (![0] : Fin 1 → Fin R11.rank))
    (hb2 : R11.BroadcastsInDim (Row n) (![0, 1] : Fin 2 → Fin (Row n).rank)) : FVec Ideal (Row n) .f32 :=
  Host.divf (Host.exp (subf L (hRowMax L hrt hu hb0 hb1 hb2)))
    (broadcastInDim (Row n) ![0, 1] hb2 (broadcastInDim R11 ![0] hb1
      (Host.reduceAdd (F := Ideal) (Host.exp (subf L (hRowMax L hrt hu hb0 hb1 hb2)))
        (constant (F := Ideal) R0 .f32 zeroW) hrt hu)))

/-- THE TWO SOFTMAXES ARE ONE FUNCTION OF THE LOGITS. -/
theorem kSoftmax_eq_hSoftmax (L : FVec Ideal (Row n) .f32) (hr : (Row n).Reduces [1] R1) (hφ : FKind.Formats .f32)
    (hacc : negInfW = FKind.maximumf.neutral .f32 hφ) (hacc0 : zeroW = FKind.add.neutral .f32 hφ)
    (hsc : R1.ShapeCasts R11) (hbc : R11.Broadcasts (Row n))
    (hrt : (Row n).ReducesTo [1] R1) (hu : 0 < R0.numel)
    (hb0 : R0.BroadcastsInDim R1 (![] : Fin 0 → Fin R1.rank))
    (hb1 : R1.BroadcastsInDim R11 (![0] : Fin 1 → Fin R11.rank))
    (hb2 : R11.BroadcastsInDim (Row n) (![0, 1] : Fin 2 → Fin (Row n).rank)) :
    kSoftmax L hr hφ hacc hacc0 hsc hbc = hSoftmax L hrt hu hb0 hb1 hb2 := by
  unfold kSoftmax hSoftmax
  rw [kRowMax_eq_hRowMax L hr hφ hacc hsc hbc hrt hu hb0 hb1 hb2]
  generalize hRowMax L hrt hu hb0 hb1 hb2 = M
  -- the exponential of the block and of the host are the same function at the ideal values
  have hE : exp (subf L M) = Host.exp (subf L M) := rfl
  rw [hE]
  generalize Host.exp (subf L M) = E
  funext i
  show Ideal.div (E i) _ = Ideal.div (E i) _
  congr 1
  rw [cell_row_apply, bcast_row_apply, Ideal.multiReduction_add_single]
  show _ = Ideal.hostReduceAdd hrt E (Ideal.ofBits .f32 zeroW) (ix1 0)
  rw [Ideal.hostReduceAdd_single hrt hr, Ideal.ofBits_zero_f32, zero_add]

end Softmax

end Cert.Bridge

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Bridge.AttnOps.lean ====
/-
  The attention block's arithmetic in the block's form and in the host's form, as functions of arbitrary operands, at
  the ideal values (a float is an extended real, a change of float format is the identity, a block product into the
  zero splat and the host's product are plain sums).

  Logits: l_j = Σ_κ cat_κ · W (j, κ) + b_j with cat = concat[e, h]; the block contracts the rows of W directly, the
  host multiplies by the transpose of W: the same sum. Second output: with c = w · enc the context vector,
  x_j = max (Σ_κ concat[e, c]_κ · CW (j, κ) + cb_j, 0), again rows of CW against the transpose of CW. Each side is
  named as a function of its operands and the two functions are proved equal; no program's run is needed here.
-/
import proofs.«411164_j15539191677010_3_alg».proof.Proof.Gen.ReferenceIdeal
import proofs.«411164_j15539191677010_3_alg».proof.Proof.Gen.KernelIdeal.Skeleton
import proofs.«411164_j15539191677010_3_alg».proof.Proof.LibDot
import proofs.«411164_j15539191677010_3_alg».proof.Proof.LibDotT
import proofs.«411164_j15539191677010_3_alg».proof.Proof.Bridge.Softmax
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

/-! ## The attention logits: concat[e, h] against the rows of W, plus the bias -/

open Cert.KernelIdeal Cert.KernelIdeal.Gen in
/-- The block's logits, as its payload writes them. -/
def kLogits (e h : FVec Ideal S1x1024 .f32) (W : FVec Ideal S100x2048 .f32) (b : FVec Ideal S1x100 .f32) :
    FVec Ideal S1x100 .f32 :=
  addf (FloatOps.matmul dot_S1x2048_S100x2048_S1x100_1_1_0_0_n_n none
      (truncf .bf16 (concatenate S1x2048 1 [⟨S1x1024, k0_pay1 (F := Ideal) e⟩,
        ⟨S1x1024, shapeCast S1x1024 h shapeCasts_S1x1024_S1x1024⟩] concatenates_S1x1024_S1x1024_S1x2048_d1) bitsLt_bf16_f32)
      (truncf .bf16 W bitsLt_bf16_f32) (constant (F := Ideal) S1x100 .f32 0x00000000#32))
    (shapeCast S1x100 b shapeCasts_S1x100_S1x100)

open Cert.ReferenceIdeal Cert.ReferenceIdeal.Gen in
/-- The host's logits, as its program writes them. -/
def hLogits (e h : FVec Ideal S1x1024 .f32) (W : FVec Ideal S100x2048 .f32) (b : FVec Ideal S100 .f32) :
    FVec Ideal S1x100 .f32 :=
  addf (Host.dotGeneral (F := Ideal) dot_S1x2048_S2048x100_S1x100_1_0_0_1_n_n none
      (concatenate S1x2048 1 [⟨S1x1024, e⟩, ⟨S1x1024, h⟩] concatenates_S1x1024_S1x1024_S1x2048_d1)
      (transpose S2048x100 [1, 0] W transposes_S100x2048_S2048x100_1_0))
    (broadcastInDim S1x100 ![1] bcast_S100_S1x100_1 b)

/-- THE LOGITS AGREE: at lane j both are Σ_κ cat κ · W (j, κ) plus the bias at j. -/
theorem kLogits_eq_hLogits (e h : FVec Ideal Cert.KernelIdeal.S1x1024 .f32) (W : FVec Ideal Cert.KernelIdeal.S100x2048 .f32)
    (b2 : FVec Ideal Cert.KernelIdeal.S1x100 .f32) (b1 : FVec Ideal Cert.ReferenceIdeal.S100 .f32)
    (hb : ∀ j : Fin 100, b2 (ix2 (0 : Fin 1) j) = b1 (ix1 j)) :
    kLogits e h W b2 = hLogits e h W b1 := by
  unfold kLogits hLogits Cert.KernelIdeal.Gen.k0_pay1
  rw [shapeCast_self, shapeCast_self, shapeCast_self]
  generalize concatenate Cert.KernelIdeal.S1x2048 1 [⟨Cert.KernelIdeal.S1x1024, e⟩, ⟨Cert.KernelIdeal.S1x1024, h⟩] _ = c
  funext i
  obtain ⟨p, j, rfl⟩ : ∃ (p : Fin 1) (j : Fin 100), i = ix2 p j := ⟨i 0, i 1, eq_ix2 i⟩
  obtain rfl : p = 0 := Subsingleton.elim _ _
  rw [addf_apply, addf_apply,
    LibDotT.matmul_rowsT_zero_apply _ rfl rfl rfl rfl rfl rfl none _ _ (0 : Fin 1) j,
    LibDot.dot_rows_apply _ rfl rfl rfl rfl rfl rfl none c _ (0 : Fin 1) j,
    broadcastInDim_apply _ _ b1 (ix2 (0 : Fin 1) j) (ix1 j) (fun a => match a with
      | ⟨0, _⟩ => by show j.val = if (100 : Nat) = 1 then 0 else j.val; rw [if_neg (by decide)]),
    hb j]
  congr 1
  refine Finset.sum_congr rfl fun κ _ => ?_
  rw [truncf_apply, truncf_apply, transpose_apply [1, 0] W _ (ix2 κ j) (ix2 j κ) (fun b => match b with
    | ⟨0, _⟩ => rfl
    | ⟨1, _⟩ => rfl)]

/-! ## The combined projection: relu (concat[e, w · enc] against the rows of CW, plus the bias) -/

open Cert.KernelIdeal Cert.KernelIdeal.Gen in
/-- The block's second output from the attention weights w, as its payload writes it. -/
def kComb (e : FVec Ideal S1x1024 .f32) (w : FVec Ideal S1x100 .f32) (enc : FVec Ideal S100x1024 .f32)
    (CW : FVec Ideal S1024x2048 .f32) (cb : FVec Ideal S1x1024 .f32) : FVec Ideal S1x1024 .f32 :=
  maximumf
    (addf (FloatOps.matmul dot_S1x2048_S1024x2048_S1x1024_1_1_0_0_n_n none
        (truncf .bf16 (concatenate S1x2048 1 [⟨S1x1024, k0_pay1 (F := Ideal) e⟩,
          ⟨S1x1024, FloatOps.matmul dot_S1x100_S100x1024_S1x1024_1_0_0_1_n_n none (truncf .bf16 w bitsLt_bf16_f32)
            (truncf .bf16 enc bitsLt_bf16_f32) (constant (F := Ideal) S1x1024 .f32 0x00000000#32)⟩]
          concatenates_S1x1024_S1x1024_S1x2048_d1) bitsLt_bf16_f32)
        (truncf .bf16 CW bitsLt_bf16_f32) (constant (F := Ideal) S1x1024 .f32 0x00000000#32))
      (shapeCast S1x1024 cb shapeCasts_S1x1024_S1x1024))
    (broadcast S1x1024 (Scalar.ofBits (F := Ideal) .f32 0x00000000#32))

open Cert.ReferenceIdeal Cert.ReferenceIdeal.Gen in
/-- The host's stage of the same name from the attention weights w, as its program writes it. -/
def hComb (e : FVec Ideal S1x1024 .f32) (w : FVec Ideal S1x100 .f32) (enc : FVec Ideal S100x1024 .f32)
    (CW : FVec Ideal S1024x2048 .f32) (cb : FVec Ideal S1024 .f32) : FVec Ideal S1x1024 .f32 :=
  maximumf
    (addf (Host.dotGeneral (F := Ideal) dot_S1x2048_S2048x1024_S1x1024_1_0_0_1_n_n none
        (concatenate S1x2048 1 [⟨S1x1024, e⟩,
          ⟨S1x1024, Host.dotGeneral (F := Ideal) dot_S1x100_S100x1024_S1x1024_1_0_0_1_n_n none w enc⟩]
          concatenates_S1x1024_S1x1024_S1x2048_d1)
        (transpose S2048x1024 [1, 0] CW transposes_S1024x2048_S2048x1024_1_0))
      (broadcastInDim S1x1024 ![1] bcast_S1024_S1x1024_1 cb))
    (broadcastInDim S1x1024 ![] bcast_S_S1x1024 (constant (F := Ideal) S_ .f32 0x00000000#32))

/-- The context vector: the block's product into the zero splat is the host's product. -/
theorem context_eq (w : FVec Ideal Cert.KernelIdeal.S1x100 .f32) (enc : FVec Ideal Cert.KernelIdeal.S100x1024 .f32) :
    FloatOps.matmul Cert.KernelIdeal.dot_S1x100_S100x1024_S1x1024_1_0_0_1_n_n none
        (truncf .bf16 w Cert.KernelIdeal.Gen.bitsLt_bf16_f32) (truncf .bf16 enc Cert.KernelIdeal.Gen.bitsLt_bf16_f32)
        (constant (F := Ideal) Cert.KernelIdeal.S1x1024 .f32 0x00000000#32)
      = Host.dotGeneral (F := Ideal) Cert.ReferenceIdeal.dot_S1x100_S100x1024_S1x1024_1_0_0_1_n_n none w enc := by
  funext i
  obtain ⟨p, j, rfl⟩ : ∃ (p : Fin 1) (j : Fin 1024), i = ix2 p j := ⟨i 0, i 1, eq_ix2 i⟩
  rw [LibDot.matmul_rows_apply _ rfl rfl rfl rfl rfl rfl none _ _ _ p j,
    LibDot.dot_rows_apply _ rfl rfl rfl rfl rfl rfl none w enc p j, constant_apply, Ideal.ofBits_zero_f32, zero_add]
  rfl

/-- THE SECOND OUTPUT AGREES: at lane j both are max (Σ_κ cat κ · CW (j, κ) + bias j, 0). -/
theorem kComb_eq_hComb (e : FVec Ideal Cert.KernelIdeal.S1x1024 .f32) (w : FVec Ideal Cert.KernelIdeal.S1x100 .f32)
    (enc : FVec Ideal Cert.KernelIdeal.S100x1024 .f32) (CW : FVec Ideal Cert.KernelIdeal.S1024x2048 .f32)
    (cb2 : FVec Ideal Cert.KernelIdeal.S1x1024 .f32) (cb1 : FVec Ideal Cert.ReferenceIdeal.S1024 .f32)
    (hcb : ∀ j : Fin 1024, cb2 (ix2 (0 : Fin 1) j) = cb1 (ix1 j)) :
    kComb e w enc CW cb2 = hComb e w enc CW cb1 := by
  unfold kComb hComb Cert.KernelIdeal.Gen.k0_pay1
  rw [shapeCast_self, shapeCast_self, context_eq]
  generalize concatenate Cert.KernelIdeal.S1x2048 1 [⟨Cert.KernelIdeal.S1x1024, e⟩, ⟨Cert.KernelIdeal.S1x1024, _⟩] _ = c
  funext i
  obtain ⟨p, j, rfl⟩ : ∃ (p : Fin 1) (j : Fin 1024), i = ix2 p j := ⟨i 0, i 1, eq_ix2 i⟩
  obtain rfl : p = 0 := Subsingleton.elim _ _
  rw [maximumf_apply, maximumf_apply, addf_apply, addf_apply,
    LibDotT.matmul_rowsT_zero_apply _ rfl rfl rfl rfl rfl rfl none _ _ (0 : Fin 1) j,
    LibDot.dot_rows_apply _ rfl rfl rfl rfl rfl rfl none c _ (0 : Fin 1) j,
    broadcastInDim_apply _ _ cb1 (ix2 (0 : Fin 1) j) (ix1 j) (fun a => match a with
      | ⟨0, _⟩ => by show j.val = if (1024 : Nat) = 1 then 0 else j.val; rw [if_neg (by decide)]),
    hcb j,
    broadcastInDim_apply _ Cert.ReferenceIdeal.Gen.bcast_S_S1x1024 _ (ix2 (0 : Fin 1) j) ix0 (fun a => a.elim0)]
  have hs : ∑ κ : Fin 2048, (truncf .bf16 c Cert.KernelIdeal.Gen.bitsLt_bf16_f32 : FVec Ideal _ .bf16) (ix2 (0 : Fin 1) κ)
        * (truncf .bf16 CW Cert.KernelIdeal.Gen.bitsLt_bf16_f32 : FVec Ideal _ .bf16) (ix2 j κ)
      = ∑ κ : Fin 2048, c (ix2 (0 : Fin 1) κ)
        * transpose Cert.ReferenceIdeal.S2048x1024 [1, 0] CW Cert.ReferenceIdeal.Gen.transposes_S1024x2048_S2048x1024_1_0 (ix2 κ j) :=
    Finset.sum_congr rfl fun κ _ => by
      rw [truncf_apply, truncf_apply, transpose_apply [1, 0] CW _ (ix2 κ j) (ix2 j κ) (fun b => match b with
        | ⟨0, _⟩ => rfl
        | ⟨1, _⟩ => rfl)]
  rw [hs]
  rfl

end Cert.Bridge

end
-- ==== Proof.Bridge.Attn.lean ====
/-
  The attention block against the host's stages, at the ideal values: the block's two payloads, fed the host's
  embedded row and hidden row, are the host's softmax stage and its relu stage. The block's payload is its softmax of
  its logits (resp. its projection of its weights) by unfolding, the host's stage is the host's form of the same by
  unfolding, and the two forms agree over arbitrary operands (the operations module, the softmax module).
-/
import proofs.«411164_j15539191677010_3_alg».proof.Proof.RefRead
import proofs.«411164_j15539191677010_3_alg».proof.Proof.Gen.KernelIdeal.Skeleton
import proofs.«411164_j15539191677010_3_alg».proof.Proof.Bridge.Softmax
import proofs.«411164_j15539191677010_3_alg».proof.Proof.Bridge.AttnOps
import Idealize.ShloMosaic.Lib.ValueIdx

noncomputable section

namespace Cert.Bridge

open Idealize.ShloMosaic Idealize.ShloMosaic.ValueIdx

/-! ## The two outputs of the attention block against the host's stages -/

section Interface
open Cert.ReferenceIdeal.Read

/-- THE ATTENTION WEIGHTS: the block's first payload, on the host's embedded row and hidden row, is the host's softmax stage. -/
theorem attn_eq (x0 : (⟨Cert.ReferenceIdeal.S1x1, .i32⟩ : BufTy).Contents (Elt Ideal))
    (x1 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S100x2048, .f32⟩ : BufTy).Contents (Elt Ideal))
    (x5 : (⟨Cert.ReferenceIdeal.S100, .f32⟩ : BufTy).Contents (Elt Ideal))
    (AB2 : FVec Ideal Cert.KernelIdeal.S1x100 .f32)
    (hAB : ∀ j : Fin 100, AB2 (ix2 (0 : Fin 1) j) = x5 (ix1 j)) :
    Cert.KernelIdeal.Gen.k0_pay2 (F := Ideal) (val_main_v10 x0 x3) (val_main_v11 x1) x4 AB2
      = val_main_v27 x0 x1 x3 x4 x5 := by
  -- the host's weights are its softmax of its logits
  have hR : val_main_v27 (F := Ideal) x0 x1 x3 x4 x5
      = hSoftmax (hLogits (val_main_v10 x0 x3) (val_main_v11 x1) x4 x5) Cert.ReferenceIdeal.Gen.reducesTo_S1x100_S1_d1
          Cert.ReferenceIdeal.Gen.h_S_ Cert.ReferenceIdeal.Gen.bcast_S_S1 Cert.ReferenceIdeal.Gen.bcast_S1_S1x1_0
          Cert.ReferenceIdeal.Gen.bcast_S1x1_S1x100_0_1 := rfl
  -- the block's weights are its softmax of its logits
  have hK : ∀ e h : FVec Ideal Cert.KernelIdeal.S1x1024 .f32, Cert.KernelIdeal.Gen.k0_pay2 (F := Ideal) e h x4 AB2
      = kSoftmax (kLogits e h x4 AB2) Cert.KernelIdeal.Gen.reduces_S1x100_S1 (.inl rfl) rfl rfl
          Cert.KernelIdeal.Gen.shapeCasts_S1_S1x1 Cert.KernelIdeal.Gen.broadcasts_S1x1_S1x100 := fun _ _ => rfl
  rw [hR, hK, kLogits_eq_hLogits _ _ _ _ x5 hAB]
  exact kSoftmax_eq_hSoftmax _ _ _ _ _ _ _ _ _ _ _ _

/-- THE SECOND OUTPUT: the block's second payload is the host's relu stage. -/
theorem x2_eq (x0 : (⟨Cert.ReferenceIdeal.S1x1, .i32⟩ : BufTy).Contents (Elt Ideal))
    (x1 : (⟨Cert.ReferenceIdeal.S1x1x1024, .f32⟩ : BufTy).Contents (Elt Ideal))
    (x2 : (⟨Cert.ReferenceIdeal.S100x1024, .f32⟩ : BufTy).Contents (Elt Ideal))
    (x3 : (⟨Cert.ReferenceIdeal.S50257x1024, .f32⟩ : BufTy).Contents (Elt Ideal))
    (x4 : (⟨Cert.ReferenceIdeal.S100x2048, .f32⟩ : BufTy).Contents (Elt Ideal))
    (x5 : (⟨Cert.ReferenceIdeal.S100, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (AB2 : FVec Ideal Cert.KernelIdeal.S1x100 .f32)
    (hAB : ∀ j : Fin 100, AB2 (ix2 (0 : Fin 1) j) = x5 (ix1 j))
    (CB2 : FVec Ideal Cert.KernelIdeal.S1x1024 .f32)
    (hCB : ∀ j : Fin 1024, CB2 (ix2 (0 : Fin 1) j) = x7 (ix1 j)) :
    Cert.KernelIdeal.Gen.k0_pay3 (F := Ideal) (val_main_v10 x0 x3) (val_main_v11 x1) x4 AB2 x2 x6 CB2
      = val_main_v35 x0 x1 x2 x3 x4 x5 x6 x7 := by
  have hR : val_main_v35 (F := Ideal) x0 x1 x2 x3 x4 x5 x6 x7
      = hComb (val_main_v10 x0 x3) (val_main_v27 x0 x1 x3 x4 x5) x2 x6 x7 := rfl
  have hK : ∀ e h : FVec Ideal Cert.KernelIdeal.S1x1024 .f32,
      Cert.KernelIdeal.Gen.k0_pay3 (F := Ideal) e h x4 AB2 x2 x6 CB2
        = kComb e (Cert.KernelIdeal.Gen.k0_pay2 (F := Ideal) e h x4 AB2) x2 x6 CB2 := fun _ _ => rfl
  rw [hR, hK, attn_eq x0 x1 x3 x4 x5 AB2 hAB]
  exact kComb_eq_hComb _ _ _ _ _ x7 hCB

end Interface

end Cert.Bridge

end
-- ==== Proof.Bridge.EmbedKernel.lean ====
/-
  The token's row of the embedding table, on both sides, as pure terms.

  The kernel program gathers the row: index = token, wrapped by the vocabulary size when negative; a range test
  0 ≤ index ≤ 50256 reduced over its one lane; a row gather at the index (the start clamped into the table); a select between
  the gathered row and a fill value on the range test. The reference program slices the row: the same wrapped index, then
  a clamped slice of one row, under three casts. At a token in [0, 50257) the wrap is the identity, the range test is 1,
  both clamps are the identity, and both read row token: `take_apply`, `ref_row_apply`, each at one column.

  Then the kernel's host operations before its first region, read buffer by buffer over any launch valuation: the
  embedded row (`embedded_apply`), the hidden-state row (`hidden2_cast`) and the five bias rows (`bias_row_v4` … `bias_row_v8`).
-/
import proofs.«411164_j15539191677010_3_alg».proof.Proof.Gen.KernelIdeal.Launch
import proofs.«411164_j15539191677010_3_alg».proof.Proof.Gen.KernelIdeal.Regions
import Idealize.ShloMosaic.Lib.StableHlo.Run
import Idealize.ShloMosaic.Lib.ValueIdx
import Idealize.ShloMosaic.Lib.StableHlo.Predicate
import Idealize.ShloMosaic.Lib.DynamicIndex
import Idealize.ShloMosaic.Lib.Pipeline.Value
import Idealize.ShloMosaic.Lib.ReduceAll

noncomputable section
namespace Cert.Bridge.Embed
open Idealize.ShloMosaic Idealize.ShloMosaic.TcCoe Idealize.SL.Sem Idealize.ShloMosaic.StableHlo
open Idealize.ShloMosaic.ValueIdx

/-! ## Words -/

/-- A fold by "and" over one-bit words that are all 1, started at 1, is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- A reduction by "and" of an array of 1s, from 1, is 1 everywhere. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_ones x _ (fun n _ => hx n)

/-- A word in [0, 50257) read signed passes both range tests of the take: it is ≥ 0 and ≤ 50256. -/
theorem range_tests (w : BitVec 32) (h0 : 0 ≤ w.toInt) (h1 : w.toInt < 50257) :
    IntOp.andi (IntOp.cmpi .sge w 0#32) (IntOp.cmpi .sle w 50256#32) = 1#1 := by
  have hc : (50256#32 : BitVec 32).toInt = 50256 := by decide
  have a : IntOp.cmpi .sge w 0#32 = 1#1 := by
    unfold IntOp.cmpi
    rw [StableHlo.Predicate.ofBool_eq_one_iff]
    simpa [BitVec.sle] using h0
  have b : IntOp.cmpi .sle w 50256#32 = 1#1 := by
    unfold IntOp.cmpi
    rw [StableHlo.Predicate.ofBool_eq_one_iff]
    simp only [BitVec.sle, hc, decide_eq_true_eq]
    omega
  rw [a, b]; rfl

/-! ## The take, the clamped slice and the casts, each read at one element -/

section Take
variable {α : Type}

abbrev Svocab : Shape := ⟨2, ![50257, 1024]⟩
abbrev Srow : Shape := ⟨1, ![1024]⟩
abbrev S1row : Shape := ⟨2, ![1, 1024]⟩
abbrev Sone : Shape := ⟨1, ![1]⟩
abbrev Sscalar : Shape := ⟨0, ![]⟩

/-- The one-element index shape has one index. -/
theorem sone_idx (k : Sone.Idx) : k = ix1 (0 : Fin 1) := by
  funext a
  obtain rfl : a = 0 := Subsingleton.elim _ _
  apply Fin.ext
  have h : (k 0).val < 1 := (k 0).isLt
  show (k 0).val = 0
  omega

/-- An axis of a rank-2 shape is axis 0 or axis 1. -/
theorem fin_two (a : Fin 2) : a = 0 ∨ a = 1 := by
  rcases a with ⟨n, hn⟩
  interval_cases n
  · exact Or.inl rfl
  · exact Or.inr rfl

/-- The row gather read at column j: the table at (the start index read signed and clamped into the table, j). -/
theorem gather_row (d : GatherDims Svocab Sone Srow)
    (hcoll : d.collapsedSliceDims = [0]) (hob : d.operandBatchingDims = [])
    (hsim : d.startIndexMap = [0]) (hsl : d.sliceSizes 0 = 1)
    (x : Svocab.Idx → α) (idx : IVec Sone 32) (j : Fin 1024)
    (r : Fin 50257) (hr : r.val = min (idx (ix1 0)).toInt.toNat 50256) :
    Host.gather d x idx (ix1 j) = x (ix2 r j) := by
  unfold Host.gather
  congr 1
  funext a
  apply Fin.ext
  have hb : ∀ a : Fin 2, a ∉ d.operandBatchingDims := fun a => by rw [hob]; exact List.not_mem_nil
  have hres : ∀ b : Fin 1, ((ix1 j : Srow.Idx) b).val = j.val := fun b => by
    obtain rfl : b = 0 := Subsingleton.elim _ _
    rfl
  obtain rfl | rfl := fin_two a
  · have hk : (0 : Fin 2) ∉ d.sKept := by rw [GatherDims.mem_sKept, hcoll]; simp
    have hm : (0 : Fin 2) ∈ d.startIndexMap := by rw [hsim]; exact List.mem_singleton.mpr rfl
    show d.start (ix1 j) idx 0 + d.batchCoord (ix1 j) 0 + d.offCoord (ix1 j) 0 = r.val
    rw [GatherDims.batchCoord_eq_zero _ _ _ (hb 0), GatherDims.offCoord_eq_zero _ _ _ hk]
    unfold GatherDims.start
    rw [dif_pos hm, sone_idx (d.siIdx _ _), hsl, hr]
    rfl
  · have hk : (1 : Fin 2) ∈ d.sKept := by rw [GatherDims.mem_sKept, hcoll, hob]; simp
    have hm : (1 : Fin 2) ∉ d.startIndexMap := by rw [hsim]; simp
    show d.start (ix1 j) idx 1 + d.batchCoord (ix1 j) 1 + d.offCoord (ix1 j) 1 = j.val
    rw [GatherDims.batchCoord_eq_zero _ _ _ (hb 1)]
    unfold GatherDims.start GatherDims.offCoord
    rw [dif_neg hm, dif_pos hk, Nat.zero_add]
    exact hres _

/-- THE TAKE at a token in range, read at column j: the wrapped index is the token, the range test passes, and the
    gather reads row token of the table. -/
theorem take_apply (d : GatherDims Svocab Sone Srow)
    (hcoll : d.collapsedSliceDims = [0]) (hob : d.operandBatchingDims = [])
    (hsim : d.startIndexMap = [0]) (hsl : d.sliceSizes 0 = 1)
    (hb1 : Sscalar.BroadcastsInDim Sone ![]) (hb2 : Sscalar.BroadcastsInDim Srow ![])
    (hred : Sone.ReducesTo [0] Sscalar) (h0 : 0 < Sscalar.numel)
    (x : Svocab.Idx → α) (fill : Sscalar.Idx → α) (tok : IVec Sscalar 32)
    (hr0 : 0 ≤ (tok ix0).toInt) (hr1 : (tok ix0).toInt < 50257) (j : Fin 1024)
    (r : Fin 50257) (hr : r.val = (tok ix0).toInt.toNat) :
    select
        (broadcastInDim Srow ![] hb2
          (Host.reduce IntOp.andi
            (andi
              (cmpi .sge
                (broadcastInDim Sone ![] hb1 (select (cmpi .slt tok (constantI Sscalar 32 0#32)) (addi tok (constantI Sscalar 32 50257#32)) tok))
                (broadcastInDim Sone ![] hb1 (constantI Sscalar 32 0#32)))
              (cmpi .sle
                (broadcastInDim Sone ![] hb1 (select (cmpi .slt tok (constantI Sscalar 32 0#32)) (addi tok (constantI Sscalar 32 50257#32)) tok))
                (constantI Sone 32 50256#32)))
            (constantI Sscalar 1 1#1) hred h0))
        (Host.gather d x
          (broadcastInDim Sone ![] hb1 (select (cmpi .slt tok (constantI Sscalar 32 0#32)) (addi tok (constantI Sscalar 32 50257#32)) tok)))
        (broadcastInDim Srow ![] hb2 fill) (ix1 j)
      = x (ix2 r j) := by
  -- the index vector's one element is the token
  have hidx : ∀ k : Sone.Idx,
      broadcastInDim Sone ![] hb1 (select (cmpi .slt tok (constantI Sscalar 32 0#32)) (addi tok (constantI Sscalar 32 50257#32)) tok) k
        = tok ix0 := fun k => by
    rw [StableHlo.Predicate.bcast_scalar hb1 h0, eq_ix0 (Shape.Idx.first h0)]
    exact select_slt_zero_of_nonneg tok _ _ ix0 hr0
  generalize broadcastInDim Sone ![] hb1 (select (cmpi .slt tok (constantI Sscalar 32 0#32)) (addi tok (constantI Sscalar 32 50257#32)) tok) = idxv at hidx ⊢
  -- the range test is 1
  have hc : Host.reduce IntOp.andi
      (andi (cmpi .sge idxv (broadcastInDim Sone ![] hb1 (constantI Sscalar 32 0#32))) (cmpi .sle idxv (constantI Sone 32 50256#32)))
      (constantI Sscalar 1 1#1) hred h0 (Shape.Idx.first h0) = 1#1 :=
    reduce_andi_of_all _ _ hred h0 _ rfl (fun i => by
      show IntOp.andi (IntOp.cmpi .sge (idxv i) (broadcastInDim Sone ![] hb1 (constantI Sscalar 32 0#32) i)) (IntOp.cmpi .sle (idxv i) 50256#32) = 1#1
      rw [hidx i, StableHlo.Predicate.bcast_scalar hb1 h0]
      exact range_tests _ hr0 hr1)
  rw [select_apply]
  rw [StableHlo.Predicate.bcast_scalar hb2 h0, hc, select_one]
  exact gather_row d hcoll hob hsim hsl x idxv j r (by rw [hr, hidx]; omega)

/-- THE CLAMPED SLICE of one row at a start in range, read at column j: row start of the table. -/
theorem dynslice_row (hs : Svocab.Slices (fun _ => 0) S1row) (x : Svocab.Idx → α) (start : Fin 2 → Int) (t : Int)
    (h0 : 0 ≤ t) (h1 : t < 50257) (hs0 : start 0 = t) (hs1 : start 1 = 0) (r : Fin 50257) (hr : r.val = t.toNat) (j : Fin 1024) :
    Host.dynamicSlice S1row x start hs (ix2 0 j) = x (ix2 r j) := by
  unfold Host.dynamicSlice extractStridedSlice
  dsimp only
  congr 1
  funext a
  apply Fin.ext
  obtain rfl | rfl := fin_two a
  · show (min (max (start 0) 0) ((50257 - 1 : Nat) : Int)).toNat + 0 = r.val
    rw [hs0, hr]; omega
  · show (min (max (start 1) 0) ((1024 - 1024 : Nat) : Int)).toNat + j.val = j.val
    rw [hs1]; simp

/-- A vector laid as a one-row array reads, at (0, j), the vector at j. -/
theorem row_of_vec_apply {n : Nat} (y : (⟨1, ![n]⟩ : Shape).Idx → α) (h : (⟨1, ![n]⟩ : Shape).ShapeCasts ⟨2, ![1, n]⟩) (j : Fin n) :
    shapeCast ⟨2, ![1, n]⟩ y h (ix2 0 j) = y (ix1 j) :=
  shapeCast_apply y h (ix2 0 j) (ix1 j) (by rw [Shape.rowMajor_val_one, Shape.rowMajor_val_two]; show j.val = 0 * n + j.val; omega)

end Take

/-! ## The reference's row: a clamped slice under three casts -/

section Ref
variable {α : Type}

abbrev S1x1tok : Shape := ⟨2, ![1, 1]⟩
abbrev S1x1row : Shape := ⟨3, ![1, 1, 1024]⟩

/-- The [1, 1] token array has one index. -/
theorem tok_idx (k : S1x1tok.Idx) : k = ix2 (0 : Fin 1) (0 : Fin 1) := by
  funext a
  apply Fin.ext
  obtain rfl | rfl := fin_two a
  · have h : (k 0).val < 1 := (k 0).isLt
    show (k 0).val = 0
    omega
  · have h : (k 1).val < 1 := (k 1).isLt
    show (k 1).val = 0
    omega

/-- A [1, 1024] row as a [1024] vector reads, at j, the row at (0, j). -/
theorem vec_of_row_apply (y : S1row.Idx → α) (h : S1row.ShapeCasts Srow) (j : Fin 1024) :
    shapeCast Srow y h (ix1 j) = y (ix2 0 j) :=
  shapeCast_apply y h (ix1 j) (ix2 0 j) (by rw [Shape.rowMajor_val_one, Shape.rowMajor_val_two]; show 0 * 1024 + j.val = j.val; omega)

/-- A [1024] vector as a [1, 1, 1024] array reads, at (0, 0, j), the vector at j. -/
theorem cube_of_vec_apply (y : Srow.Idx → α) (h : Srow.ShapeCasts S1x1row) (j : Fin 1024) :
    shapeCast S1x1row y h (ix3 0 0 j) = y (ix1 j) :=
  shapeCast_apply y h (ix3 0 0 j) (ix1 j) (by rw [Shape.rowMajor_val_one, Shape.rowMajor_val_three]; show j.val = (0 * 1 + 0) * 1024 + j.val; omega)

/-- A [1, 1, 1024] array as a [1, 1024] row reads, at (0, j), the array at (0, 0, j). -/
theorem row_of_cube_apply (y : S1x1row.Idx → α) (h : S1x1row.ShapeCasts S1row) (j : Fin 1024) :
    shapeCast S1row y h (ix2 0 j) = y (ix3 0 0 j) :=
  shapeCast_apply y h (ix2 0 j) (ix3 0 0 j) (by rw [Shape.rowMajor_val_two, Shape.rowMajor_val_three]; show (0 * 1 + 0) * 1024 + j.val = 0 * 1024 + j.val; omega)

/-- THE REFERENCE'S ROW at a token in range: the wrapped index is the token, the column start is 0, the clamp is the
    identity, and the three casts keep column j. -/
theorem ref_row_apply (x0 : IVec S1x1tok 32) (x : Svocab.Idx → α)
    (hc0 : S1x1tok.ShapeCasts Sscalar) (hs : Svocab.Slices (fun _ => 0) S1row)
    (hc1 : S1row.ShapeCasts Srow) (hc2 : Srow.ShapeCasts S1x1row) (hc3 : S1x1row.ShapeCasts S1row) (h0 : 0 < Sscalar.numel)
    (hr0 : 0 ≤ (x0 (ix2 0 0)).toInt) (hr1 : (x0 (ix2 0 0)).toInt < 50257) (j : Fin 1024)
    (r : Fin 50257) (hr : r.val = (x0 (ix2 0 0)).toInt.toNat) :
    shapeCast S1row (shapeCast S1x1row (shapeCast Srow
        (Host.dynamicSlice S1row x
          (fun k => ((![select (cmpi .slt (shapeCast Sscalar x0 hc0) (constantI Sscalar 32 0#32))
                          (addi (shapeCast Sscalar x0 hc0) (constantI Sscalar 32 50257#32)) (shapeCast Sscalar x0 hc0),
                        select (cmpi .slt (constantI Sscalar 32 0#32) (constantI Sscalar 32 0#32))
                          (addi (constantI Sscalar 32 0#32) (constantI Sscalar 32 1024#32)) (constantI Sscalar 32 0#32)]
                      : Fin 2 → IVec Sscalar 32) k (Shape.Idx.first h0)).toInt) hs) hc1) hc2) hc3 (ix2 0 j)
      = x (ix2 r j) := by
  rw [row_of_cube_apply, cube_of_vec_apply, vec_of_row_apply]
  have htok : shapeCast Sscalar x0 hc0 (Shape.Idx.first h0) = x0 (ix2 0 0) := by
    unfold shapeCast
    exact congrArg x0 (tok_idx _)
  refine dynslice_row hs x _ (x0 (ix2 0 0)).toInt hr0 hr1 ?_ ?_ r hr j
  · show (select _ _ (shapeCast Sscalar x0 hc0) (Shape.Idx.first h0)).toInt = _
    rw [select_slt_zero_of_nonneg _ _ _ _ (by rw [htok]; exact hr0), htok]
  · rfl

end Ref

/-! ## The kernel's host operations before the first region, buffer by buffer -/

section Stages
open Cert.KernelIdeal Cert.KernelIdeal.Gen
variable {F : FTy → Type} [FloatOps F]

/-- The first stretch (one reshape) leaves the token, as a scalar, in its buffer. -/
theorem stage0_tok (W : Valuation τ sig (Elt F)) (i : S_.Idx) :
    (StableHlo.after (hostOps0 (F := F)) W (Proc.devRef .tc main_v0) : IVec S_ 32) i
      = (W (Proc.devRef .tc main_arg0) : IVec S1x1 32) (ix2 0 0) := by
  after_results_simp
  unfold shapeCast
  exact congrArg _ (tok_idx _)

/-- The second stretch (the take) leaves, at a token in range, row token of the table in its result buffer. -/
theorem stage1_take_apply (V : Valuation τ sig (Elt F))
    (hr0 : 0 ≤ ((V (Proc.devRef .tc main_v0) : IVec S_ 32) ix0).toInt)
    (hr1 : ((V (Proc.devRef .tc main_v0) : IVec S_ 32) ix0).toInt < 50257) (j : Fin 1024)
    (r : Fin 50257) (hr : r.val = ((V (Proc.devRef .tc main_v0) : IVec S_ 32) ix0).toInt.toNat) :
    (StableHlo.after (hostOps0_1 (F := F)) V (Proc.devRef .tc main_v1) : FVec F S1024 .f32) (ix1 j)
      = (V (Proc.devRef .tc main_arg3) : FVec F S50257x1024 .f32) (ix2 r j) := by
  after_results_simp
  simp only [TRef.ofBuf, TRef.toBuf, cast_eq]
  exact take_apply gather_S50257x1024_S1_S1024_0_0_n_n_0_0_11024 rfl rfl rfl rfl _ _ _ _ _ _ _ hr0 hr1 j r hr

/-- The third stretch (seven reshapes) lays the taken row as a [1, 1024] array. -/
theorem stage2_row (V : Valuation τ sig (Elt F)) (j : Fin 1024) :
    (StableHlo.after (hostOps0_2 (F := F)) V (Proc.devRef .tc main_v2) : FVec F S1x1024 .f32) (ix2 0 j)
      = (V (Proc.devRef .tc main_v1) : FVec F S1024 .f32) (ix1 j) := by
  after_results_simp
  exact row_of_vec_apply _ _ j

/-- … and each bias vector as a one-row array, and the hidden state as a [1, 1024] row. -/
theorem stage2_v4 (V : Valuation τ sig (Elt F)) (j : Fin 100) :
    (StableHlo.after (hostOps0_2 (F := F)) V (Proc.devRef .tc main_v4) : FVec F S1x100 .f32) (ix2 0 j)
      = (V (Proc.devRef .tc main_arg5) : FVec F S100 .f32) (ix1 j) := by
  after_results_simp
  exact row_of_vec_apply _ _ j
theorem stage2_v5 (V : Valuation τ sig (Elt F)) (j : Fin 1024) :
    (StableHlo.after (hostOps0_2 (F := F)) V (Proc.devRef .tc main_v5) : FVec F S1x1024 .f32) (ix2 0 j)
      = (V (Proc.devRef .tc main_arg7) : FVec F S1024 .f32) (ix1 j) := by
  after_results_simp
  exact row_of_vec_apply _ _ j
theorem stage2_v6 (V : Valuation τ sig (Elt F)) (j : Fin 3072) :
    (StableHlo.after (hostOps0_2 (F := F)) V (Proc.devRef .tc main_v6) : FVec F S1x3072 .f32) (ix2 0 j)
      = (V (Proc.devRef .tc main_arg10) : FVec F S3072 .f32) (ix1 j) := by
  after_results_simp
  exact row_of_vec_apply _ _ j
theorem stage2_v7 (V : Valuation τ sig (Elt F)) (j : Fin 3072) :
    (StableHlo.after (hostOps0_2 (F := F)) V (Proc.devRef .tc main_v7) : FVec F S1x3072 .f32) (ix2 0 j)
      = (V (Proc.devRef .tc main_arg11) : FVec F S3072 .f32) (ix1 j) := by
  after_results_simp
  exact row_of_vec_apply _ _ j
theorem stage2_v8 (V : Valuation τ sig (Elt F)) (j : Fin 50257) :
    (StableHlo.after (hostOps0_2 (F := F)) V (Proc.devRef .tc main_v8) : FVec F S1x50257 .f32) (ix2 0 j)
      = (V (Proc.devRef .tc main_arg13) : FVec F S50257 .f32) (ix1 j) := by
  after_results_simp
  exact row_of_vec_apply _ _ j
theorem stage2_v3 (V : Valuation τ sig (Elt F)) :
    (StableHlo.after (hostOps0_2 (F := F)) V (Proc.devRef .tc main_v3) : FVec F S1x1024 .f32)
      = shapeCast S1x1024 (V (Proc.devRef .tc main_arg1) : FVec F S1x1x1024 .f32) shapeCasts_S1x1x1024_S1x1024 := by
  after_results_simp
  rfl

end Stages

/-! ## The gathered row and its siblings, over the kernel's host operations -/

section Final
open Cert.KernelIdeal Cert.KernelIdeal.Gen
variable {F : FTy → Type} [FloatOps F]

/-- The valuation the first region starts from: the three host stretches applied in order. -/
abbrev hostVal (W : Valuation τ sig (Elt F)) : Valuation τ sig (Elt F) :=
  StableHlo.after hostOps0_2 (StableHlo.after hostOps0_1 (StableHlo.after hostOps0 W))

/-- A buffer none of the three stretches writes holds its launch contents. -/
theorem hostVal_of (W : Valuation τ sig (Elt F)) (r : Ref sig .tc) (h0 : r ∉ hostOps0_W) (h1 : r ∉ hostOps0_1_W) (h2 : r ∉ hostOps0_2_W) :
    hostVal W (Proc.devRef .tc r) = W (Proc.devRef .tc r) := by
  unfold hostVal
  rw [StableHlo.after_of_writes_sub hostOps0_2 _ hostOps0_2_writes h2, StableHlo.after_of_writes_sub hostOps0_1 _ hostOps0_1_writes h1,
    StableHlo.after_of_writes_sub hostOps0 _ hostOps0_writes h0]

/-- THE KERNEL'S EMBEDDED ROW at a token in range, read at column j: row token of the embedding table. -/
theorem embedded_apply (W : Valuation τ sig (Elt F))
    (hr0 : 0 ≤ ((W (Proc.devRef .tc main_arg0) : IVec S1x1 32) (ix2 0 0)).toInt)
    (hr1 : ((W (Proc.devRef .tc main_arg0) : IVec S1x1 32) (ix2 0 0)).toInt < 50257) (j : Fin 1024)
    (r : Fin 50257) (hr : r.val = ((W (Proc.devRef .tc main_arg0) : IVec S1x1 32) (ix2 0 0)).toInt.toNat) :
    (hostVal W (Proc.devRef .tc main_v2) : FVec F S1x1024 .f32) (ix2 0 j)
      = (W (Proc.devRef .tc main_arg3) : FVec F S50257x1024 .f32) (ix2 r j) := by
  unfold hostVal
  rw [stage2_row, stage1_take_apply (StableHlo.after hostOps0 W) (by rw [stage0_tok]; exact hr0) (by rw [stage0_tok]; exact hr1) j r
    (by rw [stage0_tok]; exact hr)]
  exact congrFun (StableHlo.after_of_writes_sub hostOps0 W hostOps0_writes (by decide)) _

/-- A buffer the first two stretches do not write holds its launch contents when the third starts. -/
theorem pre2_of (W : Valuation τ sig (Elt F)) (r : Ref sig .tc) (h0 : r ∉ hostOps0_W) (h1 : r ∉ hostOps0_1_W) :
    StableHlo.after hostOps0_1 (StableHlo.after hostOps0 W) (Proc.devRef .tc r) = W (Proc.devRef .tc r) := by
  rw [StableHlo.after_of_writes_sub hostOps0_1 _ hostOps0_1_writes h1, StableHlo.after_of_writes_sub hostOps0 _ hostOps0_writes h0]

/-- The kernel's hidden-state row is the hidden-state argument under the cast to [1, 1024]. -/
theorem hidden2_cast (W : Valuation τ sig (Elt F)) (h : S1x1x1024.ShapeCasts S1x1024) :
    (hostVal W (Proc.devRef .tc main_v3) : FVec F S1x1024 .f32)
      = shapeCast S1x1024 (W (Proc.devRef .tc main_arg1) : FVec F S1x1x1024 .f32) h := by
  unfold hostVal
  rw [stage2_v3, pre2_of W main_arg1 (by decide) (by decide)]

/-- Each bias row of the kernel is its bias argument, column by column. -/
theorem bias_row_v4 (W : Valuation τ sig (Elt F)) (j : Fin 100) :
    (hostVal W (Proc.devRef .tc main_v4) : FVec F S1x100 .f32) (ix2 0 j) = (W (Proc.devRef .tc main_arg5) : FVec F S100 .f32) (ix1 j) := by
  unfold hostVal
  rw [stage2_v4, pre2_of W main_arg5 (by decide) (by decide)]
theorem bias_row_v5 (W : Valuation τ sig (Elt F)) (j : Fin 1024) :
    (hostVal W (Proc.devRef .tc main_v5) : FVec F S1x1024 .f32) (ix2 0 j) = (W (Proc.devRef .tc main_arg7) : FVec F S1024 .f32) (ix1 j) := by
  unfold hostVal
  rw [stage2_v5, pre2_of W main_arg7 (by decide) (by decide)]
theorem bias_row_v6 (W : Valuation τ sig (Elt F)) (j : Fin 3072) :
    (hostVal W (Proc.devRef .tc main_v6) : FVec F S1x3072 .f32) (ix2 0 j) = (W (Proc.devRef .tc main_arg10) : FVec F S3072 .f32) (ix1 j) := by
  unfold hostVal
  rw [stage2_v6, pre2_of W main_arg10 (by decide) (by decide)]
theorem bias_row_v7 (W : Valuation τ sig (Elt F)) (j : Fin 3072) :
    (hostVal W (Proc.devRef .tc main_v7) : FVec F S1x3072 .f32) (ix2 0 j) = (W (Proc.devRef .tc main_arg11) : FVec F S3072 .f32) (ix1 j) := by
  unfold hostVal
  rw [stage2_v7, pre2_of W main_arg11 (by decide) (by decide)]
theorem bias_row_v8 (W : Valuation τ sig (Elt F)) (j : Fin 50257) :
    (hostVal W (Proc.devRef .tc main_v8) : FVec F S1x50257 .f32) (ix2 0 j) = (W (Proc.devRef .tc main_arg13) : FVec F S50257 .f32) (ix1 j) := by
  unfold hostVal
  rw [stage2_v8, pre2_of W main_arg13 (by decide) (by decide)]

end Final

end Cert.Bridge.Embed
end
-- ==== Proof.Bridge.Embed.lean ====
/-
  The kernel's inputs to its first region against the reference's stages: the embedded row (at a token in range both
  programs read row token of the embedding table), the hidden-state row (the same cast) and the five bias rows (each a
  vector laid as one row). Stated over the kernel's three host stretches applied to any launch valuation.
-/
import proofs.«411164_j15539191677010_3_alg».proof.Proof.Bridge.EmbedKernel
import proofs.«411164_j15539191677010_3_alg».proof.Proof.RefRead

noncomputable section

namespace Cert.Bridge

open Idealize.ShloMosaic Idealize.ShloMosaic.TcCoe Idealize.SL.Sem Idealize.ShloMosaic.StableHlo
open Idealize.ShloMosaic.ValueIdx
open Cert.Bridge.Embed

variable {F : FTy → Type} [FloatOps F]

/-- THE GATHER: at a token in [0, 50257) the kernel's embedded row — its three host stretches read at the buffer the
    first region's first window names — is the reference's: both are row token of the embedding table. -/
theorem embedded_eq (W : Valuation Cert.KernelIdeal.τ Cert.KernelIdeal.sig (Elt F))
    (hr : 0 ≤ ((W (Proc.devRef .tc Cert.KernelIdeal.main_arg0) : IVec Cert.KernelIdeal.S1x1 32) (ix2 0 0)).toInt
      ∧ ((W (Proc.devRef .tc Cert.KernelIdeal.main_arg0) : IVec Cert.KernelIdeal.S1x1 32) (ix2 0 0)).toInt < 50257) :
    StableHlo.after Cert.KernelIdeal.Gen.hostOps0_2 (StableHlo.after Cert.KernelIdeal.Gen.hostOps0_1 (StableHlo.after Cert.KernelIdeal.Gen.hostOps0 W))
        (Proc.devRef .tc Cert.KernelIdeal.main_v2)
      = Cert.ReferenceIdeal.Read.val_main_v10 (F := F) (W (Proc.devRef .tc Cert.KernelIdeal.main_arg0)) (W (Proc.devRef .tc Cert.KernelIdeal.main_arg3)) := by
  funext i
  obtain ⟨a, j, rfl⟩ : ∃ (a : Fin 1) (j : Fin 1024), i = ix2 a j := ⟨i 0, i 1, eq_ix2 i⟩
  obtain rfl : a = 0 := Subsingleton.elim _ _
  have hlt : ((W (Proc.devRef .tc Cert.KernelIdeal.main_arg0) : IVec Cert.KernelIdeal.S1x1 32) (ix2 0 0)).toInt.toNat < 50257 := by omega
  refine (embedded_apply W hr.1 hr.2 j ⟨_, hlt⟩ rfl).trans ?_
  exact (ref_row_apply _ _ _ _ _ _ _ _ hr.1 hr.2 j ⟨_, hlt⟩ rfl).symm

/-- The hidden-state row: the kernel's reshape is the reference's. -/
theorem hidden2_eq (W : Valuation Cert.KernelIdeal.τ Cert.KernelIdeal.sig (Elt F)) :
    StableHlo.after Cert.KernelIdeal.Gen.hostOps0_2 (StableHlo.after Cert.KernelIdeal.Gen.hostOps0_1 (StableHlo.after Cert.KernelIdeal.Gen.hostOps0 W))
        (Proc.devRef .tc Cert.KernelIdeal.main_v3)
      = Cert.ReferenceIdeal.Read.val_main_v11 (F := F) (W (Proc.devRef .tc Cert.KernelIdeal.main_arg1)) :=
  hidden2_cast W _

/-- The five bias rows: each is its bias argument, column by column. -/
theorem bias_rows (W : Valuation Cert.KernelIdeal.τ Cert.KernelIdeal.sig (Elt F)) :
    (∀ j : Fin 100, (hostVal W (Proc.devRef .tc Cert.KernelIdeal.main_v4) : FVec F Cert.KernelIdeal.S1x100 .f32) (ix2 0 j)
        = (W (Proc.devRef .tc Cert.KernelIdeal.main_arg5) : FVec F Cert.KernelIdeal.S100 .f32) (ix1 j))
    ∧ (∀ j : Fin 1024, (hostVal W (Proc.devRef .tc Cert.KernelIdeal.main_v5) : FVec F Cert.KernelIdeal.S1x1024 .f32) (ix2 0 j)
        = (W (Proc.devRef .tc Cert.KernelIdeal.main_arg7) : FVec F Cert.KernelIdeal.S1024 .f32) (ix1 j))
    ∧ (∀ j : Fin 3072, (hostVal W (Proc.devRef .tc Cert.KernelIdeal.main_v6) : FVec F Cert.KernelIdeal.S1x3072 .f32) (ix2 0 j)
        = (W (Proc.devRef .tc Cert.KernelIdeal.main_arg10) : FVec F Cert.KernelIdeal.S3072 .f32) (ix1 j))
    ∧ (∀ j : Fin 3072, (hostVal W (Proc.devRef .tc Cert.KernelIdeal.main_v7) : FVec F Cert.KernelIdeal.S1x3072 .f32) (ix2 0 j)
        = (W (Proc.devRef .tc Cert.KernelIdeal.main_arg11) : FVec F Cert.KernelIdeal.S3072 .f32) (ix1 j))
    ∧ (∀ j : Fin 50257, (hostVal W (Proc.devRef .tc Cert.KernelIdeal.main_v8) : FVec F Cert.KernelIdeal.S1x50257 .f32) (ix2 0 j)
        = (W (Proc.devRef .tc Cert.KernelIdeal.main_arg13) : FVec F Cert.KernelIdeal.S50257 .f32) (ix1 j)) :=
  ⟨bias_row_v4 W, bias_row_v5 W, bias_row_v6 W, bias_row_v7 W, bias_row_v8 W⟩

end Cert.Bridge

end
-- ==== Proof.Bridge.RefSums.lean ====
/-
  Three stages of the reference read at an index as plain sums, at the ideal values (a float is an extended real).

  Each of the three is a row vector times the transpose of a weight matrix, plus a bias broadcast along the row:
      out[0, n] = (∑ k, v[0, k] * Wᵀ[k, n]) + b[n],   Wᵀ[k, n] = W[n, k].
  The generated module reads every operation at an index from its operands: the sum of two arrays pointwise, the
  contraction as the sum over its one contracted coordinate, the transpose at the swapped index, the broadcast bias
  at the row's coordinate. Chaining those four readings and naming the indices by their coordinates gives
      out[0, n] = (∑ k, v[0, k] * W[n, k]) + b[n].
  The row vector v (an earlier stage of the program) is never opened: the statement holds for whatever it is.
-/
import proofs.«411164_j15539191677010_3_alg».proof.Proof.RefRead
import Idealize.ShloMosaic.Lib.ValueIdx
import Idealize.ShloMosaic.PureOps.Ideal

noncomputable section

open scoped BigOperators

namespace Cert.Bridge

open Cert.ReferenceIdeal Cert.ReferenceIdeal.Read Idealize.ShloMosaic Idealize.ShloMosaic.ValueIdx

/-- The input-gate pre-activations: out[0, n] = (∑ k, v[0, k] * W_ih[n, k]) + b_ih[n]. -/
theorem gi_ref_apply (x0 : (⟨S1x1, .i32⟩ : BufTy).Contents (Elt Ideal)) (x1 : (⟨S1x1x1024, .f32⟩ : BufTy).Contents (Elt Ideal))
    (x2 : (⟨S100x1024, .f32⟩ : BufTy).Contents (Elt Ideal)) (x3 : (⟨S50257x1024, .f32⟩ : BufTy).Contents (Elt Ideal))
    (x4 : (⟨S100x2048, .f32⟩ : BufTy).Contents (Elt Ideal)) (x5 : (⟨S100, .f32⟩ : BufTy).Contents (Elt Ideal))
    (x6 : (⟨S1024x2048, .f32⟩ : BufTy).Contents (Elt Ideal)) (x7 : (⟨S1024, .f32⟩ : BufTy).Contents (Elt Ideal))
    (x8 : (⟨S3072x1024, .f32⟩ : BufTy).Contents (Elt Ideal)) (x10 : (⟨S3072, .f32⟩ : BufTy).Contents (Elt Ideal))
    (n : Fin 3072) :
    val_main_v40 (F := Ideal) x0 x1 x2 x3 x4 x5 x6 x7 x8 x10 (ix2 (0 : Fin 1) n)
      = (∑ k : Fin 1024, (val_main_v35 (F := Ideal) x0 x1 x2 x3 x4 x5 x6 x7) (ix2 (0 : Fin 1) k) * x8 (ix2 n k))
        + x10 (ix1 n) := by
  rw [val_main_v40_apply, val_main_v38_apply, val_main_v39_apply]
  generalize val_main_v35 (F := Ideal) x0 x1 x2 x3 x4 x5 x6 x7 = v
  -- the bias is read at the row's coordinate
  have eb : idx_main_v39 (ix2 (0 : Fin 1) n) = ix1 n := funext fun a => match a with | ⟨0, _⟩ => rfl
  rw [eb, Ideal.addf_def]
  congr 1
  refine Finset.sum_congr rfl fun k _ => ?_
  -- the row vector at [0, k]; the transposed weights at [k, n] are the weights at [n, k]
  have el : lidx_main_v38 (ix2 (0 : Fin 1) n) k = ix2 (0 : Fin 1) k :=
    funext fun a => match a with | ⟨0, _⟩ => rfl | ⟨1, _⟩ => rfl
  have er : idx_main_v37 (ridx_main_v38 (ix2 (0 : Fin 1) n) k) = ix2 n k :=
    funext fun a => match a with | ⟨0, _⟩ => rfl | ⟨1, _⟩ => rfl
  rw [val_main_v37_apply, el, er]

/-- The hidden-gate pre-activations: out[0, n] = (∑ k, h[0, k] * W_hh[n, k]) + b_hh[n]. -/
theorem gh_ref_apply (x1 : (⟨S1x1x1024, .f32⟩ : BufTy).Contents (Elt Ideal))
    (x9 : (⟨S3072x1024, .f32⟩ : BufTy).Contents (Elt Ideal)) (x11 : (⟨S3072, .f32⟩ : BufTy).Contents (Elt Ideal))
    (n : Fin 3072) :
    val_main_v44 (F := Ideal) x1 x9 x11 (ix2 (0 : Fin 1) n)
      = (∑ k : Fin 1024, (val_main_v36 (F := Ideal) x1) (ix2 (0 : Fin 1) k) * x9 (ix2 n k)) + x11 (ix1 n) := by
  rw [val_main_v44_apply, val_main_v42_apply, val_main_v43_apply]
  generalize val_main_v36 (F := Ideal) x1 = v
  have eb : idx_main_v43 (ix2 (0 : Fin 1) n) = ix1 n := funext fun a => match a with | ⟨0, _⟩ => rfl
  rw [eb, Ideal.addf_def]
  congr 1
  refine Finset.sum_congr rfl fun k _ => ?_
  have el : lidx_main_v42 (ix2 (0 : Fin 1) n) k = ix2 (0 : Fin 1) k :=
    funext fun a => match a with | ⟨0, _⟩ => rfl | ⟨1, _⟩ => rfl
  have er : idx_main_v41 (ridx_main_v42 (ix2 (0 : Fin 1) n) k) = ix2 n k :=
    funext fun a => match a with | ⟨0, _⟩ => rfl | ⟨1, _⟩ => rfl
  rw [val_main_v41_apply, el, er]

/-- The output logits: out[0, n] = (∑ k, h'[0, k] * W_out[n, k]) + b_out[n]. -/
theorem logits_ref_apply (x0 : (⟨S1x1, .i32⟩ : BufTy).Contents (Elt Ideal)) (x1 : (⟨S1x1x1024, .f32⟩ : BufTy).Contents (Elt Ideal))
    (x2 : (⟨S100x1024, .f32⟩ : BufTy).Contents (Elt Ideal)) (x3 : (⟨S50257x1024, .f32⟩ : BufTy).Contents (Elt Ideal))
    (x4 : (⟨S100x2048, .f32⟩ : BufTy).Contents (Elt Ideal)) (x5 : (⟨S100, .f32⟩ : BufTy).Contents (Elt Ideal))
    (x6 : (⟨S1024x2048, .f32⟩ : BufTy).Contents (Elt Ideal)) (x7 : (⟨S1024, .f32⟩ : BufTy).Contents (Elt Ideal))
    (x8 x9 : (⟨S3072x1024, .f32⟩ : BufTy).Contents (Elt Ideal)) (x10 x11 : (⟨S3072, .f32⟩ : BufTy).Contents (Elt Ideal))
    (x12 : (⟨S50257x1024, .f32⟩ : BufTy).Contents (Elt Ideal)) (x13 : (⟨S50257, .f32⟩ : BufTy).Contents (Elt Ideal))
    (n : Fin 50257) :
    val_main_v76 (F := Ideal) x0 x1 x2 x3 x4 x5 x6 x7 x8 x9 x10 x11 x12 x13 (ix2 (0 : Fin 1) n)
      = (∑ k : Fin 1024, (val_main_v72 (F := Ideal) x0 x1 x2 x3 x4 x5 x6 x7 x8 x9 x10 x11) (ix2 (0 : Fin 1) k) * x12 (ix2 n k))
        + x13 (ix1 n) := by
  rw [val_main_v76_apply, val_main_v74_apply, val_main_v75_apply]
  generalize val_main_v72 (F := Ideal) x0 x1 x2 x3 x4 x5 x6 x7 x8 x9 x10 x11 = v
  have eb : idx_main_v75 (ix2 (0 : Fin 1) n) = ix1 n := funext fun a => match a with | ⟨0, _⟩ => rfl
  rw [eb, Ideal.addf_def]
  congr 1
  refine Finset.sum_congr rfl fun k _ => ?_
  have el : lidx_main_v74 (ix2 (0 : Fin 1) n) k = ix2 (0 : Fin 1) k :=
    funext fun a => match a with | ⟨0, _⟩ => rfl | ⟨1, _⟩ => rfl
  have er : idx_main_v73 (ridx_main_v74 (ix2 (0 : Fin 1) n) k) = ix2 n k :=
    funext fun a => match a with | ⟨0, _⟩ => rfl | ⟨1, _⟩ => rfl
  rw [val_main_v73_apply, el, er]

end Cert.Bridge

end
-- ==== Proof.Bridge.Chains.lean ====
import proofs.«411164_j15539191677010_3_alg».proof.Proof.Gen.KernelIdeal.Launch
import proofs.«411164_j15539191677010_3_alg».proof.Proof.RefRead
import Idealize.ShloMosaic.Lib.StableHlo.Run
import Idealize.ShloMosaic.Lib.Pipeline.Value

/-! # The host stretches the two programs share

Between and after its three calls the kernel program applies the same element-wise operations as the reference:
the gated recurrent update of the hidden state from the two gate pre-activations (reset and update gates as
logistic functions, the candidate as a hyperbolic tangent, then the convex mix with the old state), the
logarithm of the softmax of the logits, and the reshaping of the new hidden state to rank three. Each stretch
is a congruence: equal inputs give equal outputs. -/

set_option maxRecDepth 16384

noncomputable section

namespace Cert.Bridge

open Idealize.ShloMosaic Idealize.ShloMosaic.TcCoe Idealize.SL.Sem Idealize.ShloMosaic.StableHlo
open Cert.ReferenceIdeal (S1x1 S1x1x1024 S100x1024 S50257x1024 S100x2048 S100 S1024x2048 S1024 S3072x1024 S3072 S50257)

/-- A value carried to a buffer's type and back is the value. -/
theorem ofBuf_toBuf {sig : RefSig} {T : BufTy} {Val : EltTy → Type} (x : TRef sig T) (v : T.Contents Val) :
    x.ofBuf (x.toBuf v) = v := by
  obtain ⟨r, h, _, _⟩ := x; subst h; rfl

/-- The logits' buffer and the log-probabilities' buffer have the reference's type: the transports are identities. -/
theorem ofBuf_logits (X : (⟨Cert.ReferenceIdeal.S1x50257, .f32⟩ : BufTy).Contents (Elt Ideal)) :
    (TRef.of (sig := Cert.KernelIdeal.sig) (T := ⟨Cert.KernelIdeal.S1x50257, .f32⟩) Cert.KernelIdeal.main_v39).ofBuf X = X := rfl
theorem toBuf_logp (X : (⟨Cert.ReferenceIdeal.S1x50257, .f32⟩ : BufTy).Contents (Elt Ideal)) :
    (TRef.of (sig := Cert.KernelIdeal.sig) (T := ⟨Cert.KernelIdeal.S1x50257, .f32⟩) Cert.KernelIdeal.main_v40).toBuf X = X := rfl

/-- The recurrent update: from equal gate pre-activations (input side, hidden side) and equal old hidden state,
    the kernel program's new hidden state is the reference's. Both apply, in the same order, the slices of the
    three gates, the two logistic functions, the hyperbolic tangent of the candidate and the convex mix. -/
theorem hnew_chain (W : Valuation Cert.KernelIdeal.τ Cert.KernelIdeal.sig (Elt Ideal)) (x0 : (⟨S1x1, .i32⟩ : BufTy).Contents (Elt Ideal)) (x1 : (⟨S1x1x1024, .f32⟩ : BufTy).Contents (Elt Ideal)) (x2 : (⟨S100x1024, .f32⟩ : BufTy).Contents (Elt Ideal)) (x3 : (⟨S50257x1024, .f32⟩ : BufTy).Contents (Elt Ideal)) (x4 : (⟨S100x2048, .f32⟩ : BufTy).Contents (Elt Ideal)) (x5 : (⟨S100, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal))
    (hgi : W (Proc.devRef .tc Cert.KernelIdeal.main_v10_0) = Cert.ReferenceIdeal.Read.val_main_v40 (F := Ideal) x0 x1 x2 x3 x4 x5 x6 x7 x8 x10)
    (hgh : W (Proc.devRef .tc Cert.KernelIdeal.main_v10_1) = Cert.ReferenceIdeal.Read.val_main_v44 (F := Ideal) x1 x9 x11)
    (hh : W (Proc.devRef .tc Cert.KernelIdeal.main_v3) = Cert.ReferenceIdeal.Read.val_main_v36 (F := Ideal) x1) :
    StableHlo.after (Cert.KernelIdeal.Gen.hostOps2 (F := Ideal)) W (Proc.devRef .tc Cert.KernelIdeal.main_v38)
      = Cert.ReferenceIdeal.Read.val_main_v72 (F := Ideal) x0 x1 x2 x3 x4 x5 x6 x7 x8 x9 x10 x11 := by
  after_results_simp
  rw [hgi, hgh, hh]
  unfold Cert.ReferenceIdeal.Read.val_main_v72 Cert.ReferenceIdeal.Read.val_main_v71 Cert.ReferenceIdeal.Read.val_main_v70
    Cert.ReferenceIdeal.Read.val_main_v69 Cert.ReferenceIdeal.Read.val_main_v68 Cert.ReferenceIdeal.Read.val_main_cst_12
    Cert.ReferenceIdeal.Read.val_main_v67 Cert.ReferenceIdeal.Read.val_main_v66 Cert.ReferenceIdeal.Read.val_main_v65
    Cert.ReferenceIdeal.Read.val_main_v64 Cert.ReferenceIdeal.Read.val_main_v63 Cert.ReferenceIdeal.Read.val_main_cst_11
    Cert.ReferenceIdeal.Read.val_main_v62 Cert.ReferenceIdeal.Read.val_main_v61 Cert.ReferenceIdeal.Read.val_main_cst_10
    Cert.ReferenceIdeal.Read.val_main_v60 Cert.ReferenceIdeal.Read.val_main_v59 Cert.ReferenceIdeal.Read.val_main_v58
    Cert.ReferenceIdeal.Read.val_main_v57 Cert.ReferenceIdeal.Read.val_main_v56 Cert.ReferenceIdeal.Read.val_main_cst_9
    Cert.ReferenceIdeal.Read.val_main_v55 Cert.ReferenceIdeal.Read.val_main_v54 Cert.ReferenceIdeal.Read.val_main_cst_8
    Cert.ReferenceIdeal.Read.val_main_v53 Cert.ReferenceIdeal.Read.val_main_v52 Cert.ReferenceIdeal.Read.val_main_v51
    Cert.ReferenceIdeal.Read.val_main_v50 Cert.ReferenceIdeal.Read.val_main_v49 Cert.ReferenceIdeal.Read.val_main_v48
    Cert.ReferenceIdeal.Read.val_main_v47 Cert.ReferenceIdeal.Read.val_main_v46 Cert.ReferenceIdeal.Read.val_main_v45
  generalize Cert.ReferenceIdeal.Read.val_main_v40 (F := Ideal) x0 x1 x2 x3 x4 x5 x6 x7 x8 x10 = Gi
  generalize Cert.ReferenceIdeal.Read.val_main_v44 (F := Ideal) x1 x9 x11 = Gh
  generalize Cert.ReferenceIdeal.Read.val_main_v36 (F := Ideal) x1 = H
  rfl

/-- The logits' stretch: the log-softmax the kernel program applies to its logits is the reference's, applied
    to the reference's logits. -/
theorem logp_chain (W : Valuation Cert.KernelIdeal.τ Cert.KernelIdeal.sig (Elt Ideal)) (x0 : (⟨S1x1, .i32⟩ : BufTy).Contents (Elt Ideal)) (x1 : (⟨S1x1x1024, .f32⟩ : BufTy).Contents (Elt Ideal)) (x2 : (⟨S100x1024, .f32⟩ : BufTy).Contents (Elt Ideal)) (x3 : (⟨S50257x1024, .f32⟩ : BufTy).Contents (Elt Ideal)) (x4 : (⟨S100x2048, .f32⟩ : BufTy).Contents (Elt Ideal)) (x5 : (⟨S100, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal))
    (hl : W (Proc.devRef .tc Cert.KernelIdeal.main_v39) = Cert.ReferenceIdeal.Read.val_main_v76 (F := Ideal) x0 x1 x2 x3 x4 x5 x6 x7 x8 x9 x10 x11 x12 x13) :
    StableHlo.after (Cert.KernelIdeal.Gen.hostOps3 (F := Ideal)) W (Proc.devRef .tc Cert.KernelIdeal.main_v40)
      = Cert.ReferenceIdeal.Read.val_main_v77 (F := Ideal) x0 x1 x2 x3 x4 x5 x6 x7 x8 x9 x10 x11 x12 x13 := by
  after_results
  rw [hl]
  unfold Cert.ReferenceIdeal.Read.val_main_v77 Cert.ReferenceIdeal.Read.val_main_call1_v10 Cert.ReferenceIdeal.Read.val_main_call1_v9
    Cert.ReferenceIdeal.Read.val_main_call1_v8 Cert.ReferenceIdeal.Read.val_main_call1_v7 Cert.ReferenceIdeal.Read.val_main_call1_cst_1
    Cert.ReferenceIdeal.Read.val_main_call1_v6 Cert.ReferenceIdeal.Read.val_main_call1_v5 Cert.ReferenceIdeal.Read.val_main_call1_v4
    Cert.ReferenceIdeal.Read.val_main_call1_v3 Cert.ReferenceIdeal.Read.val_main_call1_v2 Cert.ReferenceIdeal.Read.val_main_call1_v1
    Cert.ReferenceIdeal.Read.val_main_call1_cst_0 Cert.ReferenceIdeal.Read.val_main_call1_v0 Cert.ReferenceIdeal.Read.val_main_call1_cst
  generalize Cert.ReferenceIdeal.Read.val_main_v76 (F := Ideal) x0 x1 x2 x3 x4 x5 x6 x7 x8 x9 x10 x11 x12 x13 = X
  simp only [ofBuf_toBuf]
  refine (toBuf_logp _).trans ?_
  rw [ofBuf_logits X]

/-- The reshaping of the new hidden state to rank three: the kernel program inserts a leading unit axis, the
    reference broadcasts along the last two of three axes; element by element both read the entry at the
    index's last coordinate. -/
theorem hout_chain (W : Valuation Cert.KernelIdeal.τ Cert.KernelIdeal.sig (Elt Ideal)) (x0 : (⟨S1x1, .i32⟩ : BufTy).Contents (Elt Ideal)) (x1 : (⟨S1x1x1024, .f32⟩ : BufTy).Contents (Elt Ideal)) (x2 : (⟨S100x1024, .f32⟩ : BufTy).Contents (Elt Ideal)) (x3 : (⟨S50257x1024, .f32⟩ : BufTy).Contents (Elt Ideal)) (x4 : (⟨S100x2048, .f32⟩ : BufTy).Contents (Elt Ideal)) (x5 : (⟨S100, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal))
    (hn : W (Proc.devRef .tc Cert.KernelIdeal.main_v38) = Cert.ReferenceIdeal.Read.val_main_v72 (F := Ideal) x0 x1 x2 x3 x4 x5 x6 x7 x8 x9 x10 x11) :
    StableHlo.after (Cert.KernelIdeal.Gen.hostOps3_1 (F := Ideal)) W (Proc.devRef .tc Cert.KernelIdeal.main_v41)
      = Cert.ReferenceIdeal.Read.val_main_v78 (F := Ideal) x0 x1 x2 x3 x4 x5 x6 x7 x8 x9 x10 x11 := by
  after_results
  rw [hn]
  unfold Cert.ReferenceIdeal.Read.val_main_v78
  generalize Cert.ReferenceIdeal.Read.val_main_v72 (F := Ideal) x0 x1 x2 x3 x4 x5 x6 x7 x8 x9 x10 x11 = y
  funext i
  refine Eq.trans (b := y (fun a => i a.succ)) ?_ ?_
  · show shapeCast (⟨3, Matrix.vecCons 1 ![1, 1024]⟩ : Shape) y Cert.KernelIdeal.Gen.shapeCasts_S1x1024_S1x1x1024 i = _
    exact shapeCast_addUnit_apply ![1, 1024] y _ i
  · symm
    exact broadcastInDim_apply _ Cert.ReferenceIdeal.Gen.bcast_S1x1024_S1x1x1024_1_2 y i (fun a => i a.succ) (fun a => match a with
      | ⟨0, _⟩ => by
        have h1 : (i 1).val < 1 := (i 1).isLt
        show (i 1).val = if (1 : ℕ) = 1 then 0 else (i 1).val
        rw [if_pos rfl]; omega
      | ⟨1, _⟩ => by
        show (i 2).val = if (1024 : ℕ) = 1 then 0 else (i 2).val
        rw [if_neg (by decide)])

end Cert.Bridge

end
-- ==== Proof.KI.Values.lean ====
/-
  The idealized kernel program's three results, read off the last boundary of its run and identified, stage by stage,
  with the reference program's stages of the launch arguments — under the token's range 0 ≤ token < 50257.

  Going forward through @main: the gathered embedding row and the reshaped hidden state and biases are the reference's
  (the two gathers agree on a token in range); the attention region leaves softmax(cat · attn_Wᵀ + b) and
  max(cat' · comb_Wᵀ + b, 0), the reference's attention weights and rectified combination; the gate region leaves, lane n,
  Σ_k x(k) · W(n, k) + b(n) for the input and hidden halves, which is the reference's product with the transposed
  weights plus the broadcast bias; the host combines the gates by the same operations in both programs; the projection
  region leaves Σ_k h(k) · out_W(n, k) + out_b(n) on every lane inside the array, the reference's logits; and the
  log-softmax and the last reshape are again the same operations. Nothing after a result's last writer touches it.
-/
import proofs.«411164_j15539191677010_3_alg».proof.Proof.KI.Run
import proofs.«411164_j15539191677010_3_alg».proof.Proof.KI.Val1
import proofs.«411164_j15539191677010_3_alg».proof.Proof.RefRead
import proofs.«411164_j15539191677010_3_alg».proof.Proof.Bridge.Attn
import proofs.«411164_j15539191677010_3_alg».proof.Proof.Bridge.Embed
import proofs.«411164_j15539191677010_3_alg».proof.Proof.Bridge.RefSums
import proofs.«411164_j15539191677010_3_alg».proof.Proof.Bridge.Chains

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The reference reshapes the hidden state twice, by the same cast. -/
theorem v36_eq_v11 (x1 : (⟨Cert.ReferenceIdeal.S1x1x1024, .f32⟩ : BufTy).Contents (Elt Ideal)) :
    Cert.ReferenceIdeal.Read.val_main_v36 (F := Ideal) x1 = Cert.ReferenceIdeal.Read.val_main_v11 (F := Ideal) x1 := rfl

/-! ## The three results at the last boundary, as the reference's stages of the launch arguments -/

/-- The first three host stretches write no argument. -/
theorem W3_arg (c : Dev nD) (b : Ref sig .tc) (h0 : b ∉ hostOps0_W) (h1 : b ∉ hostOps0_1_W) (h2 : b ∉ hostOps0_2_W) :
    W3 m c (Proc.devRef .tc b) = m ((c : Thread nD τ).loc b) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- The attention weights, as the attention region leaves them, are the reference's. -/
theorem W4_attnw (c : Dev nD)
    (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W4 m c (Proc.devRef .tc main_v9_1) = Cert.ReferenceIdeal.Read.val_main_v27 (m ((c : Thread nD τ).loc main_arg0)) (m ((c : Thread nD τ).loc main_arg1))
      (m ((c : Thread nD τ).loc main_arg3)) (m ((c : Thread nD τ).loc main_arg4)) (m ((c : Thread nD τ).loc main_arg5)) := by
  have e2 : V3 m c main_v2 = Cert.ReferenceIdeal.Read.val_main_v10 (m ((c : Thread nD τ).loc main_arg0)) (m ((c : Thread nD τ).loc main_arg3)) :=
    Cert.Bridge.embedded_eq (W0 m c) hr
  have e3 : V3 m c main_v3 = Cert.ReferenceIdeal.Read.val_main_v11 (m ((c : Thread nD τ).loc main_arg1)) := Cert.Bridge.hidden2_eq (W0 m c)
  have e4 : V3 m c main_arg4 = m ((c : Thread nD τ).loc main_arg4) := W3_arg m c main_arg4 (by decide) (by decide) (by decide)
  refine (W4_arr m c 8).trans ?_
  rw [final0_8, e2, e3, e4]
  exact Cert.Bridge.attn_eq _ _ _ _ _ _ (fun j => Cert.Bridge.Embed.bias_row_v4 (W0 m c) j)

/-- Two arrays of one row agree when they agree along the row. -/
theorem row_ext {N : Nat} {α : Type} (f g : (⟨2, ![1, N]⟩ : Shape).Idx → α)
    (h : ∀ n : Fin N, f (ValueIdx.ix2 (0 : Fin 1) n) = g (ValueIdx.ix2 (0 : Fin 1) n)) : f = g := by
  funext i
  have h0 : i 0 = (0 : Fin 1) := Fin.ext (by have := ValueIdx.idx2_lt0 i; show (i 0).val = 0; omega)
  rw [ValueIdx.eq_ix2 i, h0]
  exact h (i 1)

/-- The attention region's first result, the combined and rectified input, is the reference's. -/
theorem W4_x2 (c : Dev nD) (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W4 m c (Proc.devRef .tc main_v9_0) = Cert.ReferenceIdeal.Read.val_main_v35 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e2 : V3 m c main_v2 = Cert.ReferenceIdeal.Read.val_main_v10 (m ((c : Thread nD τ).loc main_arg0)) (m ((c : Thread nD τ).loc main_arg3)) := Cert.Bridge.embedded_eq (W0 m c) hr
  have e3 : V3 m c main_v3 = Cert.ReferenceIdeal.Read.val_main_v11 (m ((c : Thread nD τ).loc main_arg1)) := Cert.Bridge.hidden2_eq (W0 m c)
  have e4 : V3 m c main_arg4 = (m ((c : Thread nD τ).loc main_arg4)) := W3_arg m c main_arg4 (by decide) (by decide) (by decide)
  have e5 : V3 m c main_arg2 = (m ((c : Thread nD τ).loc main_arg2)) := W3_arg m c main_arg2 (by decide) (by decide) (by decide)
  have e6 : V3 m c main_arg6 = (m ((c : Thread nD τ).loc main_arg6)) := W3_arg m c main_arg6 (by decide) (by decide) (by decide)
  refine (W4_arr m c 7).trans ?_
  rw [final0_7, e2, e3, e4, e5, e6]
  exact Cert.Bridge.x2_eq _ _ _ _ _ _ _ _ _ (fun j => Cert.Bridge.Embed.bias_row_v4 (W0 m c) j) _ (fun j => Cert.Bridge.Embed.bias_row_v5 (W0 m c) j)

/-- The gates' input half, as the gate region leaves it, is the reference's. -/
theorem W5_gi (c : Dev nD) (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W5 m c (Proc.devRef .tc main_v10_0) = Cert.ReferenceIdeal.Read.val_main_v40 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) := by
  have ex : V4 m c main_v9_0 = Cert.ReferenceIdeal.Read.val_main_v35 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W4_x2 m c hr
  have eW : V4 m c main_arg8 = (m ((c : Thread nD τ).loc main_arg8)) :=
    (W4_keep m c main_arg8 (by decide)).trans (W3_arg m c main_arg8 (by decide) (by decide) (by decide))
  have eb : V4 m c main_v6 = V3 m c main_v6 := W4_keep m c main_v6 (by decide)
  refine (W5_arr m c 6).trans ?_
  rw [final_gi, ex, eW, eb]
  refine row_ext _ _ fun n => ?_
  rw [Cert.Bridge.gi_ref_apply]
  show (∑ k : Fin 1024, _ * _) + (V3 m c main_v6) (ValueIdx.ix2 (0 : Fin 1) n) = _
  rw [show (V3 m c main_v6) (ValueIdx.ix2 (0 : Fin 1) n) = (m ((c : Thread nD τ).loc main_arg10)) (ValueIdx.ix1 n) from Cert.Bridge.Embed.bias_row_v6 (W0 m c) n]

/-- The gates' hidden half likewise. -/
theorem W5_gh (c : Dev nD) :
    W5 m c (Proc.devRef .tc main_v10_1) = Cert.ReferenceIdeal.Read.val_main_v44 (m ((c : Thread nD τ).loc main_arg1)) (m ((c : Thread nD τ).loc main_arg9)) (m ((c : Thread nD τ).loc main_arg11)) := by
  have ex : V4 m c main_v3 = Cert.ReferenceIdeal.Read.val_main_v36 (m ((c : Thread nD τ).loc main_arg1)) :=
    (W4_keep m c main_v3 (by decide)).trans ((Cert.Bridge.hidden2_eq (W0 m c)).trans (v36_eq_v11 _).symm)
  have eW : V4 m c main_arg9 = (m ((c : Thread nD τ).loc main_arg9)) :=
    (W4_keep m c main_arg9 (by decide)).trans (W3_arg m c main_arg9 (by decide) (by decide) (by decide))
  have eb : V4 m c main_v7 = V3 m c main_v7 := W4_keep m c main_v7 (by decide)
  refine (W5_arr m c 7).trans ?_
  rw [final_gh, ex, eW, eb]
  refine row_ext _ _ fun n => ?_
  rw [Cert.Bridge.gh_ref_apply]
  show (∑ k : Fin 1024, _ * _) + (V3 m c main_v7) (ValueIdx.ix2 (0 : Fin 1) n) = _
  rw [show (V3 m c main_v7) (ValueIdx.ix2 (0 : Fin 1) n) = (m ((c : Thread nD τ).loc main_arg11)) (ValueIdx.ix1 n) from Cert.Bridge.Embed.bias_row_v7 (W0 m c) n]

/-- The new hidden state, as the host combines the gates, is the reference's. -/
theorem W6_hnew (c : Dev nD) (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W6 m c (Proc.devRef .tc main_v38) = Cert.ReferenceIdeal.Read.val_main_v72 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  Cert.Bridge.hnew_chain (W5 m c) _ _ _ _ _ _ _ _ _ _ _ _ (W5_gi m c hr) (W5_gh m c)
    ((W5_keep m c main_v3 (by decide)).trans ((W4_keep m c main_v3 (by decide)).trans
      ((Cert.Bridge.hidden2_eq (W0 m c)).trans (v36_eq_v11 _).symm)))

/-- The logits, as the projection region leaves them, are the reference's. -/
theorem W7_logits (c : Dev nD) (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W7 m c (Proc.devRef .tc main_v39) = Cert.ReferenceIdeal.Read.val_main_v76 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have eh : V6 m c main_v38 = Cert.ReferenceIdeal.Read.val_main_v72 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := W6_hnew m c hr
  have eW : V6 m c main_arg12 = (m ((c : Thread nD τ).loc main_arg12)) :=
    (StableHlo.after_of_writes_sub hostOps2 _ hostOps2_writes (by decide)).trans <|
      (W5_keep m c main_arg12 (by decide)).trans <| (W4_keep m c main_arg12 (by decide)).trans
        (W3_arg m c main_arg12 (by decide) (by decide) (by decide))
  have eb : V6 m c main_v8 = V3 m c main_v8 :=
    (StableHlo.after_of_writes_sub hostOps2 _ hostOps2_writes (by decide)).trans <|
      (W5_keep m c main_v8 (by decide)).trans (W4_keep m c main_v8 (by decide))
  refine (W7_arr m c 3).trans ?_
  refine row_ext _ _ fun n => ?_
  rw [final2_3_apply, eh, eW, eb, Cert.Bridge.logits_ref_apply]
  unfold logit2
  show (∑ k : Fin 1024, _ * _) + (V3 m c main_v8) (ValueIdx.ix2 (0 : Fin 1) n) = _
  rw [show (V3 m c main_v8) (ValueIdx.ix2 (0 : Fin 1) n) = (m ((c : Thread nD τ).loc main_arg13)) (ValueIdx.ix1 n) from Cert.Bridge.Embed.bias_row_v8 (W0 m c) n]

/-- RESULT 0, the log-probabilities at the end of @main. -/
theorem W9_logp (c : Dev nD) (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W9 m c (Proc.devRef .tc main_v40) = Cert.ReferenceIdeal.Read.val_main_v77 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (StableHlo.after_of_writes_sub hostOps3_1 _ hostOps3_1_writes (by decide)).trans
    (Cert.Bridge.logp_chain (W7 m c) _ _ _ _ _ _ _ _ _ _ _ _ _ _ (W7_logits m c hr))

/-- RESULT 1, the new hidden state in its three-axis shape. -/
theorem W9_hout (c : Dev nD) (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W9 m c (Proc.devRef .tc main_v41) = Cert.ReferenceIdeal.Read.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  Cert.Bridge.hout_chain (W8 m c) _ _ _ _ _ _ _ _ _ _ _ _
    ((StableHlo.after_of_writes_sub hostOps3 _ hostOps3_writes (by decide)).trans
      ((W7_keep m c main_v38 (by decide)).trans (W6_hnew m c hr)))

/-- RESULT 2, the attention weights: nothing after the attention region touches them. -/
theorem W9_attnw (c : Dev nD) (hr : 0 ≤ ((m ((c : Thread nD τ).loc main_arg0)) (ValueIdx.ix2 (0 : Fin 1) (0 : Fin 1))).toInt ∧ ((m ((c : Thread nD τ).loc main_arg0)) (ValueIdx.ix2 (0 : Fin 1) (0 : Fin 1))).toInt < 50257) :
    W9 m c (Proc.devRef .tc main_v9_1) = Cert.ReferenceIdeal.Read.val_main_v27 (m ((c : Thread nD τ).loc main_arg0)) (m ((c : Thread nD τ).loc main_arg1)) (m ((c : Thread nD τ).loc main_arg3)) (m ((c : Thread nD τ).loc main_arg4)) (m ((c : Thread nD τ).loc main_arg5)) :=
  (StableHlo.after_of_writes_sub hostOps3_1 _ hostOps3_1_writes (by decide)).trans <|
    (StableHlo.after_of_writes_sub hostOps3 _ hostOps3_writes (by decide)).trans <|
      (W7_keep m c main_v9_1 (by decide)).trans <|
        (StableHlo.after_of_writes_sub hostOps2 _ hostOps2_writes (by decide)).trans <|
          (W5_keep m c main_v9_1 (by decide)).trans (W4_attnw m c hr)

end Cert.KernelIdeal.Hand

end
-- ==== Proof.RefChunks.lean ====
import proofs.«411164_j15539191677010_3_alg».proof.Proof.RefOps

noncomputable section

namespace Cert.ReferenceIdeal.Stages

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Operations 1 to 14 of the program. -/
abbrev opsA1 : List (HloOp τ sig (Elt F)) :=
  [ reshape main_arg0 main_v0 rfl shapeCasts_S1x1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 50257#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 1024#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The references operations 1 to 14 write. -/
abbrev wA1 : List (Ref sig .tc) := [main_v0, main_c, main_v1, main_c_0, main_v2, main_v3, main_c_1, main_c_2, main_v4, main_c_3, main_c_4, main_v5, main_c_5, main_v6]

/-- Operations 15 to 15 of the program. -/
abbrev opsA2 : List (HloOp τ sig (Elt F)) :=
  [ unaryIndexed main_arg3 ![main_v3, main_v6] ⟨S_, .i32⟩ main_v7 ((fun x i => Host.dynamicSlice S1x1024 x (fun k => (i k (Shape.Idx.first h_S_)).toInt) sliceFits_S50257x1024_S1x1024) : (⟨S50257x1024, .f32⟩ : BufTy).Contents (Elt F) → (Fin 2 → (⟨S_, .i32⟩ : BufTy).Contents (Elt F)) → (⟨S1x1024, .f32⟩ : BufTy).Contents (Elt F)) ]

/-- The references operations 15 to 15 write. -/
abbrev wA2 : List (Ref sig .tc) := [main_v7]

/-- Operations 16 to 19 of the program. -/
abbrev opsA3 : List (HloOp τ sig (Elt F)) :=
  [ reshape main_v7 main_v8 rfl shapeCasts_S1x1024_S1024,
    reshape main_v8 main_v9 rfl shapeCasts_S1024_S1x1x1024,
    reshape main_v9 main_v10 rfl shapeCasts_S1x1x1024_S1x1024,
    reshape main_arg1 main_v11 rfl shapeCasts_S1x1x1024_S1x1024 ]

/-- The references operations 16 to 19 write. -/
abbrev wA3 : List (Ref sig .tc) := [main_v8, main_v9, main_v10, main_v11]

/-- Operations 20 to 40 of the program. -/
abbrev opsB : List (HloOp τ sig (Elt F)) :=
  [ binary main_v10 main_v11 main_v12 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v13 ((transpose S2048x100 [1, 0] · transposes_S100x2048_S2048x100_1_0) : (⟨S100x2048, .f32⟩ : BufTy).Contents (Elt F) → (⟨S2048x100, .f32⟩ : BufTy).Contents (Elt F)),
    binary main_v12 main_v13 main_v14 ((fun l r => Host.dotGeneral dot_S1x2048_S2048x100_S1x100_1_0_0_1_n_n none l r) : (⟨S1x2048, .f32⟩ : BufTy).Contents (Elt F) → (⟨S2048x100, .f32⟩ : BufTy).Contents (Elt F) → (⟨S1x100, .f32⟩ : BufTy).Contents (Elt F)),
    unary main_arg5 main_v15 (broadcastInDim S1x100 ![1] bcast_S100_S1x100_1 : (⟨S100, .f32⟩ : BufTy).Contents (Elt F) → (⟨S1x100, .f32⟩ : BufTy).Contents (Elt F)),
    binary main_v14 main_v15 main_v16 (addf : (⟨S1x100, .f32⟩ : BufTy).Contents (Elt F) → (⟨S1x100, .f32⟩ : BufTy).Contents (Elt F) → (⟨S1x100, .f32⟩ : BufTy).Contents (Elt F)),
    nullary main_cst (constant S_ .f32 0xFF800000#32),
    binary main_v16 main_cst main_v17 ((fun x v => Host.reduce FloatOps.maximumf x v reducesTo_S1x100_S1_d1 h_S_) : (⟨S1x100, .f32⟩ : BufTy).Contents (Elt F) → (⟨S_, .f32⟩ : BufTy).Contents (Elt F) → (⟨S1, .f32⟩ : BufTy).Contents (Elt F)),
    nullary main_cst_6 (constant S_ .f32 0xFF800000#32),
    unary main_cst_6 main_v18 (broadcastInDim S1 ![] bcast_S_S1 : (⟨S_, .f32⟩ : BufTy).Contents (Elt F) → (⟨S1, .f32⟩ : BufTy).Contents (Elt F)),
    binary main_v18 main_v17 main_v19 (maximumf : (⟨S1, .f32⟩ : BufTy).Contents (Elt F) → (⟨S1, .f32⟩ : BufTy).Contents (Elt F) → (⟨S1, .f32⟩ : BufTy).Contents (Elt F)),
    unary main_v19 main_v20 (broadcastInDim S1x1 ![0] bcast_S1_S1x1_0 : (⟨S1, .f32⟩ : BufTy).Contents (Elt F) → (⟨S1x1, .f32⟩ : BufTy).Contents (Elt F)),
    unary main_v20 main_v21 (broadcastInDim S1x100 ![0, 1] bcast_S1x1_S1x100_0_1 : (⟨S1x1, .f32⟩ : BufTy).Contents (Elt F) → (⟨S1x100, .f32⟩ : BufTy).Contents (Elt F)),
    binary main_v16 main_v21 main_v22 (subf : (⟨S1x100, .f32⟩ : BufTy).Contents (Elt F) → (⟨S1x100, .f32⟩ : BufTy).Contents (Elt F) → (⟨S1x100, .f32⟩ : BufTy).Contents (Elt F)),
    unary main_v22 main_v23 (Host.exp : (⟨S1x100, .f32⟩ : BufTy).Contents (Elt F) → (⟨S1x100, .f32⟩ : BufTy).Contents (Elt F)),
    nullary main_cst_7 (constant S_ .f32 0x00000000#32),
    binary main_v23 main_cst_7 main_v24 ((fun x v => Host.reduceAdd x v reducesTo_S1x100_S1_d1 h_S_) : (⟨S1x100, .f32⟩ : BufTy).Contents (Elt F) → (⟨S_, .f32⟩ : BufTy).Contents (Elt F) → (⟨S1, .f32⟩ : BufTy).Contents (Elt F)),
    unary main_v24 main_v25 (broadcastInDim S1x1 ![0] bcast_S1_S1x1_0 : (⟨S1, .f32⟩ : BufTy).Contents (Elt F) → (⟨S1x1, .f32⟩ : BufTy).Contents (Elt F)),
    unary main_v25 main_v26 (broadcastInDim S1x100 ![0, 1] bcast_S1x1_S1x100_0_1 : (⟨S1x1, .f32⟩ : BufTy).Contents (Elt F) → (⟨S1x100, .f32⟩ : BufTy).Contents (Elt F)),
    binary main_v23 main_v26 main_v27 (Host.divf : (⟨S1x100, .f32⟩ : BufTy).Contents (Elt F) → (⟨S1x100, .f32⟩ : BufTy).Contents (Elt F) → (⟨S1x100, .f32⟩ : BufTy).Contents (Elt F)),
    binary main_v27 main_arg2 main_v28 ((fun l r => Host.dotGeneral dot_S1x100_S100x1024_S1x1024_1_0_0_1_n_n none l r) : (⟨S1x100, .f32⟩ : BufTy).Contents (Elt F) → (⟨S100x1024, .f32⟩ : BufTy).Contents (Elt F) → (⟨S1x1024, .f32⟩ : BufTy).Contents (Elt F)),
    reshape main_v9 main_v29 rfl shapeCasts_S1x1x1024_S1x1024 ]

/-- The references operations 20 to 40 write. -/
abbrev wB : List (Ref sig .tc) := [main_v12, main_v13, main_v14, main_v15, main_v16, main_cst, main_v17, main_cst_6, main_v18, main_v19, main_v20, main_v21, main_v22, main_v23, main_cst_7, main_v24, main_v25, main_v26, main_v27, main_v28, main_v29]

/-- Operations 41 to 48 of the program. -/
abbrev opsC : List (HloOp τ sig (Elt F)) :=
  [ binary main_v29 main_v28 main_v30 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v31 ((transpose S2048x1024 [1, 0] · transposes_S1024x2048_S2048x1024_1_0) : (⟨S1024x2048, .f32⟩ : BufTy).Contents (Elt F) → (⟨S2048x1024, .f32⟩ : BufTy).Contents (Elt F)),
    binary main_v30 main_v31 main_v32 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v33 (broadcastInDim S1x1024 ![1] bcast_S1024_S1x1024_1 : (⟨S1024, .f32⟩ : BufTy).Contents (Elt F) → (⟨S1x1024, .f32⟩ : BufTy).Contents (Elt F)),
    binary main_v32 main_v33 main_v34 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v34) (TRef.of (T := ⟨S1x1024, .f32⟩) main_call0_v0) (TRef.of (T := ⟨S1x1024, .f32⟩) main_v35) maximumf ]

/-- The references operations 41 to 48 write. -/
abbrev wC : List (Ref sig .tc) := [main_v30, main_v31, main_v32, main_v33, main_v34, main_call0_cst, main_call0_v0, main_v35]

/-- Operations 49 to 57 of the program. -/
abbrev opsD : List (HloOp τ sig (Elt F)) :=
  [ reshape main_arg1 main_v36 rfl shapeCasts_S1x1x1024_S1x1024,
    unary main_arg8 main_v37 ((transpose S1024x3072 [1, 0] · transposes_S3072x1024_S1024x3072_1_0) : (⟨S3072x1024, .f32⟩ : BufTy).Contents (Elt F) → (⟨S1024x3072, .f32⟩ : BufTy).Contents (Elt F)),
    binary main_v35 main_v37 main_v38 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v39 (broadcastInDim S1x3072 ![1] bcast_S3072_S1x3072_1 : (⟨S3072, .f32⟩ : BufTy).Contents (Elt F) → (⟨S1x3072, .f32⟩ : BufTy).Contents (Elt F)),
    binary main_v38 main_v39 main_v40 (addf : (⟨S1x3072, .f32⟩ : BufTy).Contents (Elt F) → (⟨S1x3072, .f32⟩ : BufTy).Contents (Elt F) → (⟨S1x3072, .f32⟩ : BufTy).Contents (Elt F)),
    unary main_arg9 main_v41 ((transpose S1024x3072 [1, 0] · transposes_S3072x1024_S1024x3072_1_0) : (⟨S3072x1024, .f32⟩ : BufTy).Contents (Elt F) → (⟨S1024x3072, .f32⟩ : BufTy).Contents (Elt F)),
    binary main_v36 main_v41 main_v42 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v43 (broadcastInDim S1x3072 ![1] bcast_S3072_S1x3072_1 : (⟨S3072, .f32⟩ : BufTy).Contents (Elt F) → (⟨S1x3072, .f32⟩ : BufTy).Contents (Elt F)),
    binary main_v42 main_v43 main_v44 (addf : (⟨S1x3072, .f32⟩ : BufTy).Contents (Elt F) → (⟨S1x3072, .f32⟩ : BufTy).Contents (Elt F) → (⟨S1x3072, .f32⟩ : BufTy).Contents (Elt F)) ]

/-- The references operations 49 to 57 write. -/
abbrev wD : List (Ref sig .tc) := [main_v36, main_v37, main_v38, main_v39, main_v40, main_v41, main_v42, main_v43, main_v44]

/-- Operations 58 to 90 of the program. -/
abbrev opsE : List (HloOp τ sig (Elt F)) :=
  [ unary main_v40 main_v45 ((extractStridedSlice S1x1024 ![0, 0] · slices_S1x3072_S1x1024_0_0) : (⟨S1x3072, .f32⟩ : BufTy).Contents (Elt F) → (⟨S1x1024, .f32⟩ : BufTy).Contents (Elt F)),
    unary main_v40 main_v46 ((extractStridedSlice S1x1024 ![0, 1024] · slices_S1x3072_S1x1024_0_1024) : (⟨S1x3072, .f32⟩ : BufTy).Contents (Elt F) → (⟨S1x1024, .f32⟩ : BufTy).Contents (Elt F)),
    unary main_v40 main_v47 ((extractStridedSlice S1x1024 ![0, 2048] · slices_S1x3072_S1x1024_0_2048) : (⟨S1x3072, .f32⟩ : BufTy).Contents (Elt F) → (⟨S1x1024, .f32⟩ : BufTy).Contents (Elt F)),
    unary main_v44 main_v48 ((extractStridedSlice S1x1024 ![0, 0] · slices_S1x3072_S1x1024_0_0) : (⟨S1x3072, .f32⟩ : BufTy).Contents (Elt F) → (⟨S1x1024, .f32⟩ : BufTy).Contents (Elt F)),
    unary main_v44 main_v49 ((extractStridedSlice S1x1024 ![0, 1024] · slices_S1x3072_S1x1024_0_1024) : (⟨S1x3072, .f32⟩ : BufTy).Contents (Elt F) → (⟨S1x1024, .f32⟩ : BufTy).Contents (Elt F)),
    unary main_v44 main_v50 ((extractStridedSlice S1x1024 ![0, 2048] · slices_S1x3072_S1x1024_0_2048) : (⟨S1x3072, .f32⟩ : BufTy).Contents (Elt F) → (⟨S1x1024, .f32⟩ : BufTy).Contents (Elt F)),
    binary main_v45 main_v48 main_v51 (addf : (⟨S1x1024, .f32⟩ : BufTy).Contents (Elt F) → (⟨S1x1024, .f32⟩ : BufTy).Contents (Elt F) → (⟨S1x1024, .f32⟩ : BufTy).Contents (Elt F)),
    unary main_v51 main_v52 (Host.negf : (⟨S1x1024, .f32⟩ : BufTy).Contents (Elt F) → (⟨S1x1024, .f32⟩ : BufTy).Contents (Elt F)),
    unary main_v52 main_v53 (Host.exp : (⟨S1x1024, .f32⟩ : BufTy).Contents (Elt F) → (⟨S1x1024, .f32⟩ : BufTy).Contents (Elt F)),
    nullary main_cst_8 (constant S_ .f32 0x3F800000#32),
    unary main_cst_8 main_v54 (broadcastInDim S1x1024 ![] bcast_S_S1x1024 : (⟨S_, .f32⟩ : BufTy).Contents (Elt F) → (⟨S1x1024, .f32⟩ : BufTy).Contents (Elt F)),
    binary main_v54 main_v53 main_v55 (addf : (⟨S1x1024, .f32⟩ : BufTy).Contents (Elt F) → (⟨S1x1024, .f32⟩ : BufTy).Contents (Elt F) → (⟨S1x1024, .f32⟩ : BufTy).Contents (Elt F)),
    nullary main_cst_9 (constant S_ .f32 0x3F800000#32),
    unary main_cst_9 main_v56 (broadcastInDim S1x1024 ![] bcast_S_S1x1024 : (⟨S_, .f32⟩ : BufTy).Contents (Elt F) → (⟨S1x1024, .f32⟩ : BufTy).Contents (Elt F)),
    binary main_v56 main_v55 main_v57 (Host.divf : (⟨S1x1024, .f32⟩ : BufTy).Contents (Elt F) → (⟨S1x1024, .f32⟩ : BufTy).Contents (Elt F) → (⟨S1x1024, .f32⟩ : BufTy).Contents (Elt F)),
    binary main_v46 main_v49 main_v58 (addf : (⟨S1x1024, .f32⟩ : BufTy).Contents (Elt F) → (⟨S1x1024, .f32⟩ : BufTy).Contents (Elt F) → (⟨S1x1024, .f32⟩ : BufTy).Contents (Elt F)),
    unary main_v58 main_v59 (Host.negf : (⟨S1x1024, .f32⟩ : BufTy).Contents (Elt F) → (⟨S1x1024, .f32⟩ : BufTy).Contents (Elt F)),
    unary main_v59 main_v60 (Host.exp : (⟨S1x1024, .f32⟩ : BufTy).Contents (Elt F) → (⟨S1x1024, .f32⟩ : BufTy).Contents (Elt F)),
    nullary main_cst_10 (constant S_ .f32 0x3F800000#32),
    unary main_cst_10 main_v61 (broadcastInDim S1x1024 ![] bcast_S_S1x1024 : (⟨S_, .f32⟩ : BufTy).Contents (Elt F) → (⟨S1x1024, .f32⟩ : BufTy).Contents (Elt F)),
    binary main_v61 main_v60 main_v62 (addf : (⟨S1x1024, .f32⟩ : BufTy).Contents (Elt F) → (⟨S1x1024, .f32⟩ : BufTy).Contents (Elt F) → (⟨S1x1024, .f32⟩ : BufTy).Contents (Elt F)),
    nullary main_cst_11 (constant S_ .f32 0x3F800000#32),
    unary main_cst_11 main_v63 (broadcastInDim S1x1024 ![] bcast_S_S1x1024 : (⟨S_, .f32⟩ : BufTy).Contents (Elt F) → (⟨S1x1024, .f32⟩ : BufTy).Contents (Elt F)),
    binary main_v63 main_v62 main_v64 (Host.divf : (⟨S1x1024, .f32⟩ : BufTy).Contents (Elt F) → (⟨S1x1024, .f32⟩ : BufTy).Contents (Elt F) → (⟨S1x1024, .f32⟩ : BufTy).Contents (Elt F)),
    binary main_v57 main_v50 main_v65 (mulf : (⟨S1x1024, .f32⟩ : BufTy).Contents (Elt F) → (⟨S1x1024, .f32⟩ : BufTy).Contents (Elt F) → (⟨S1x1024, .f32⟩ : BufTy).Contents (Elt F)),
    binary main_v47 main_v65 main_v66 (addf : (⟨S1x1024, .f32⟩ : BufTy).Contents (Elt F) → (⟨S1x1024, .f32⟩ : BufTy).Contents (Elt F) → (⟨S1x1024, .f32⟩ : BufTy).Contents (Elt F)),
    unary main_v66 main_v67 (Host.tanh : (⟨S1x1024, .f32⟩ : BufTy).Contents (Elt F) → (⟨S1x1024, .f32⟩ : BufTy).Contents (Elt F)),
    nullary main_cst_12 (constant S_ .f32 0x3F800000#32),
    unary main_cst_12 main_v68 (broadcastInDim S1x1024 ![] bcast_S_S1x1024 : (⟨S_, .f32⟩ : BufTy).Contents (Elt F) → (⟨S1x1024, .f32⟩ : BufTy).Contents (Elt F)),
    binary main_v68 main_v64 main_v69 (subf : (⟨S1x1024, .f32⟩ : BufTy).Contents (Elt F) → (⟨S1x1024, .f32⟩ : BufTy).Contents (Elt F) → (⟨S1x1024, .f32⟩ : BufTy).Contents (Elt F)),
    binary main_v69 main_v67 main_v70 (mulf : (⟨S1x1024, .f32⟩ : BufTy).Contents (Elt F) → (⟨S1x1024, .f32⟩ : BufTy).Contents (Elt F) → (⟨S1x1024, .f32⟩ : BufTy).Contents (Elt F)),
    binary main_v64 main_v36 main_v71 (mulf : (⟨S1x1024, .f32⟩ : BufTy).Contents (Elt F) → (⟨S1x1024, .f32⟩ : BufTy).Contents (Elt F) → (⟨S1x1024, .f32⟩ : BufTy).Contents (Elt F)),
    binary main_v70 main_v71 main_v72 (addf : (⟨S1x1024, .f32⟩ : BufTy).Contents (Elt F) → (⟨S1x1024, .f32⟩ : BufTy).Contents (Elt F) → (⟨S1x1024, .f32⟩ : BufTy).Contents (Elt F)) ]

/-- The references operations 58 to 90 write. -/
abbrev wE : List (Ref sig .tc) := [main_v45, main_v46, main_v47, main_v48, main_v49, main_v50, main_v51, main_v52, main_v53, main_cst_8, main_v54, main_v55, main_cst_9, main_v56, main_v57, main_v58, main_v59, main_v60, main_cst_10, main_v61, main_v62, main_cst_11, main_v63, main_v64, main_v65, main_v66, main_v67, main_cst_12, main_v68, main_v69, main_v70, main_v71, main_v72]

/-- Operations 91 to 110 of the program. -/
abbrev opsF : List (HloOp τ sig (Elt F)) :=
  [ unary main_arg12 main_v73 ((transpose S1024x50257 [1, 0] · transposes_S50257x1024_S1024x50257_1_0) : (⟨S50257x1024, .f32⟩ : BufTy).Contents (Elt F) → (⟨S1024x50257, .f32⟩ : BufTy).Contents (Elt F)),
    binary main_v72 main_v73 main_v74 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v75 (broadcastInDim S1x50257 ![1] bcast_S50257_S1x50257_1 : (⟨S50257, .f32⟩ : BufTy).Contents (Elt F) → (⟨S1x50257, .f32⟩ : BufTy).Contents (Elt F)),
    binary main_v74 main_v75 main_v76 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v76) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v76) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v77) subf,
    unary main_v72 main_v78 (broadcastInDim S1x1x1024 ![1, 2] bcast_S1x1024_S1x1x1024_1_2 : (⟨S1x1024, .f32⟩ : BufTy).Contents (Elt F) → (⟨S1x1x1024, .f32⟩ : BufTy).Contents (Elt F)) ]

/-- The references operations 91 to 110 write. -/
abbrev wF : List (Ref sig .tc) := [main_v73, main_v74, main_v75, main_v76, main_call1_cst, main_call1_v0, main_call1_cst_0, main_call1_v1, main_call1_v2, main_call1_v3, main_call1_v4, main_call1_v5, main_call1_v6, main_call1_cst_1, main_call1_v7, main_call1_v8, main_call1_v9, main_call1_v10, main_v77, main_v78]

end Cert.ReferenceIdeal.Stages

end
-- ==== Proof.RefRun.lean ====
/-
  The reference program's run, read stretch by stretch. The program is a straight line of 110 host operations, and
  every execution ends with each buffer at the fold of the operations' results over the launch contents. The fold is
  read here in eight stretches cut at the natural boundaries of the computation: the token's index arithmetic; the
  gather of the embedding row; its reshapes; the attention softmax and the weighted sum of the encoder rows; the
  combination layer with its rectifier; the two gate projections; the gate arithmetic that gives the new hidden
  state; the vocabulary projection with its log-softmax.
  For each stretch: the list of buffers it writes, so that every other buffer keeps its contents across it; and, for
  the few buffers that later stretches read, that the stretch leaves them at the stage function of the program's
  arguments, provided the buffers it reads hold theirs. A stage function is the composition of the operations up to
  that buffer, shared subterms kept folded, so each statement is small. Chaining the stretches gives the three
  results as stage functions of the arguments, and every argument unchanged.
-/
import proofs.«411164_j15539191677010_3_alg».proof.Proof.RefChunks
import proofs.«411164_j15539191677010_3_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

set_option maxRecDepth 8192 in
/-- No operation of the program allocates: each determines its results. -/
theorem ops_fresh : (ops : List (HloOp τ sig (Elt F))).Forall fun op => op.fresh = ∅ := by
  simp only [List.Forall]; repeat' constructor

/-- Every operation of the stretch writes one reference of the stretch's list. -/
theorem opsA1_writes : (opsA1 : List (HloOp τ sig (Elt F))).Forall fun op => op.writes ⊆ (wA1.map (Proc.devRef (τ := τ) .tc)).toFinset := by
  simp only [List.Forall]
  refine ⟨?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepA1 (W : Valuation τ sig (Elt F)) (r : Ref sig .tc) (hr : r ∉ wA1) :
    after opsA1 W (Proc.devRef .tc r) = W (Proc.devRef .tc r) :=
  after_of_writes_sub opsA1 W opsA1_writes hr

/-- Every operation of the stretch writes one reference of the stretch's list. -/
theorem opsA2_writes : (opsA2 : List (HloOp τ sig (Elt F))).Forall fun op => op.writes ⊆ (wA2.map (Proc.devRef (τ := τ) .tc)).toFinset := by
  simp only [List.Forall]
  exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepA2 (W : Valuation τ sig (Elt F)) (r : Ref sig .tc) (hr : r ∉ wA2) :
    after opsA2 W (Proc.devRef .tc r) = W (Proc.devRef .tc r) :=
  after_of_writes_sub opsA2 W opsA2_writes hr

/-- Every operation of the stretch writes one reference of the stretch's list. -/
theorem opsA3_writes : (opsA3 : List (HloOp τ sig (Elt F))).Forall fun op => op.writes ⊆ (wA3.map (Proc.devRef (τ := τ) .tc)).toFinset := by
  simp only [List.Forall]
  refine ⟨?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepA3 (W : Valuation τ sig (Elt F)) (r : Ref sig .tc) (hr : r ∉ wA3) :
    after opsA3 W (Proc.devRef .tc r) = W (Proc.devRef .tc r) :=
  after_of_writes_sub opsA3 W opsA3_writes hr

/-- Every operation of the stretch writes one reference of the stretch's list. -/
theorem opsB_writes : (opsB : List (HloOp τ sig (Elt F))).Forall fun op => op.writes ⊆ (wB.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepB (W : Valuation τ sig (Elt F)) (r : Ref sig .tc) (hr : r ∉ wB) :
    after opsB W (Proc.devRef .tc r) = W (Proc.devRef .tc r) :=
  after_of_writes_sub opsB W opsB_writes hr

/-- Every operation of the stretch writes one reference of the stretch's list. -/
theorem opsC_writes : (opsC : List (HloOp τ sig (Elt F))).Forall fun op => op.writes ⊆ (wC.map (Proc.devRef (τ := τ) .tc)).toFinset := by
  simp only [List.Forall]
  refine ⟨?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepC (W : Valuation τ sig (Elt F)) (r : Ref sig .tc) (hr : r ∉ wC) :
    after opsC W (Proc.devRef .tc r) = W (Proc.devRef .tc r) :=
  after_of_writes_sub opsC W opsC_writes hr

/-- Every operation of the stretch writes one reference of the stretch's list. -/
theorem opsD_writes : (opsD : List (HloOp τ sig (Elt F))).Forall fun op => op.writes ⊆ (wD.map (Proc.devRef (τ := τ) .tc)).toFinset := by
  simp only [List.Forall]
  refine ⟨?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepD (W : Valuation τ sig (Elt F)) (r : Ref sig .tc) (hr : r ∉ wD) :
    after opsD W (Proc.devRef .tc r) = W (Proc.devRef .tc r) :=
  after_of_writes_sub opsD W opsD_writes hr

/-- Every operation of the stretch writes one reference of the stretch's list. -/
theorem opsE_writes : (opsE : List (HloOp τ sig (Elt F))).Forall fun op => op.writes ⊆ (wE.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepE (W : Valuation τ sig (Elt F)) (r : Ref sig .tc) (hr : r ∉ wE) :
    after opsE W (Proc.devRef .tc r) = W (Proc.devRef .tc r) :=
  after_of_writes_sub opsE W opsE_writes hr

/-- Every operation of the stretch writes one reference of the stretch's list. -/
theorem opsF_writes : (opsF : List (HloOp τ sig (Elt F))).Forall fun op => op.writes ⊆ (wF.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write keeps its contents across it. -/
theorem keepF (W : Valuation τ sig (Elt F)) (r : Ref sig .tc) (hr : r ∉ wF) :
    after opsF W (Proc.devRef .tc r) = W (Proc.devRef .tc r) :=
  after_of_writes_sub opsF W opsF_writes hr

/-- Contents carried to a typed reference's buffer and back are unchanged. -/
theorem ofBuf_toBuf {T : BufTy} (x : TRef sig T) (v : T.Contents (Elt F)) : x.ofBuf (x.toBuf v) = v := by
  obtain ⟨r, h, h1, h2⟩ := x
  subst h
  rfl

/-- Reading the projection's sum through its typed reference changes nothing: the two types are one. -/
theorem ofBuf_v76 (v : (main_v76.ty).Contents (Elt F)) : (TRef.of (T := ⟨S1x50257, .f32⟩) main_v76).ofBuf v = v := rfl

/-- Writing the log-probabilities through their typed reference changes nothing: the two types are one. -/
theorem toBuf_v77 (v : (⟨S1x50257, .f32⟩ : BufTy).Contents (Elt F)) : (TRef.of (T := ⟨S1x50257, .f32⟩) main_v77).toBuf v = v := rfl

/-- The stretch leaves `main_v3` at its stage function of the arguments, when the buffers it reads hold theirs. -/
theorem A1_v3 (W : Valuation τ sig (Elt F)) {x0 : (⟨S1x1, .i32⟩ : BufTy).Contents (Elt F)}
    (ha0 : W (Proc.devRef .tc main_arg0) = x0) :
    after opsA1 W (Proc.devRef .tc main_v3) = val_main_v3 (F := F) x0 := by
  after_results_simp
  try rw [ha0]
  rfl

/-- The stretch leaves `main_v6` at its stage function of the arguments, when the buffers it reads hold theirs. -/
theorem A1_v6 (W : Valuation τ sig (Elt F))  :
    after opsA1 W (Proc.devRef .tc main_v6) = val_main_v6 (F := F) := by
  after_results_simp
  rfl

/-- The stretch leaves `main_v7` at its stage function of the arguments, when the buffers it reads hold theirs. -/
theorem A2_v7 (W : Valuation τ sig (Elt F)) {x0 : (⟨S1x1, .i32⟩ : BufTy).Contents (Elt F)} {x3 : (⟨S50257x1024, .f32⟩ : BufTy).Contents (Elt F)}
    (hv3 : W (Proc.devRef .tc main_v3) = val_main_v3 (F := F) x0)
    (hv6 : W (Proc.devRef .tc main_v6) = val_main_v6 (F := F))
    (ha3 : W (Proc.devRef .tc main_arg3) = x3) :
    after opsA2 W (Proc.devRef .tc main_v7) = val_main_v7 (F := F) x0 x3 := by
  unfold val_main_v7
  after_results_simp
  rw [ha3]
  congr 1
  funext k
  fin_cases k
  · show ((W (Proc.devRef .tc main_v3)) (Shape.Idx.first h_S_)).toInt = ((val_main_v3 (F := F) x0) (Shape.Idx.first h_S_)).toInt
    rw [hv3]
  · show ((W (Proc.devRef .tc main_v6)) (Shape.Idx.first h_S_)).toInt = ((val_main_v6 (F := F)) (Shape.Idx.first h_S_)).toInt
    rw [hv6]

/-- The stretch leaves `main_v9` at its stage function of the arguments, when the buffers it reads hold theirs. -/
theorem A3_v9 (W : Valuation τ sig (Elt F)) {x0 : (⟨S1x1, .i32⟩ : BufTy).Contents (Elt F)} {x3 : (⟨S50257x1024, .f32⟩ : BufTy).Contents (Elt F)}
    (hv7 : W (Proc.devRef .tc main_v7) = val_main_v7 (F := F) x0 x3) :
    after opsA3 W (Proc.devRef .tc main_v9) = val_main_v9 (F := F) x0 x3 := by
  after_results_simp
  try rw [hv7]
  rfl

/-- The stretch leaves `main_v10` at its stage function of the arguments, when the buffers it reads hold theirs. -/
theorem A3_v10 (W : Valuation τ sig (Elt F)) {x0 : (⟨S1x1, .i32⟩ : BufTy).Contents (Elt F)} {x3 : (⟨S50257x1024, .f32⟩ : BufTy).Contents (Elt F)}
    (hv7 : W (Proc.devRef .tc main_v7) = val_main_v7 (F := F) x0 x3) :
    after opsA3 W (Proc.devRef .tc main_v10) = val_main_v10 (F := F) x0 x3 := by
  after_results_simp
  try rw [hv7]
  rfl

/-- The stretch leaves `main_v11` at its stage function of the arguments, when the buffers it reads hold theirs. -/
theorem A3_v11 (W : Valuation τ sig (Elt F)) {x1 : (⟨S1x1x1024, .f32⟩ : BufTy).Contents (Elt F)}
    (ha1 : W (Proc.devRef .tc main_arg1) = x1) :
    after opsA3 W (Proc.devRef .tc main_v11) = val_main_v11 (F := F) x1 := by
  after_results_simp
  try rw [ha1]
  rfl

/-- The stretch leaves `main_v27` at its stage function of the arguments, when the buffers it reads hold theirs. -/
theorem B_v27 (W : Valuation τ sig (Elt F)) {x0 : (⟨S1x1, .i32⟩ : BufTy).Contents (Elt F)} {x1 : (⟨S1x1x1024, .f32⟩ : BufTy).Contents (Elt F)} {x3 : (⟨S50257x1024, .f32⟩ : BufTy).Contents (Elt F)} {x4 : (⟨S100x2048, .f32⟩ : BufTy).Contents (Elt F)} {x5 : (⟨S100, .f32⟩ : BufTy).Contents (Elt F)}
    (hv10 : W (Proc.devRef .tc main_v10) = val_main_v10 (F := F) x0 x3)
    (hv11 : W (Proc.devRef .tc main_v11) = val_main_v11 (F := F) x1)
    (ha4 : W (Proc.devRef .tc main_arg4) = x4)
    (ha5 : W (Proc.devRef .tc main_arg5) = x5) :
    after opsB W (Proc.devRef .tc main_v27) = val_main_v27 (F := F) x0 x1 x3 x4 x5 := by
  after_results_simp
  try rw [hv10]
  try rw [hv11]
  try rw [ha4]
  try rw [ha5]
  rfl

/-- The stretch leaves `main_v28` at its stage function of the arguments, when the buffers it reads hold theirs. -/
theorem B_v28 (W : Valuation τ sig (Elt F)) {x0 : (⟨S1x1, .i32⟩ : BufTy).Contents (Elt F)} {x1 : (⟨S1x1x1024, .f32⟩ : BufTy).Contents (Elt F)} {x2 : (⟨S100x1024, .f32⟩ : BufTy).Contents (Elt F)} {x3 : (⟨S50257x1024, .f32⟩ : BufTy).Contents (Elt F)} {x4 : (⟨S100x2048, .f32⟩ : BufTy).Contents (Elt F)} {x5 : (⟨S100, .f32⟩ : BufTy).Contents (Elt F)}
    (hv10 : W (Proc.devRef .tc main_v10) = val_main_v10 (F := F) x0 x3)
    (hv11 : W (Proc.devRef .tc main_v11) = val_main_v11 (F := F) x1)
    (ha2 : W (Proc.devRef .tc main_arg2) = x2)
    (ha4 : W (Proc.devRef .tc main_arg4) = x4)
    (ha5 : W (Proc.devRef .tc main_arg5) = x5) :
    after opsB W (Proc.devRef .tc main_v28) = val_main_v28 (F := F) x0 x1 x2 x3 x4 x5 := by
  after_results_simp
  try rw [hv10]
  try rw [hv11]
  try rw [ha2]
  try rw [ha4]
  try rw [ha5]
  rfl

/-- The stretch leaves `main_v29` at its stage function of the arguments, when the buffers it reads hold theirs. -/
theorem B_v29 (W : Valuation τ sig (Elt F)) {x0 : (⟨S1x1, .i32⟩ : BufTy).Contents (Elt F)} {x3 : (⟨S50257x1024, .f32⟩ : BufTy).Contents (Elt F)}
    (hv9 : W (Proc.devRef .tc main_v9) = val_main_v9 (F := F) x0 x3) :
    after opsB W (Proc.devRef .tc main_v29) = val_main_v29 (F := F) x0 x3 := by
  after_results_simp
  try rw [hv9]
  rfl

/-- The stretch leaves `main_v35` at its stage function of the arguments, when the buffers it reads hold theirs. -/
theorem C_v35 (W : Valuation τ sig (Elt F)) {x0 : (⟨S1x1, .i32⟩ : BufTy).Contents (Elt F)} {x1 : (⟨S1x1x1024, .f32⟩ : BufTy).Contents (Elt F)} {x2 : (⟨S100x1024, .f32⟩ : BufTy).Contents (Elt F)} {x3 : (⟨S50257x1024, .f32⟩ : BufTy).Contents (Elt F)} {x4 : (⟨S100x2048, .f32⟩ : BufTy).Contents (Elt F)} {x5 : (⟨S100, .f32⟩ : BufTy).Contents (Elt F)} {x6 : (⟨S1024x2048, .f32⟩ : BufTy).Contents (Elt F)} {x7 : (⟨S1024, .f32⟩ : BufTy).Contents (Elt F)}
    (hv28 : W (Proc.devRef .tc main_v28) = val_main_v28 (F := F) x0 x1 x2 x3 x4 x5)
    (hv29 : W (Proc.devRef .tc main_v29) = val_main_v29 (F := F) x0 x3)
    (ha6 : W (Proc.devRef .tc main_arg6) = x6)
    (ha7 : W (Proc.devRef .tc main_arg7) = x7) :
    after opsC W (Proc.devRef .tc main_v35) = val_main_v35 (F := F) x0 x1 x2 x3 x4 x5 x6 x7 := by
  after_results_simp
  try simp only [TRef.ofBuf, TRef.toBuf, cast_eq]
  try rw [hv28]
  try rw [hv29]
  try rw [ha6]
  try rw [ha7]
  rfl

/-- The stretch leaves `main_v36` at its stage function of the arguments, when the buffers it reads hold theirs. -/
theorem D_v36 (W : Valuation τ sig (Elt F)) {x1 : (⟨S1x1x1024, .f32⟩ : BufTy).Contents (Elt F)}
    (ha1 : W (Proc.devRef .tc main_arg1) = x1) :
    after opsD W (Proc.devRef .tc main_v36) = val_main_v36 (F := F) x1 := by
  after_results_simp
  try rw [ha1]
  rfl

/-- The stretch leaves `main_v40` at its stage function of the arguments, when the buffers it reads hold theirs. -/
theorem D_v40 (W : Valuation τ sig (Elt F)) {x0 : (⟨S1x1, .i32⟩ : BufTy).Contents (Elt F)} {x1 : (⟨S1x1x1024, .f32⟩ : BufTy).Contents (Elt F)} {x2 : (⟨S100x1024, .f32⟩ : BufTy).Contents (Elt F)} {x3 : (⟨S50257x1024, .f32⟩ : BufTy).Contents (Elt F)} {x4 : (⟨S100x2048, .f32⟩ : BufTy).Contents (Elt F)} {x5 : (⟨S100, .f32⟩ : BufTy).Contents (Elt F)} {x6 : (⟨S1024x2048, .f32⟩ : BufTy).Contents (Elt F)} {x7 : (⟨S1024, .f32⟩ : BufTy).Contents (Elt F)} {x8 : (⟨S3072x1024, .f32⟩ : BufTy).Contents (Elt F)} {x10 : (⟨S3072, .f32⟩ : BufTy).Contents (Elt F)}
    (hv35 : W (Proc.devRef .tc main_v35) = val_main_v35 (F := F) x0 x1 x2 x3 x4 x5 x6 x7)
    (ha8 : W (Proc.devRef .tc main_arg8) = x8)
    (ha10 : W (Proc.devRef .tc main_arg10) = x10) :
    after opsD W (Proc.devRef .tc main_v40) = val_main_v40 (F := F) x0 x1 x2 x3 x4 x5 x6 x7 x8 x10 := by
  after_results_simp
  try rw [hv35]
  try rw [ha8]
  try rw [ha10]
  rfl

/-- The stretch leaves `main_v44` at its stage function of the arguments, when the buffers it reads hold theirs. -/
theorem D_v44 (W : Valuation τ sig (Elt F)) {x1 : (⟨S1x1x1024, .f32⟩ : BufTy).Contents (Elt F)} {x9 : (⟨S3072x1024, .f32⟩ : BufTy).Contents (Elt F)} {x11 : (⟨S3072, .f32⟩ : BufTy).Contents (Elt F)}
    (ha1 : W (Proc.devRef .tc main_arg1) = x1)
    (ha9 : W (Proc.devRef .tc main_arg9) = x9)
    (ha11 : W (Proc.devRef .tc main_arg11) = x11) :
    after opsD W (Proc.devRef .tc main_v44) = val_main_v44 (F := F) x1 x9 x11 := by
  after_results_simp
  try rw [ha1]
  try rw [ha9]
  try rw [ha11]
  rfl

/-- The stretch leaves `main_v72` at its stage function of the arguments, when the buffers it reads hold theirs. -/
theorem E_v72 (W : Valuation τ sig (Elt F)) {x0 : (⟨S1x1, .i32⟩ : BufTy).Contents (Elt F)} {x1 : (⟨S1x1x1024, .f32⟩ : BufTy).Contents (Elt F)} {x2 : (⟨S100x1024, .f32⟩ : BufTy).Contents (Elt F)} {x3 : (⟨S50257x1024, .f32⟩ : BufTy).Contents (Elt F)} {x4 : (⟨S100x2048, .f32⟩ : BufTy).Contents (Elt F)} {x5 : (⟨S100, .f32⟩ : BufTy).Contents (Elt F)} {x6 : (⟨S1024x2048, .f32⟩ : BufTy).Contents (Elt F)} {x7 : (⟨S1024, .f32⟩ : BufTy).Contents (Elt F)} {x8 : (⟨S3072x1024, .f32⟩ : BufTy).Contents (Elt F)} {x9 : (⟨S3072x1024, .f32⟩ : BufTy).Contents (Elt F)} {x10 : (⟨S3072, .f32⟩ : BufTy).Contents (Elt F)} {x11 : (⟨S3072, .f32⟩ : BufTy).Contents (Elt F)}
    (hv36 : W (Proc.devRef .tc main_v36) = val_main_v36 (F := F) x1)
    (hv40 : W (Proc.devRef .tc main_v40) = val_main_v40 (F := F) x0 x1 x2 x3 x4 x5 x6 x7 x8 x10)
    (hv44 : W (Proc.devRef .tc main_v44) = val_main_v44 (F := F) x1 x9 x11) :
    after opsE W (Proc.devRef .tc main_v72) = val_main_v72 (F := F) x0 x1 x2 x3 x4 x5 x6 x7 x8 x9 x10 x11 := by
  after_results_simp
  try rw [hv36]
  try rw [hv40]
  try rw [hv44]
  rfl

/-- The stretch leaves `main_v77` at its stage function of the arguments, when the buffers it reads hold theirs. -/
theorem F_v77 (W : Valuation τ sig (Elt F)) {x0 : (⟨S1x1, .i32⟩ : BufTy).Contents (Elt F)} {x1 : (⟨S1x1x1024, .f32⟩ : BufTy).Contents (Elt F)} {x2 : (⟨S100x1024, .f32⟩ : BufTy).Contents (Elt F)} {x3 : (⟨S50257x1024, .f32⟩ : BufTy).Contents (Elt F)} {x4 : (⟨S100x2048, .f32⟩ : BufTy).Contents (Elt F)} {x5 : (⟨S100, .f32⟩ : BufTy).Contents (Elt F)} {x6 : (⟨S1024x2048, .f32⟩ : BufTy).Contents (Elt F)} {x7 : (⟨S1024, .f32⟩ : BufTy).Contents (Elt F)} {x8 : (⟨S3072x1024, .f32⟩ : BufTy).Contents (Elt F)} {x9 : (⟨S3072x1024, .f32⟩ : BufTy).Contents (Elt F)} {x10 : (⟨S3072, .f32⟩ : BufTy).Contents (Elt F)} {x11 : (⟨S3072, .f32⟩ : BufTy).Contents (Elt F)} {x12 : (⟨S50257x1024, .f32⟩ : BufTy).Contents (Elt F)} {x13 : (⟨S50257, .f32⟩ : BufTy).Contents (Elt F)}
    (hv72 : W (Proc.devRef .tc main_v72) = val_main_v72 (F := F) x0 x1 x2 x3 x4 x5 x6 x7 x8 x9 x10 x11)
    (ha12 : W (Proc.devRef .tc main_arg12) = x12)
    (ha13 : W (Proc.devRef .tc main_arg13) = x13) :
    after opsF W (Proc.devRef .tc main_v77) = val_main_v77 (F := F) x0 x1 x2 x3 x4 x5 x6 x7 x8 x9 x10 x11 x12 x13 := by
  after_results_simp
  simp only [ofBuf_toBuf, ofBuf_v76, toBuf_v77]
  rw [hv72, ha12, ha13]
  unfold val_main_v77 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst val_main_v76 val_main_v75 val_main_v74 val_main_v73
  rfl

/-- The stretch leaves `main_v78` at its stage function of the arguments, when the buffers it reads hold theirs. -/
theorem F_v78 (W : Valuation τ sig (Elt F)) {x0 : (⟨S1x1, .i32⟩ : BufTy).Contents (Elt F)} {x1 : (⟨S1x1x1024, .f32⟩ : BufTy).Contents (Elt F)} {x2 : (⟨S100x1024, .f32⟩ : BufTy).Contents (Elt F)} {x3 : (⟨S50257x1024, .f32⟩ : BufTy).Contents (Elt F)} {x4 : (⟨S100x2048, .f32⟩ : BufTy).Contents (Elt F)} {x5 : (⟨S100, .f32⟩ : BufTy).Contents (Elt F)} {x6 : (⟨S1024x2048, .f32⟩ : BufTy).Contents (Elt F)} {x7 : (⟨S1024, .f32⟩ : BufTy).Contents (Elt F)} {x8 : (⟨S3072x1024, .f32⟩ : BufTy).Contents (Elt F)} {x9 : (⟨S3072x1024, .f32⟩ : BufTy).Contents (Elt F)} {x10 : (⟨S3072, .f32⟩ : BufTy).Contents (Elt F)} {x11 : (⟨S3072, .f32⟩ : BufTy).Contents (Elt F)}
    (hv72 : W (Proc.devRef .tc main_v72) = val_main_v72 (F := F) x0 x1 x2 x3 x4 x5 x6 x7 x8 x9 x10 x11) :
    after opsF W (Proc.devRef .tc main_v78) = val_main_v78 (F := F) x0 x1 x2 x3 x4 x5 x6 x7 x8 x9 x10 x11 := by
  after_results_simp
  try rw [hv72]
  rfl

/-- The buffers' contents after the first stretch, the first two, and so on up to the whole program. -/
abbrev U1 (V : Valuation τ sig (Elt F)) : Valuation τ sig (Elt F) := after opsA1 V
abbrev U2 (V : Valuation τ sig (Elt F)) : Valuation τ sig (Elt F) := after opsA2 (U1 V)
abbrev U3 (V : Valuation τ sig (Elt F)) : Valuation τ sig (Elt F) := after opsA3 (U2 V)
abbrev U4 (V : Valuation τ sig (Elt F)) : Valuation τ sig (Elt F) := after opsB (U3 V)
abbrev U5 (V : Valuation τ sig (Elt F)) : Valuation τ sig (Elt F) := after opsC (U4 V)
abbrev U6 (V : Valuation τ sig (Elt F)) : Valuation τ sig (Elt F) := after opsD (U5 V)
abbrev U7 (V : Valuation τ sig (Elt F)) : Valuation τ sig (Elt F) := after opsE (U6 V)
abbrev U8 (V : Valuation τ sig (Elt F)) : Valuation τ sig (Elt F) := after opsF (U7 V)

/-- The program's operations are the eight stretches in order. -/
theorem ops_split : (ops : List (HloOp τ sig (Elt F))) = opsA1 ++ (opsA2 ++ (opsA3 ++ (opsB ++ (opsC ++ (opsD ++ (opsE ++ (opsF))))))) := rfl

/-- So the contents after the program are the contents after the last stretch. -/
theorem after_ops (V : Valuation τ sig (Elt F)) : after ops V = U8 V := by
  rw [ops_split]; repeat rw [after_append]

/-- A buffer none of the first stretches writes still holds its launch contents. -/
theorem keep1 (V : Valuation τ sig (Elt F)) (r : Ref sig .tc) (h1 : r ∉ wA1) :
    U1 V (Proc.devRef .tc r) = V (Proc.devRef .tc r) :=
  keepA1 V r h1

/-- A buffer none of the first stretches writes still holds its launch contents. -/
theorem keep2 (V : Valuation τ sig (Elt F)) (r : Ref sig .tc) (h1 : r ∉ wA1) (h2 : r ∉ wA2) :
    U2 V (Proc.devRef .tc r) = V (Proc.devRef .tc r) :=
  (keepA2 (U1 V) r h2).trans (keep1 V r h1)

/-- A buffer none of the first stretches writes still holds its launch contents. -/
theorem keep3 (V : Valuation τ sig (Elt F)) (r : Ref sig .tc) (h1 : r ∉ wA1) (h2 : r ∉ wA2) (h3 : r ∉ wA3) :
    U3 V (Proc.devRef .tc r) = V (Proc.devRef .tc r) :=
  (keepA3 (U2 V) r h3).trans (keep2 V r h1 h2)

/-- A buffer none of the first stretches writes still holds its launch contents. -/
theorem keep4 (V : Valuation τ sig (Elt F)) (r : Ref sig .tc) (h1 : r ∉ wA1) (h2 : r ∉ wA2) (h3 : r ∉ wA3) (h4 : r ∉ wB) :
    U4 V (Proc.devRef .tc r) = V (Proc.devRef .tc r) :=
  (keepB (U3 V) r h4).trans (keep3 V r h1 h2 h3)

/-- A buffer none of the first stretches writes still holds its launch contents. -/
theorem keep5 (V : Valuation τ sig (Elt F)) (r : Ref sig .tc) (h1 : r ∉ wA1) (h2 : r ∉ wA2) (h3 : r ∉ wA3) (h4 : r ∉ wB) (h5 : r ∉ wC) :
    U5 V (Proc.devRef .tc r) = V (Proc.devRef .tc r) :=
  (keepC (U4 V) r h5).trans (keep4 V r h1 h2 h3 h4)

/-- A buffer none of the first stretches writes still holds its launch contents. -/
theorem keep6 (V : Valuation τ sig (Elt F)) (r : Ref sig .tc) (h1 : r ∉ wA1) (h2 : r ∉ wA2) (h3 : r ∉ wA3) (h4 : r ∉ wB) (h5 : r ∉ wC) (h6 : r ∉ wD) :
    U6 V (Proc.devRef .tc r) = V (Proc.devRef .tc r) :=
  (keepD (U5 V) r h6).trans (keep5 V r h1 h2 h3 h4 h5)

/-- A buffer none of the first stretches writes still holds its launch contents. -/
theorem keep7 (V : Valuation τ sig (Elt F)) (r : Ref sig .tc) (h1 : r ∉ wA1) (h2 : r ∉ wA2) (h3 : r ∉ wA3) (h4 : r ∉ wB) (h5 : r ∉ wC) (h6 : r ∉ wD) (h7 : r ∉ wE) :
    U7 V (Proc.devRef .tc r) = V (Proc.devRef .tc r) :=
  (keepE (U6 V) r h7).trans (keep6 V r h1 h2 h3 h4 h5 h6)

/-- A buffer none of the first stretches writes still holds its launch contents. -/
theorem keep8 (V : Valuation τ sig (Elt F)) (r : Ref sig .tc) (h1 : r ∉ wA1) (h2 : r ∉ wA2) (h3 : r ∉ wA3) (h4 : r ∉ wB) (h5 : r ∉ wC) (h6 : r ∉ wD) (h7 : r ∉ wE) (h8 : r ∉ wF) :
    U8 V (Proc.devRef .tc r) = V (Proc.devRef .tc r) :=
  (keepF (U7 V) r h8).trans (keep7 V r h1 h2 h3 h4 h5 h6 h7)

/-- A buffer no operation writes ends the program at its launch contents: the arguments do. -/
theorem keepAll (V : Valuation τ sig (Elt F)) (r : Ref sig .tc) (h1 : r ∉ wA1) (h2 : r ∉ wA2) (h3 : r ∉ wA3) (h4 : r ∉ wB) (h5 : r ∉ wC) (h6 : r ∉ wD) (h7 : r ∉ wE) (h8 : r ∉ wF) :
    after ops V (Proc.devRef .tc r) = V (Proc.devRef .tc r) := by
  rw [after_ops]; exact keep8 V r h1 h2 h3 h4 h5 h6 h7 h8

/-- The three results at the end of the program are their stage functions of the arguments: the stretches chained, each
    reading what the ones before it left. The attention weights are written in the fourth stretch and kept by the rest. -/
theorem finals (V : Valuation τ sig (Elt F)) :
    after ops V (Proc.devRef .tc main_v77) = val_main_v77 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
    ∧ after ops V (Proc.devRef .tc main_v78) = val_main_v78 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
    ∧ after ops V (Proc.devRef .tc main_v27) = val_main_v27 (F := F) (V (Proc.devRef .tc main_arg0)) (V (Proc.devRef .tc main_arg1)) (V (Proc.devRef .tc main_arg3)) (V (Proc.devRef .tc main_arg4)) (V (Proc.devRef .tc main_arg5)) := by
  rw [after_ops]
  have e3 := A1_v3 V (x0 := (V (Proc.devRef .tc main_arg0))) rfl
  have e6 := A1_v6 (F := F) V
  have e7 := A2_v7 (U1 V) e3 e6 (keep1 V main_arg3 (by decide))
  have e9 := A3_v9 (U2 V) e7
  have e10 := A3_v10 (U2 V) e7
  have e11 := A3_v11 (U2 V) (keep2 V main_arg1 (by decide) (by decide))
  have e27 := B_v27 (U3 V) e10 e11 (keep3 V main_arg4 (by decide) (by decide) (by decide)) (keep3 V main_arg5 (by decide) (by decide) (by decide))
  have e28 := B_v28 (U3 V) e10 e11 (keep3 V main_arg2 (by decide) (by decide) (by decide)) (keep3 V main_arg4 (by decide) (by decide) (by decide)) (keep3 V main_arg5 (by decide) (by decide) (by decide))
  have e29 := B_v29 (U3 V) e9
  have e35 := C_v35 (U4 V) e28 e29 (keep4 V main_arg6 (by decide) (by decide) (by decide) (by decide)) (keep4 V main_arg7 (by decide) (by decide) (by decide) (by decide))
  have e36 := D_v36 (U5 V) (keep5 V main_arg1 (by decide) (by decide) (by decide) (by decide) (by decide))
  have e40 := D_v40 (U5 V) e35 (keep5 V main_arg8 (by decide) (by decide) (by decide) (by decide) (by decide)) (keep5 V main_arg10 (by decide) (by decide) (by decide) (by decide) (by decide))
  have e44 := D_v44 (U5 V) (keep5 V main_arg1 (by decide) (by decide) (by decide) (by decide) (by decide)) (keep5 V main_arg9 (by decide) (by decide) (by decide) (by decide) (by decide)) (keep5 V main_arg11 (by decide) (by decide) (by decide) (by decide) (by decide))
  have e72 := E_v72 (U6 V) e36 e40 e44
  have e77 := F_v77 (U7 V) e72 (keep7 V main_arg12 (by decide) (by decide) (by decide) (by decide) (by decide) (by decide) (by decide)) (keep7 V main_arg13 (by decide) (by decide) (by decide) (by decide) (by decide) (by decide) (by decide))
  have e78 := F_v78 (U7 V) e72
  have e27' : U8 V (Proc.devRef .tc main_v27) = val_main_v27 (F := F) (V (Proc.devRef .tc main_arg0)) (V (Proc.devRef .tc main_arg1)) (V (Proc.devRef .tc main_arg3)) (V (Proc.devRef .tc main_arg4)) (V (Proc.devRef .tc main_arg5)) :=
    (keepF (U7 V) main_v27 (by decide)).trans ((keepE (U6 V) main_v27 (by decide)).trans ((keepD (U5 V) main_v27 (by decide)).trans ((keepC (U4 V) main_v27 (by decide)).trans e27)))
  exact ⟨e77, e78, e27'⟩

/-- Every weakly fair execution of the reference program terminates with its three results at their stage functions of
    the arguments and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v27) = val_main_v27 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      have fin := finals (F := F) (launchContents m c)
      ⟨(h c main_v77).trans fin.1, (h c main_v78).trans fin.2.1, (h c main_v27).trans fin.2.2,
       (h c main_arg0).trans (keepAll (launchContents m c) main_arg0 (by decide) (by decide) (by decide) (by decide) (by decide) (by decide) (by decide) (by decide)),
       (h c main_arg1).trans (keepAll (launchContents m c) main_arg1 (by decide) (by decide) (by decide) (by decide) (by decide) (by decide) (by decide) (by decide)),
       (h c main_arg2).trans (keepAll (launchContents m c) main_arg2 (by decide) (by decide) (by decide) (by decide) (by decide) (by decide) (by decide) (by decide)),
       (h c main_arg3).trans (keepAll (launchContents m c) main_arg3 (by decide) (by decide) (by decide) (by decide) (by decide) (by decide) (by decide) (by decide)),
       (h c main_arg4).trans (keepAll (launchContents m c) main_arg4 (by decide) (by decide) (by decide) (by decide) (by decide) (by decide) (by decide) (by decide)),
       (h c main_arg5).trans (keepAll (launchContents m c) main_arg5 (by decide) (by decide) (by decide) (by decide) (by decide) (by decide) (by decide) (by decide)),
       (h c main_arg6).trans (keepAll (launchContents m c) main_arg6 (by decide) (by decide) (by decide) (by decide) (by decide) (by decide) (by decide) (by decide)),
       (h c main_arg7).trans (keepAll (launchContents m c) main_arg7 (by decide) (by decide) (by decide) (by decide) (by decide) (by decide) (by decide) (by decide)),
       (h c main_arg8).trans (keepAll (launchContents m c) main_arg8 (by decide) (by decide) (by decide) (by decide) (by decide) (by decide) (by decide) (by decide)),
       (h c main_arg9).trans (keepAll (launchContents m c) main_arg9 (by decide) (by decide) (by decide) (by decide) (by decide) (by decide) (by decide) (by decide)),
       (h c main_arg10).trans (keepAll (launchContents m c) main_arg10 (by decide) (by decide) (by decide) (by decide) (by decide) (by decide) (by decide) (by decide)),
       (h c main_arg11).trans (keepAll (launchContents m c) main_arg11 (by decide) (by decide) (by decide) (by decide) (by decide) (by decide) (by decide) (by decide)),
       (h c main_arg12).trans (keepAll (launchContents m c) main_arg12 (by decide) (by decide) (by decide) (by decide) (by decide) (by decide) (by decide) (by decide)),
       (h c main_arg13).trans (keepAll (launchContents m c) main_arg13 (by decide) (by decide) (by decide) (by decide) (by decide) (by decide) (by decide) (by decide))⟩)
    (run_seq scopedRefs_eq scopedSems_eq defs main (fun _ => ops) main_eq (fun _ => ops_sub) m ρ (fun _ => List.forall_iff_forall_mem.mp ops_fresh))

end Cert.ReferenceIdeal.Stages

end
-- ==== Proof.Bridge.Token.lean ====
/-
  The token's range, read back from the printed precondition. The precondition is a conjunction of one-bit
  words; its last two conjuncts are the reductions by "and" of the comparisons 0 ≤ token and token < 50257
  (both signed) over the one-element token array. A conjunction that is 1 has both halves 1; a reduction by
  "and" that is 1 met a 1 at every element; a signed comparison that is 1 is the order of the signed values.
-/
import Idealize.ShloMosaic.Lib.ReduceAll
import Idealize.ShloMosaic.Lib.StableHlo.Predicate
import Idealize.ShloMosaic.Lib.ValueIdx
import proofs.«411164_j15539191677010_3_alg».proof.Pre_finite_inputs

noncomputable section

namespace Cert.Bridge.Token

open Idealize.ShloMosaic

/-- The scalar shape has one index. -/
instance subsingleton_scalar_idx : Subsingleton Cert.Pre_finite_inputs.S_.Idx := ⟨fun a b => funext fun d => d.elim0⟩

/-- A signed "≥ 0" comparison that is 1: the word's signed value is non-negative. -/
theorem sge_zero_of_one (w : BitVec 32) (h : IntOp.cmpi .sge w 0#32 = 1#1) : 0 ≤ w.toInt := by
  unfold IntOp.cmpi at h
  rw [StableHlo.Predicate.ofBool_eq_one_iff] at h
  simpa [BitVec.sle] using h

/-- A signed "< 50257" comparison that is 1: the word's signed value is below 50257. -/
theorem slt_vocab_of_one (w : BitVec 32) (h : IntOp.cmpi .slt w 50257#32 = 1#1) : w.toInt < 50257 := by
  unfold IntOp.cmpi at h
  rw [StableHlo.Predicate.ofBool_eq_one_iff] at h
  have hc : (50257#32 : BitVec 32).toInt = 50257 := by decide
  simpa [BitVec.slt, hc] using h

end Cert.Bridge.Token

namespace Cert.Bridge

open Idealize.ShloMosaic Cert.Bridge.Token

open Cert.Pre_finite_inputs in
/-- THE DECODE: under the printed precondition the token lies in [0, 50257). -/
theorem token_range [Cert.Pre_finite_inputs.Facts] {F : FTy → Type} [FloatOps F]
    (a0 : IVec S1x1 32) (a1 : FVec F S1x1x1024 .f32) (a2 : FVec F S100x1024 .f32) (a3 : FVec F S50257x1024 .f32)
    (a4 : FVec F S100x2048 .f32) (a5 : FVec F S100 .f32) (a6 : FVec F S1024x2048 .f32) (a7 : FVec F S1024 .f32)
    (a8 : FVec F S3072x1024 .f32) (a9 : FVec F S3072x1024 .f32) (a10 : FVec F S3072 .f32) (a11 : FVec F S3072 .f32)
    (a12 : FVec F S50257x1024 .f32) (a13 : FVec F S50257 .f32)
    (h : Cert.Pre_finite_inputs.fn (F := F) a0 a1 a2 a3 a4 a5 a6 a7 a8 a9 a10 a11 a12 a13 = (fun _ => 1#1)) :
    0 ≤ (a0 (ValueIdx.ix2 (0 : Fin 1) (0 : Fin 1))).toInt ∧ (a0 (ValueIdx.ix2 (0 : Fin 1) (0 : Fin 1))).toInt < 50257 := by
  have e := congrFun h ValueIdx.ix0
  dsimp only [fn, fn_part1, fn_part2, fn_part3, fn_part4] at e
  -- the outermost conjunction: (everything before) ∧ all (token < 50257)
  obtain ⟨e1, e2⟩ := IntOp.andi_eq_one.1 (e : IntOp.andi _ _ = 1#1)
  -- the one before it: (the finiteness conjuncts) ∧ all (token ≥ 0)
  obtain ⟨-, e3⟩ := IntOp.andi_eq_one.1 (e1 : IntOp.andi _ _ = 1#1)
  have hlt : IntOp.cmpi .slt (a0 (ValueIdx.ix2 0 0)) 50257#32 = 1#1 :=
    Host.reduce_andi_all _ _ _ _ _ e2 (ValueIdx.ix2 0 0)
  have hge : IntOp.cmpi .sge (a0 (ValueIdx.ix2 0 0)) 0#32 = 1#1 :=
    Host.reduce_andi_all _ _ _ _ _ e3 (ValueIdx.ix2 0 0)
  exact ⟨sge_zero_of_one _ hge, slt_vocab_of_one _ hlt⟩

end Cert.Bridge

end
-- ==== Proof.lean ====
/-
  The certificate of the attention-decoder step: the kernel program (an embedding gather, then three kernel regions —
  attention and the combination layer, the two halves of the GRU gates, the vocabulary projection tiled over sixteen
  blocks whose last one overhangs the 50257 rows — with host operations between them) against its reference, under the
  precondition that every float input is finite and the token indexes the embedding table (0 ≤ token < 50257).

  The word-level program's frame is proved over relational proof data for the projection region (what its body leaves on
  the rows past the array's end is not named) and exact data for the other two. The idealized program's run is proved
  with exact data throughout, so that its three results are named at the end; they are the reference's stages of the same
  arguments, and the reference's own run ends at those stages. The ideal pass rewrote nothing, so there is nothing for
  the preservation conjunct to say.
-/
import proofs.«411164_j15539191677010_3_alg».proof.Defs
import proofs.«411164_j15539191677010_3_alg».proof.Proof.Gen.Kernel
import proofs.«411164_j15539191677010_3_alg».proof.Proof.Gen.KernelIdeal
import proofs.«411164_j15539191677010_3_alg».proof.Proof.Gen.ReferenceIdeal
import proofs.«411164_j15539191677010_3_alg».proof.Proof.Gen.Pre_finite_inputs
import proofs.«411164_j15539191677010_3_alg».proof.Proof.K.Frame
import proofs.«411164_j15539191677010_3_alg».proof.Proof.KI.Values
import proofs.«411164_j15539191677010_3_alg».proof.Proof.RefRun
import proofs.«411164_j15539191677010_3_alg».proof.Proof.Bridge.Token
import Idealize.ShloMosaic.Adequacy
import Idealize.ShloMosaic.Init

set_option maxRecDepth 16384

noncomputable section

namespace Cert.Proof

open Idealize.ShloMosaic Idealize.ShloMosaic.TcCoe Idealize.SL.Sem

/-- The reference program's frame: its run with the results dropped. -/
theorem frame_ri : Cert.frame_ReferenceIdeal := fun m ρ _ =>
  (θ_run Cert.ReferenceIdeal.defs _ _).mono (fun _ h c => (h c).2.2.2) (Cert.ReferenceIdeal.Stages.run (F := Ideal) m ρ)

/-- The token's range at core `c`, from the precondition. -/
theorem token_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    0 ≤ ((m ((c : Thread Cert.KernelIdeal.nD Cert.KernelIdeal.τ).loc Cert.KernelIdeal.main_arg0)) (ValueIdx.ix2 (0 : Fin 1) (0 : Fin 1))).toInt
      ∧ ((m ((c : Thread Cert.KernelIdeal.nD Cert.KernelIdeal.τ).loc Cert.KernelIdeal.main_arg0)) (ValueIdx.ix2 (0 : Fin 1) (0 : Fin 1))).toInt < 50257 :=
  Cert.Bridge.token_range _ _ _ _ _ _ _ _ _ _ _ _ _ _ (hpre c)

/-- The two idealized programs, run from memories that agree on the arguments, end with equal results: the kernel
    program's run names its results at the last boundary, which are the reference's stages of its arguments; the
    reference's run ends at the same stages of its own, equal, arguments. -/
theorem algebraic : Cert.algebraic_KernelIdeal_ReferenceIdeal := by
  intro m ρ m' ρ' hpre hagree
  refine ⟨fun c => Cert.KernelIdeal.Hand.W9 m c (Proc.devRef .tc Cert.KernelIdeal.main_v40),
    fun c => Cert.KernelIdeal.Hand.W9 m c (Proc.devRef .tc Cert.KernelIdeal.main_v41),
    fun c => Cert.KernelIdeal.Hand.W9 m c (Proc.devRef .tc Cert.KernelIdeal.main_v9_1), ?_, ?_⟩
  · refine (θ_run Cert.KernelIdeal.defs _ _).mono (fun r h c => ⟨
      h c _ (Cert.KernelIdeal.Hand.mem_uc Cert.KernelIdeal.main_v40 (by decide)),
      h c _ (Cert.KernelIdeal.Hand.mem_uc Cert.KernelIdeal.main_v41 (by decide)),
      h c _ (Cert.KernelIdeal.Hand.mem_uc Cert.KernelIdeal.main_v9_1 (by decide)),
      (h c _ (Cert.KernelIdeal.Hand.mem_uc Cert.KernelIdeal.main_arg0 (by decide))).trans (Cert.KernelIdeal.Hand.W9_main_arg0 m c),
      (h c _ (Cert.KernelIdeal.Hand.mem_uc Cert.KernelIdeal.main_arg1 (by decide))).trans (Cert.KernelIdeal.Hand.W9_main_arg1 m c),
      (h c _ (Cert.KernelIdeal.Hand.mem_uc Cert.KernelIdeal.main_arg2 (by decide))).trans (Cert.KernelIdeal.Hand.W9_main_arg2 m c),
      (h c _ (Cert.KernelIdeal.Hand.mem_uc Cert.KernelIdeal.main_arg3 (by decide))).trans (Cert.KernelIdeal.Hand.W9_main_arg3 m c),
      (h c _ (Cert.KernelIdeal.Hand.mem_uc Cert.KernelIdeal.main_arg4 (by decide))).trans (Cert.KernelIdeal.Hand.W9_main_arg4 m c),
      (h c _ (Cert.KernelIdeal.Hand.mem_uc Cert.KernelIdeal.main_arg5 (by decide))).trans (Cert.KernelIdeal.Hand.W9_main_arg5 m c),
      (h c _ (Cert.KernelIdeal.Hand.mem_uc Cert.KernelIdeal.main_arg6 (by decide))).trans (Cert.KernelIdeal.Hand.W9_main_arg6 m c),
      (h c _ (Cert.KernelIdeal.Hand.mem_uc Cert.KernelIdeal.main_arg7 (by decide))).trans (Cert.KernelIdeal.Hand.W9_main_arg7 m c),
      (h c _ (Cert.KernelIdeal.Hand.mem_uc Cert.KernelIdeal.main_arg8 (by decide))).trans (Cert.KernelIdeal.Hand.W9_main_arg8 m c),
      (h c _ (Cert.KernelIdeal.Hand.mem_uc Cert.KernelIdeal.main_arg9 (by decide))).trans (Cert.KernelIdeal.Hand.W9_main_arg9 m c),
      (h c _ (Cert.KernelIdeal.Hand.mem_uc Cert.KernelIdeal.main_arg10 (by decide))).trans (Cert.KernelIdeal.Hand.W9_main_arg10 m c),
      (h c _ (Cert.KernelIdeal.Hand.mem_uc Cert.KernelIdeal.main_arg11 (by decide))).trans (Cert.KernelIdeal.Hand.W9_main_arg11 m c),
      (h c _ (Cert.KernelIdeal.Hand.mem_uc Cert.KernelIdeal.main_arg12 (by decide))).trans (Cert.KernelIdeal.Hand.W9_main_arg12 m c),
      (h c _ (Cert.KernelIdeal.Hand.mem_uc Cert.KernelIdeal.main_arg13 (by decide))).trans (Cert.KernelIdeal.Hand.W9_main_arg13 m c)⟩)
      (Cert.KernelIdeal.Hand.run_all m ρ)
  · refine (θ_run Cert.ReferenceIdeal.defs _ _).mono (fun r h c => ?_) (Cert.ReferenceIdeal.Stages.run (F := Ideal) m' ρ')
    have hr := token_in_range m hpre c
    obtain ⟨a0, a1, a2, a3, a4, a5, a6, a7, a8, a9, a10, a11, a12, a13⟩ := hagree c
    refine ⟨?_, ?_, ?_, (h c).2.2.2⟩
    · rw [(h c).1, a0, a1, a2, a3, a4, a5, a6, a7, a8, a9, a10, a11, a12, a13]
      exact (Cert.KernelIdeal.Hand.W9_logp m c hr).symm
    · rw [(h c).2.1, a0, a1, a2, a3, a4, a5, a6, a7, a8, a9, a10, a11]
      exact (Cert.KernelIdeal.Hand.W9_hout m c hr).symm
    · rw [(h c).2.2.1, a0, a1, a3, a4, a5]
      exact (Cert.KernelIdeal.Hand.W9_attnw m c hr).symm

theorem claim : Cert.Claim := ⟨Cert.Kernel.Gen.facts, Cert.KernelIdeal.Gen.facts, Cert.ReferenceIdeal.Gen.facts, Cert.Pre_finite_inputs.Gen.facts,
  Cert.Proof.KFrame.frame, Cert.KernelIdeal.Hand.frame_ki, frame_ri, trivial, algebraic⟩

end Cert.Proof

end
